-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x10 : Shape := ⟨2, ![131072, 10]⟩
abbrev S128x10 : Shape := ⟨2, ![128, 10]⟩
abbrev S128x128 : Shape := ⟨2, ![128, 128]⟩
abbrev S_ : Shape := ⟨0, ![]⟩

class Facts : Prop where
  bcast_S_S131072x10 : S_.BroadcastsInDim S131072x10 (![] : Fin 0 → Fin S131072x10.rank)
  reducesTo_S131072x10_S_d0_1 : S131072x10.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S131072x10 .f32) (main_arg1 : FVec F S128x10 .f32) (main_arg2 : FVec F S128x128 .f32) : IVec S_ 1 :=
  let main_v0 : FVec F S131072x10 .f32 := Host.absf main_arg0
  let main_cst : FVec F S_ .f32 := constant S_ .f32 0x7F800000#32
  let main_v1 : FVec F S131072x10 .f32 := broadcastInDim S131072x10 ![] bcast_S_S131072x10 main_cst
  let main_v2 : IVec S131072x10 1 := cmpf .olt main_v0 main_v1
  let main_c : IVec S_ 1 := constantI S_ 1 1#1
  let main_v3 : IVec S_ 1 := (fun x v => Host.reduce IntOp.andi x v reducesTo_S131072x10_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S131072x10 : Shape := ⟨2, ![131072, 10]⟩
abbrev S128x10 : Shape := ⟨2, ![128, 10]⟩
abbrev S128x128 : Shape := ⟨2, ![128, 128]⟩
abbrev S10x131072 : Shape := ⟨2, ![10, 131072]⟩
abbrev S10x128 : Shape := ⟨2, ![10, 128]⟩
abbrev S10x128x1 : Shape := ⟨3, ![10, 128, 1]⟩
abbrev S10x128x128 : Shape := ⟨3, ![10, 128, 128]⟩
abbrev S1280x128 : Shape := ⟨2, ![1280, 128]⟩
abbrev S131072x128 : Shape := ⟨2, ![131072, 128]⟩
abbrev S10x16384 : Shape := ⟨2, ![10, 16384]⟩
abbrev S16384x128 : Shape := ⟨2, ![16384, 128]⟩
abbrev S1x128 : Shape := ⟨2, ![1, 128]⟩

abbrev nBuf : Space → Nat
  | .hbm => 9
  | .vmem => 6
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S10x131072, .f32⟩
  | .hbm, ⟨4, _⟩ => ⟨S10x128, .f32⟩
  | .hbm, ⟨5, _⟩ => ⟨S10x128x1, .f32⟩
  | .hbm, ⟨6, _⟩ => ⟨S10x128x128, .f32⟩
  | .hbm, ⟨7, _⟩ => ⟨S1280x128, .f32⟩
  | .hbm, ⟨8, _⟩ => ⟨S131072x128, .f32⟩
  | .local _ .vmem, ⟨0, _⟩ => ⟨S10x16384, .f32⟩
  | .local _ .vmem, ⟨1, _⟩ => ⟨S10x16384, .f32⟩
  | .local _ .vmem, ⟨2, _⟩ => ⟨S1280x128, .f32⟩
  | .local _ .vmem, ⟨3, _⟩ => ⟨S128x128, .f32⟩
  | .local _ .vmem, ⟨4, _⟩ => ⟨S16384x128, .f32⟩
  | .local _ .vmem, ⟨5, _⟩ => ⟨S16384x128, .f32⟩
  | _, _ => ⟨S131072x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x16384.size a ≤ S10x131072.size a
  hwx0_0 : ∀ i : grid0.Coords, EltTy.bits .f32 = 32 ∨ (Rect.block (s := S10x131072) S10x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S1280x128.size a
  hwx0_1 : ∀ i : grid0.Coords, EltTy.bits .f32 = 32 ∨ (Rect.block (s := S1280x128) S1280x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S131072x128.size a
  hwx0_3 : ∀ i : grid0.Coords, EltTy.bits .f32 = 32 ∨ (Rect.block (s := S131072x128) S16384x128.size (cc0_transform_3 i) (hinb0_3 i)).WholeWords (EltTy.packing .f32)

class Shapes1.Facts₀ : Prop where
  transposes_S131072x10_S10x131072_1_0 : S131072x10.Transposes [1, 0] S10x131072
  transposes_S128x10_S10x128_1_0 : S128x10.Transposes [1, 0] S10x128
  bcast_S10x128_S10x128x1_0_1 : S10x128.BroadcastsInDim S10x128x1 (![0, 1] : Fin 2 → Fin S10x128x1.rank)
  bcast_S10x128x1_S10x128x128_0_1_2 : S10x128x1.BroadcastsInDim S10x128x128 (![0, 1, 2] : Fin 3 → Fin S10x128x128.rank)
  shapeCasts_S10x128x128_S1280x128 : S10x128x128.ShapeCasts S1280x128
  inb_S128x128_S128x128_0_0 : ∀ a, (![0, 0] : Fin 2 → Nat) a + S128x128.size a ≤ S128x128.size a
  h_S128x128 : 0 < S128x128.numel
  inb_S10x16384_S1x128_0_0 : ∀ a, (![0, 0] : Fin 2 → Nat) a + S1x128.size a ≤ S10x16384.size a
  h_S1x128 : 0 < S1x128.numel
  shapeCasts_S1x128_S1x128 : S1x128.ShapeCasts S1x128
  inb_S1280x128_S128x128_0_0 : ∀ a, (![0, 0] : Fin 2 → Nat) a + S128x128.size a ≤ S1280x128.size a
  shapeCasts_S128x128_S128x128 : S128x128.ShapeCasts S128x128
  broadcasts_S1x128_S128x128 : S1x128.Broadcasts S128x128
  inb_S10x16384_S1x128_1_0 : ∀ a, (![1, 0] : Fin 2 → Nat) a + S1x128.size a ≤ S10x16384.size a
  inb_S1280x128_S128x128_128_0 : ∀ a, (![128, 0] : Fin 2 → Nat) a + S128x128.size a ≤ S1280x128.size a
  inb_S10x16384_S1x128_2_0 : ∀ a, (![2, 0] : Fin 2 → Nat) a + S1x128.size a ≤ S10x16384.size a
  inb_S1280x128_S128x128_256_0 : ∀ a, (![256, 0] : Fin 2 → Nat) a + S128x128.size a ≤ S1280x128.size a
  inb_S10x16384_S1x128_3_0 : ∀ a, (![3, 0] : Fin 2 → Nat) a + S1x128.size a ≤ S10x16384.size a
  inb_S1280x128_S128x128_384_0 : ∀ a, (![384, 0] : Fin 2 → Nat) a + S128x128.size a ≤ S1280x128.size a
  inb_S10x16384_S1x128_4_0 : ∀ a, (![4, 0] : Fin 2 → Nat) a + S1x128.size a ≤ S10x16384.size a
  inb_S1280x128_S128x128_512_0 : ∀ a, (![512, 0] : Fin 2 → Nat) a + S128x128.size a ≤ S1280x128.size a
  inb_S10x16384_S1x128_5_0 : ∀ a, (![5, 0] : Fin 2 → Nat) a + S1x128.size a ≤ S10x16384.size a
  inb_S1280x128_S128x128_640_0 : ∀ a, (![640, 0] : Fin 2 → Nat) a + S128x128.size a ≤ S1280x128.size a
  inb_S10x16384_S1x128_6_0 : ∀ a, (![6, 0] : Fin 2 → Nat) a + S1x128.size a ≤ S10x16384.size a
  inb_S1280x128_S128x128_768_0 : ∀ a, (![768, 0] : Fin 2 → Nat) a + S128x128.size a ≤ S1280x128.size a
  inb_S10x16384_S1x128_7_0 : ∀ a, (![7, 0] : Fin 2 → Nat) a + S1x128.size a ≤ S10x16384.size a
  inb_S1280x128_S128x128_896_0 : ∀ a, (![896, 0] : Fin 2 → Nat) a + S128x128.size a ≤ S1280x128.size a
  inb_S10x16384_S1x128_8_0 : ∀ a, (![8, 0] : Fin 2 → Nat) a + S1x128.size a ≤ S10x16384.size a
  inb_S1280x128_S128x128_1024_0 : ∀ a, (![1024, 0] : Fin 2 → Nat) a + S128x128.size a ≤ S1280x128.size a
  inb_S10x16384_S1x128_9_0 : ∀ a, (![9, 0] : Fin 2 → Nat) a + S1x128.size a ≤ S10x16384.size a
  inb_S1280x128_S128x128_1152_0 : ∀ a, (![1152, 0] : Fin 2 → Nat) a + S128x128.size a ≤ S1280x128.size a
  inb_S16384x128_S128x128_0_0 : ∀ a, (![0, 0] : Fin 2 → Nat) a + S128x128.size a ≤ S16384x128.size a
  inb_S10x16384_S1x128_0_128 : ∀ a, (![0, 128] : Fin 2 → Nat) a + S1x128.size a ≤ S10x16384.size a
  inb_S10x16384_S1x128_1_128 : ∀ a, (![1, 128] : Fin 2 → Nat) a + S1x128.size a ≤ S10x16384.size a
  inb_S10x16384_S1x128_2_128 : ∀ a, (![2, 128] : Fin 2 → Nat) a + S1x128.size a ≤ S10x16384.size a
  inb_S10x16384_S1x128_3_128 : ∀ a, (![3, 128] : Fin 2 → Nat) a + S1x128.size a ≤ S10x16384.size a
  inb_S10x16384_S1x128_4_128 : ∀ a, (![4, 128] : Fin 2 → Nat) a + S1x128.size a ≤ S10x16384.size a
  inb_S10x16384_S1x128_5_128 : ∀ a, (![5, 128] : Fin 2 → Nat) a + S1x128.size a ≤ S10x16384.size a
  inb_S10x16384_S1x128_6_128 : ∀ a, (![6, 128] : Fin 2 → Nat) a + S1x128.size a ≤ S10x16384.size a
  inb_S10x16384_S1x128_7_128 : ∀ a, (![7, 128] : Fin 2 → Nat) a + S1x128.size a ≤ S10x16384.size a
  inb_S10x16384_S1x128_8_128 : ∀ a, (![8, 128] : Fin 2 → Nat) a + S1x128.size a ≤ S10x16384.size a
  inb_S10x16384_S1x128_9_128 : ∀ a, (![9, 128] : Fin 2 → Nat) a + S1x128.size a ≤ S10x16384.size a
  inb_S16384x128_S128x128_128_0 : ∀ a, (![128, 0] : Fin 2 → Nat) a + S128x128.size a ≤ S16384x128.size a
  inb_S10x16384_S1x128_0_256 : ∀ a, (![0, 256] : Fin 2 → Nat) a + S1x128.size a ≤ S10x16384.size a
  inb_S10x16384_S1x128_1_256 : ∀ a, (![1, 256] : Fin 2 → Nat) a + S1x128.size a ≤ S10x16384.size a
  inb_S10x16384_S1x128_2_256 : ∀ a, (![2, 256] : Fin 2 → Nat) a + S1x128.size a ≤ S10x16384.size a
  inb_S10x16384_S1x128_3_256 : ∀ a, (![3, 256] : Fin 2 → Nat) a + S1x128.size a ≤ S10x16384.size a
  inb_S10x16384_S1x128_4_256 : ∀ a, (![4, 256] : Fin 2 → Nat) a + S1x128.size a ≤ S10x16384.size a
  inb_S10x16384_S1x128_5_256 : ∀ a, (![5, 256] : Fin 2 → Nat) a + S1x128.size a ≤ S10x16384.size a
  inb_S10x16384_S1x128_6_256 : ∀ a, (![6, 256] : Fin 2 → Nat) a + S1x128.size a ≤ S10x16384.size a
  inb_S10x16384_S1x128_7_256 : ∀ a, (![7, 256] : Fin 2 → Nat) a + S1x128.size a ≤ S10x16384.size a
  inb_S10x16384_S1x128_8_256 : ∀ a, (![8, 256] : Fin 2 → Nat) a + S1x128.size a ≤ S10x16384.size a
  inb_S10x16384_S1x128_9_256 : ∀ a, (![9, 256] : Fin 2 → Nat) a + S1x128.size a ≤ S10x16384.size a
  inb_S16384x128_S128x128_256_0 : ∀ a, (![256, 0] : Fin 2 → Nat) a + S128x128.size a ≤ S16384x128.size a
  inb_S10x16384_S1x128_0_384 : ∀ a, (![0, 384] : Fin 2 → Nat) a + S1x128.size a ≤ S10x16384.size a
  inb_S10x16384_S1x128_1_384 : ∀ a, (![1, 384] : Fin 2 → Nat) a + S1x128.size a ≤ S10x16384.size a
  inb_S10x16384_S1x128_2_384 : ∀ a, (![2, 384] : Fin 2 → Nat) a + S1x128.size a ≤ S10x16384.size a
  inb_S10x16384_S1x128_3_384 : ∀ a, (![3, 384] : Fin 2 → Nat) a + S1x128.size a ≤ S10x16384.size a
  inb_S10x16384_S1x128_4_384 : ∀ a, (![4, 384] : Fin 2 → Nat) a + S1x128.size a ≤ S10x16384.size a
  inb_S10x16384_S1x128_5_384 : ∀ a, (![5, 384] : Fin 2 → Nat) a + S1x128.size a ≤ S10x16384.size a
  inb_S10x16384_S1x128_6_384 : ∀ a, (![6, 384] : Fin 2 → Nat) a + S1x128.size a ≤ S10x16384.size a
  inb_S10x16384_S1x128_7_384 : ∀ a, (![7, 384] : Fin 2 → Nat) a + S1x128.size a ≤ S10x16384.size a
  inb_S10x16384_S1x128_8_384 : ∀ a, (![8, 384] : Fin 2 → Nat) a + S1x128.size a ≤ S10x16384.size a
  inb_S10x16384_S1x128_9_384 : ∀ a, (![9, 384] : Fin 2 → Nat) a + S1x128.size a ≤ S10x16384.size a
  inb_S16384x128_S128x128_384_0 : ∀ a, (![384, 0] : Fin 2 → Nat) a + S128x128.size a ≤ S16384x128.size a
  inb_S10x16384_S1x128_0_512 : ∀ a, (![0, 512] : Fin 2 → Nat) a + S1x128.size a ≤ S10x16384.size a
  inb_S10x16384_S1x128_1_512 : ∀ a, (![1, 512] : Fin 2 → Nat) a + S1x128.size a ≤ S10x16384.size a
  inb_S10x16384_S1x128_2_512 : ∀ a, (![2, 512] : Fin 2 → Nat) a + S1x128.size a ≤ S10x16384.size a
  inb_S10x16384_S1x128_3_512 : ∀ a, (![3, 512] : Fin 2 → Nat) a + S1x128.size a ≤ S10x16384.size a
  inb_S10x16384_S1x128_4_512 : ∀ a, (![4, 512] : Fin 2 → Nat) a + S1x128.size a ≤ S10x16384.size a
  inb_S10x16384_S1x128_5_512 : ∀ a, (![5, 512] : Fin 2 → Nat) a + S1x128.size a ≤ S10x16384.size a
  inb_S10x16384_S1x128_6_512 : ∀ a, (![6, 512] : Fin 2 → Nat) a + S1x128.size a ≤ S10x16384.size a
  inb_S10x16384_S1x128_7_512 : ∀ a, (![7, 512] : Fin 2 → Nat) a + S1x128.size a ≤ S10x16384.size a
  inb_S10x16384_S1x128_8_512 : ∀ a, (![8, 512] : Fin 2 → Nat) a + S1x128.size a ≤ S10x16384.size a
  inb_S10x16384_S1x128_9_512 : ∀ a, (![9, 512] : Fin 2 → Nat) a + S1x128.size a ≤ S10x16384.size a
  inb_S16384x128_S128x128_512_0 : ∀ a, (![512, 0] : Fin 2 → Nat) a + S128x128.size a ≤ S16384x128.size a
  inb_S10x16384_S1x128_0_640 : ∀ a, (![0, 640] : Fin 2 → Nat) a + S1x128.size a ≤ S10x16384.size a
  inb_S10x16384_S1x128_1_640 : ∀ a, (![1, 640] : Fin 2 → Nat) a + S1x128.size a ≤ S10x16384.size a
  inb_S10x16384_S1x128_2_640 : ∀ a, (![2, 640] : Fin 2 → Nat) a + S1x128.size a ≤ S10x16384.size a
  inb_S10x16384_S1x128_3_640 : ∀ a, (![3, 640] : Fin 2 → Nat) a + S1x128.size a ≤ S10x16384.size a
  inb_S10x16384_S1x128_4_640 : ∀ a, (![4, 640] : Fin 2 → Nat) a + S1x128.size a ≤ S10x16384.size a
  inb_S10x16384_S1x128_5_640 : ∀ a, (![5, 640] : Fin 2 → Nat) a + S1x128.size a ≤ S10x16384.size a
  inb_S10x16384_S1x128_6_640 : ∀ a, (![6, 640] : Fin 2 → Nat) a + S1x128.size a ≤ S10x16384.size a
  inb_S10x16384_S1x128_7_640 : ∀ a, (![7, 640] : Fin 2 → Nat) a + S1x128.size a ≤ S10x16384.size a
  inb_S10x16384_S1x128_8_640 : ∀ a, (![8, 640] : Fin 2 → Nat) a + S1x128.size a ≤ S10x16384.size a
  inb_S10x16384_S1x128_9_640 : ∀ a, (![9, 640] : Fin 2 → Nat) a + S1x128.size a ≤ S10x16384.size a
  inb_S16384x128_S128x128_640_0 : ∀ a, (![640, 0] : Fin 2 → Nat) a + S128x128.size a ≤ S16384x128.size a
  inb_S10x16384_S1x128_0_768 : ∀ a, (![0, 768] : Fin 2 → Nat) a + S1x128.size a ≤ S10x16384.size a
  inb_S10x16384_S1x128_1_768 : ∀ a, (![1, 768] : Fin 2 → Nat) a + S1x128.size a ≤ S10x16384.size a
  inb_S10x16384_S1x128_2_768 : ∀ a, (![2, 768] : Fin 2 → Nat) a + S1x128.size a ≤ S10x16384.size a
  inb_S10x16384_S1x128_3_768 : ∀ a, (![3, 768] : Fin 2 → Nat) a + S1x128.size a ≤ S10x16384.size a
  inb_S10x16384_S1x128_4_768 : ∀ a, (![4, 768] : Fin 2 → Nat) a + S1x128.size a ≤ S10x16384.size a
  inb_S10x16384_S1x128_5_768 : ∀ a, (![5, 768] : Fin 2 → Nat) a + S1x128.size a ≤ S10x16384.size a
  inb_S10x16384_S1x128_6_768 : ∀ a, (![6, 768] : Fin 2 → Nat) a + S1x128.size a ≤ S10x16384.size a
  inb_S10x16384_S1x128_7_768 : ∀ a, (![7, 768] : Fin 2 → Nat) a + S1x128.size a ≤ S10x16384.size a
  inb_S10x16384_S1x128_8_768 : ∀ a, (![8, 768] : Fin 2 → Nat) a + S1x128.size a ≤ S10x16384.size a
  inb_S10x16384_S1x128_9_768 : ∀ a, (![9, 768] : Fin 2 → Nat) a + S1x128.size a ≤ S10x16384.size a
  inb_S16384x128_S128x128_768_0 : ∀ a, (![768, 0] : Fin 2 → Nat) a + S128x128.size a ≤ S16384x128.size a
  inb_S10x16384_S1x128_0_896 : ∀ a, (![0, 896] : Fin 2 → Nat) a + S1x128.size a ≤ S10x16384.size a
  inb_S10x16384_S1x128_1_896 : ∀ a, (![1, 896] : Fin 2 → Nat) a + S1x128.size a ≤ S10x16384.size a
  inb_S10x16384_S1x128_2_896 : ∀ a, (![2, 896] : Fin 2 → Nat) a + S1x128.size a ≤ S10x16384.size a
  inb_S10x16384_S1x128_3_896 : ∀ a, (![3, 896] : Fin 2 → Nat) a + S1x128.size a ≤ S10x16384.size a
  inb_S10x16384_S1x128_4_896 : ∀ a, (![4, 896] : Fin 2 → Nat) a + S1x128.size a ≤ S10x16384.size a
  inb_S10x16384_S1x128_5_896 : ∀ a, (![5, 896] : Fin 2 → Nat) a + S1x128.size a ≤ S10x16384.size a
  inb_S10x16384_S1x128_6_896 : ∀ a, (![6, 896] : Fin 2 → Nat) a + S1x128.size a ≤ S10x16384.size a
  inb_S10x16384_S1x128_7_896 : ∀ a, (![7, 896] : Fin 2 → Nat) a + S1x128.size a ≤ S10x16384.size a
  inb_S10x16384_S1x128_8_896 : ∀ a, (![8, 896] : Fin 2 → Nat) a + S1x128.size a ≤ S10x16384.size a
  inb_S10x16384_S1x128_9_896 : ∀ a, (![9, 896] : Fin 2 → Nat) a + S1x128.size a ≤ S10x16384.size a
  inb_S16384x128_S128x128_896_0 : ∀ a, (![896, 0] : Fin 2 → Nat) a + S128x128.size a ≤ S16384x128.size a
  inb_S10x16384_S1x128_0_1024 : ∀ a, (![0, 1024] : Fin 2 → Nat) a + S1x128.size a ≤ S10x16384.size a
  inb_S10x16384_S1x128_1_1024 : ∀ a, (![1, 1024] : Fin 2 → Nat) a + S1x128.size a ≤ S10x16384.size a
  inb_S10x16384_S1x128_2_1024 : ∀ a, (![2, 1024] : Fin 2 → Nat) a + S1x128.size a ≤ S10x16384.size a
  inb_S10x16384_S1x128_3_1024 : ∀ a, (![3, 1024] : Fin 2 → Nat) a + S1x128.size a ≤ S10x16384.size a
  inb_S10x16384_S1x128_4_1024 : ∀ a, (![4, 1024] : Fin 2 → Nat) a + S1x128.size a ≤ S10x16384.size a
  inb_S10x16384_S1x128_5_1024 : ∀ a, (![5, 1024] : Fin 2 → Nat) a + S1x128.size a ≤ S10x16384.size a
  inb_S10x16384_S1x128_6_1024 : ∀ a, (![6, 1024] : Fin 2 → Nat) a + S1x128.size a ≤ S10x16384.size a
  inb_S10x16384_S1x128_7_1024 : ∀ a, (![7, 1024] : Fin 2 → Nat) a + S1x128.size a ≤ S10x16384.size a
  inb_S10x16384_S1x128_8_1024 : ∀ a, (![8, 1024] : Fin 2 → Nat) a + S1x128.size a ≤ S10x16384.size a
  inb_S10x16384_S1x128_9_1024 : ∀ a, (![9, 1024] : Fin 2 → Nat) a + S1x128.size a ≤ S10x16384.size a
  inb_S16384x128_S128x128_1024_0 : ∀ a, (![1024, 0] : Fin 2 → Nat) a + S128x128.size a ≤ S16384x128.size a
  inb_S10x16384_S1x128_0_1152 : ∀ a, (![0, 1152] : Fin 2 → Nat) a + S1x128.size a ≤ S10x16384.size a
  inb_S10x16384_S1x128_1_1152 : ∀ a, (![1, 1152] : Fin 2 → Nat) a + S1x128.size a ≤ S10x16384.size a
  inb_S10x16384_S1x128_2_1152 : ∀ a, (![2, 1152] : Fin 2 → Nat) a + S1x128.size a ≤ S10x16384.size a
  inb_S10x16384_S1x128_3_1152 : ∀ a, (![3, 1152] : Fin 2 → Nat) a + S1x128.size a ≤ S10x16384.size a
  inb_S10x16384_S1x128_4_1152 : ∀ a, (![4, 1152] : Fin 2 → Nat) a + S1x128.size a ≤ S10x16384.size a
  inb_S10x16384_S1x128_5_1152 : ∀ a, (![5, 1152] : Fin 2 → Nat) a + S1x128.size a ≤ S10x16384.size a
  inb_S10x16384_S1x128_6_1152 : ∀ a, (![6, 1152] : Fin 2 → Nat) a + S1x128.size a ≤ S10x16384.size a
  inb_S10x16384_S1x128_7_1152 : ∀ a, (![7, 1152] : Fin 2 → Nat) a + S1x128.size a ≤ S10x16384.size a
  inb_S10x16384_S1x128_8_1152 : ∀ a, (![8, 1152] : Fin 2 → Nat) a + S1x128.size a ≤ S10x16384.size a
  inb_S10x16384_S1x128_9_1152 : ∀ a, (![9, 1152] : Fin 2 → Nat) a + S1x128.size a ≤ S10x16384.size a
  inb_S16384x128_S128x128_1152_0 : ∀ a, (![1152, 0] : Fin 2 → Nat) a + S128x128.size a ≤ S16384x128.size a
  inb_S10x16384_S1x128_0_1280 : ∀ a, (![0, 1280] : Fin 2 → Nat) a + S1x128.size a ≤ S10x16384.size a
  inb_S10x16384_S1x128_1_1280 : ∀ a, (![1, 1280] : Fin 2 → Nat) a + S1x128.size a ≤ S10x16384.size a
  inb_S10x16384_S1x128_2_1280 : ∀ a, (![2, 1280] : Fin 2 → Nat) a + S1x128.size a ≤ S10x16384.size a
  inb_S10x16384_S1x128_3_1280 : ∀ a, (![3, 1280] : Fin 2 → Nat) a + S1x128.size a ≤ S10x16384.size a
  inb_S10x16384_S1x128_4_1280 : ∀ a, (![4, 1280] : Fin 2 → Nat) a + S1x128.size a ≤ S10x16384.size a
  inb_S10x16384_S1x128_5_1280 : ∀ a, (![5, 1280] : Fin 2 → Nat) a + S1x128.size a ≤ S10x16384.size a
  inb_S10x16384_S1x128_6_1280 : ∀ a, (![6, 1280] : Fin 2 → Nat) a + S1x128.size a ≤ S10x16384.size a
  inb_S10x16384_S1x128_7_1280 : ∀ a, (![7, 1280] : Fin 2 → Nat) a + S1x128.size a ≤ S10x16384.size a
  inb_S10x16384_S1x128_8_1280 : ∀ a, (![8, 1280] : Fin 2 → Nat) a + S1x128.size a ≤ S10x16384.size a
  inb_S10x16384_S1x128_9_1280 : ∀ a, (![9, 1280] : Fin 2 → Nat) a + S1x128.size a ≤ S10x16384.size a
  inb_S16384x128_S128x128_1280_0 : ∀ a, (![1280, 0] : Fin 2 → Nat) a + S128x128.size a ≤ S16384x128.size a
  inb_S10x16384_S1x128_0_1408 : ∀ a, (![0, 1408] : Fin 2 → Nat) a + S1x128.size a ≤ S10x16384.size a
  inb_S10x16384_S1x128_1_1408 : ∀ a, (![1, 1408] : Fin 2 → Nat) a + S1x128.size a ≤ S10x16384.size a
  inb_S10x16384_S1x128_2_1408 : ∀ a, (![2, 1408] : Fin 2 → Nat) a + S1x128.size a ≤ S10x16384.size a
  inb_S10x16384_S1x128_3_1408 : ∀ a, (![3, 1408] : Fin 2 → Nat) a + S1x128.size a ≤ S10x16384.size a
  inb_S10x16384_S1x128_4_1408 : ∀ a, (![4, 1408] : Fin 2 → Nat) a + S1x128.size a ≤ S10x16384.size a
  inb_S10x16384_S1x128_5_1408 : ∀ a, (![5, 1408] : Fin 2 → Nat) a + S1x128.size a ≤ S10x16384.size a
  inb_S10x16384_S1x128_6_1408 : ∀ a, (![6, 1408] : Fin 2 → Nat) a + S1x128.size a ≤ S10x16384.size a
  inb_S10x16384_S1x128_7_1408 : ∀ a, (![7, 1408] : Fin 2 → Nat) a + S1x128.size a ≤ S10x16384.size a
  inb_S10x16384_S1x128_8_1408 : ∀ a, (![8, 1408] : Fin 2 → Nat) a + S1x128.size a ≤ S10x16384.size a
  inb_S10x16384_S1x128_9_1408 : ∀ a, (![9, 1408] : Fin 2 → Nat) a + S1x128.size a ≤ S10x16384.size a
  inb_S16384x128_S128x128_1408_0 : ∀ a, (![1408, 0] : Fin 2 → Nat) a + S128x128.size a ≤ S16384x128.size a
  inb_S10x16384_S1x128_0_1536 : ∀ a, (![0, 1536] : Fin 2 → Nat) a + S1x128.size a ≤ S10x16384.size a
  inb_S10x16384_S1x128_1_1536 : ∀ a, (![1, 1536] : Fin 2 → Nat) a + S1x128.size a ≤ S10x16384.size a
  inb_S10x16384_S1x128_2_1536 : ∀ a, (![2, 1536] : Fin 2 → Nat) a + S1x128.size a ≤ S10x16384.size a
  inb_S10x16384_S1x128_3_1536 : ∀ a, (![3, 1536] : Fin 2 → Nat) a + S1x128.size a ≤ S10x16384.size a
  inb_S10x16384_S1x128_4_1536 : ∀ a, (![4, 1536] : Fin 2 → Nat) a + S1x128.size a ≤ S10x16384.size a
  inb_S10x16384_S1x128_5_1536 : ∀ a, (![5, 1536] : Fin 2 → Nat) a + S1x128.size a ≤ S10x16384.size a
  inb_S10x16384_S1x128_6_1536 : ∀ a, (![6, 1536] : Fin 2 → Nat) a + S1x128.size a ≤ S10x16384.size a
  inb_S10x16384_S1x128_7_1536 : ∀ a, (![7, 1536] : Fin 2 → Nat) a + S1x128.size a ≤ S10x16384.size a
  inb_S10x16384_S1x128_8_1536 : ∀ a, (![8, 1536] : Fin 2 → Nat) a + S1x128.size a ≤ S10x16384.size a
  inb_S10x16384_S1x128_9_1536 : ∀ a, (![9, 1536] : Fin 2 → Nat) a + S1x128.size a ≤ S10x16384.size a
  inb_S16384x128_S128x128_1536_0 : ∀ a, (![1536, 0] : Fin 2 → Nat) a + S128x128.size a ≤ S16384x128.size a
  inb_S10x16384_S1x128_0_1664 : ∀ a, (![0, 1664] : Fin 2 → Nat) a + S1x128.size a ≤ S10x16384.size a
  inb_S10x16384_S1x128_1_1664 : ∀ a, (![1, 1664] : Fin 2 → Nat) a + S1x128.size a ≤ S10x16384.size a
  inb_S10x16384_S1x128_2_1664 : ∀ a, (![2, 1664] : Fin 2 → Nat) a + S1x128.size a ≤ S10x16384.size a
  inb_S10x16384_S1x128_3_1664 : ∀ a, (![3, 1664] : Fin 2 → Nat) a + S1x128.size a ≤ S10x16384.size a
  inb_S10x16384_S1x128_4_1664 : ∀ a, (![4, 1664] : Fin 2 → Nat) a + S1x128.size a ≤ S10x16384.size a
  inb_S10x16384_S1x128_5_1664 : ∀ a, (![5, 1664] : Fin 2 → Nat) a + S1x128.size a ≤ S10x16384.size a
  inb_S10x16384_S1x128_6_1664 : ∀ a, (![6, 1664] : Fin 2 → Nat) a + S1x128.size a ≤ S10x16384.size a
  inb_S10x16384_S1x128_7_1664 : ∀ a, (![7, 1664] : Fin 2 → Nat) a + S1x128.size a ≤ S10x16384.size a
  inb_S10x16384_S1x128_8_1664 : ∀ a, (![8, 1664] : Fin 2 → Nat) a + S1x128.size a ≤ S10x16384.size a
  inb_S10x16384_S1x128_9_1664 : ∀ a, (![9, 1664] : Fin 2 → Nat) a + S1x128.size a ≤ S10x16384.size a
  inb_S16384x128_S128x128_1664_0 : ∀ a, (![1664, 0] : Fin 2 → Nat) a + S128x128.size a ≤ S16384x128.size a
  inb_S10x16384_S1x128_0_1792 : ∀ a, (![0, 1792] : Fin 2 → Nat) a + S1x128.size a ≤ S10x16384.size a
  inb_S10x16384_S1x128_1_1792 : ∀ a, (![1, 1792] : Fin 2 → Nat) a + S1x128.size a ≤ S10x16384.size a
  inb_S10x16384_S1x128_2_1792 : ∀ a, (![2, 1792] : Fin 2 → Nat) a + S1x128.size a ≤ S10x16384.size a
  inb_S10x16384_S1x128_3_1792 : ∀ a, (![3, 1792] : Fin 2 → Nat) a + S1x128.size a ≤ S10x16384.size a
  inb_S10x16384_S1x128_4_1792 : ∀ a, (![4, 1792] : Fin 2 → Nat) a + S1x128.size a ≤ S10x16384.size a
  inb_S10x16384_S1x128_5_1792 : ∀ a, (![5, 1792] : Fin 2 → Nat) a + S1x128.size a ≤ S10x16384.size a
  inb_S10x16384_S1x128_6_1792 : ∀ a, (![6, 1792] : Fin 2 → Nat) a + S1x128.size a ≤ S10x16384.size a
  inb_S10x16384_S1x128_7_1792 : ∀ a, (![7, 1792] : Fin 2 → Nat) a + S1x128.size a ≤ S10x16384.size a
  inb_S10x16384_S1x128_8_1792 : ∀ a, (![8, 1792] : Fin 2 → Nat) a + S1x128.size a ≤ S10x16384.size a
  inb_S10x16384_S1x128_9_1792 : ∀ a, (![9, 1792] : Fin 2 → Nat) a + S1x128.size a ≤ S10x16384.size a
  inb_S16384x128_S128x128_1792_0 : ∀ a, (![1792, 0] : Fin 2 → Nat) a + S128x128.size a ≤ S16384x128.size a
  inb_S10x16384_S1x128_0_1920 : ∀ a, (![0, 1920] : Fin 2 → Nat) a + S1x128.size a ≤ S10x16384.size a
  inb_S10x16384_S1x128_1_1920 : ∀ a, (![1, 1920] : Fin 2 → Nat) a + S1x128.size a ≤ S10x16384.size a
  inb_S10x16384_S1x128_2_1920 : ∀ a, (![2, 1920] : Fin 2 → Nat) a + S1x128.size a ≤ S10x16384.size a
  inb_S10x16384_S1x128_3_1920 : ∀ a, (![3, 1920] : Fin 2 → Nat) a + S1x128.size a ≤ S10x16384.size a
  inb_S10x16384_S1x128_4_1920 : ∀ a, (![4, 1920] : Fin 2 → Nat) a + S1x128.size a ≤ S10x16384.size a
  inb_S10x16384_S1x128_5_1920 : ∀ a, (![5, 1920] : Fin 2 → Nat) a + S1x128.size a ≤ S10x16384.size a
  inb_S10x16384_S1x128_6_1920 : ∀ a, (![6, 1920] : Fin 2 → Nat) a + S1x128.size a ≤ S10x16384.size a
  inb_S10x16384_S1x128_7_1920 : ∀ a, (![7, 1920] : Fin 2 → Nat) a + S1x128.size a ≤ S10x16384.size a
  inb_S10x16384_S1x128_8_1920 : ∀ a, (![8, 1920] : Fin 2 → Nat) a + S1x128.size a ≤ S10x16384.size a
  inb_S10x16384_S1x128_9_1920 : ∀ a, (![9, 1920] : Fin 2 → Nat) a + S1x128.size a ≤ S10x16384.size a
  inb_S16384x128_S128x128_1920_0 : ∀ a, (![1920, 0] : Fin 2 → Nat) a + S128x128.size a ≤ S16384x128.size a
  inb_S10x16384_S1x128_0_2048 : ∀ a, (![0, 2048] : Fin 2 → Nat) a + S1x128.size a ≤ S10x16384.size a
  inb_S10x16384_S1x128_1_2048 : ∀ a, (![1, 2048] : Fin 2 → Nat) a + S1x128.size a ≤ S10x16384.size a
  inb_S10x16384_S1x128_2_2048 : ∀ a, (![2, 2048] : Fin 2 → Nat) a + S1x128.size a ≤ S10x16384.size a
  inb_S10x16384_S1x128_3_2048 : ∀ a, (![3, 2048] : Fin 2 → Nat) a + S1x128.size a ≤ S10x16384.size a
  inb_S10x16384_S1x128_4_2048 : ∀ a, (![4, 2048] : Fin 2 → Nat) a + S1x128.size a ≤ S10x16384.size a
  inb_S10x16384_S1x128_5_2048 : ∀ a, (![5, 2048] : Fin 2 → Nat) a + S1x128.size a ≤ S10x16384.size a
  inb_S10x16384_S1x128_6_2048 : ∀ a, (![6, 2048] : Fin 2 → Nat) a + S1x128.size a ≤ S10x16384.size a
  inb_S10x16384_S1x128_7_2048 : ∀ a, (![7, 2048] : Fin 2 → Nat) a + S1x128.size a ≤ S10x16384.size a
  inb_S10x16384_S1x128_8_2048 : ∀ a, (![8, 2048] : Fin 2 → Nat) a + S1x128.size a ≤ S10x16384.size a
  inb_S10x16384_S1x128_9_2048 : ∀ a, (![9, 2048] : Fin 2 → Nat) a + S1x128.size a ≤ S10x16384.size a
  inb_S16384x128_S128x128_2048_0 : ∀ a, (![2048, 0] : Fin 2 → Nat) a + S128x128.size a ≤ S16384x128.size a
  inb_S10x16384_S1x128_0_2176 : ∀ a, (![0, 2176] : Fin 2 → Nat) a + S1x128.size a ≤ S10x16384.size a
  inb_S10x16384_S1x128_1_2176 : ∀ a, (![1, 2176] : Fin 2 → Nat) a + S1x128.size a ≤ S10x16384.size a
  inb_S10x16384_S1x128_2_2176 : ∀ a, (![2, 2176] : Fin 2 → Nat) a + S1x128.size a ≤ S10x16384.size a
  inb_S10x16384_S1x128_3_2176 : ∀ a, (![3, 2176] : Fin 2 → Nat) a + S1x128.size a ≤ S10x16384.size a
  inb_S10x16384_S1x128_4_2176 : ∀ a, (![4, 2176] : Fin 2 → Nat) a + S1x128.size a ≤ S10x16384.size a
  inb_S10x16384_S1x128_5_2176 : ∀ a, (![5, 2176] : Fin 2 → Nat) a + S1x128.size a ≤ S10x16384.size a
  inb_S10x16384_S1x128_6_2176 : ∀ a, (![6, 2176] : Fin 2 → Nat) a + S1x128.size a ≤ S10x16384.size a
  inb_S10x16384_S1x128_7_2176 : ∀ a, (![7, 2176] : Fin 2 → Nat) a + S1x128.size a ≤ S10x16384.size a
  inb_S10x16384_S1x128_8_2176 : ∀ a, (![8, 2176] : Fin 2 → Nat) a + S1x128.size a ≤ S10x16384.size a
  inb_S10x16384_S1x128_9_2176 : ∀ a, (![9, 2176] : Fin 2 → Nat) a + S1x128.size a ≤ S10x16384.size a
  inb_S16384x128_S128x128_2176_0 : ∀ a, (![2176, 0] : Fin 2 → Nat) a + S128x128.size a ≤ S16384x128.size a
  inb_S10x16384_S1x128_0_2304 : ∀ a, (![0, 2304] : Fin 2 → Nat) a + S1x128.size a ≤ S10x16384.size a
  inb_S10x16384_S1x128_1_2304 : ∀ a, (![1, 2304] : Fin 2 → Nat) a + S1x128.size a ≤ S10x16384.size a
  inb_S10x16384_S1x128_2_2304 : ∀ a, (![2, 2304] : Fin 2 → Nat) a + S1x128.size a ≤ S10x16384.size a
  inb_S10x16384_S1x128_3_2304 : ∀ a, (![3, 2304] : Fin 2 → Nat) a + S1x128.size a ≤ S10x16384.size a
  inb_S10x16384_S1x128_4_2304 : ∀ a, (![4, 2304] : Fin 2 → Nat) a + S1x128.size a ≤ S10x16384.size a
  inb_S10x16384_S1x128_5_2304 : ∀ a, (![5, 2304] : Fin 2 → Nat) a + S1x128.size a ≤ S10x16384.size a
  inb_S10x16384_S1x128_6_2304 : ∀ a, (![6, 2304] : Fin 2 → Nat) a + S1x128.size a ≤ S10x16384.size a
  inb_S10x16384_S1x128_7_2304 : ∀ a, (![7, 2304] : Fin 2 → Nat) a + S1x128.size a ≤ S10x16384.size a
  inb_S10x16384_S1x128_8_2304 : ∀ a, (![8, 2304] : Fin 2 → Nat) a + S1x128.size a ≤ S10x16384.size a
  inb_S10x16384_S1x128_9_2304 : ∀ a, (![9, 2304] : Fin 2 → Nat) a + S1x128.size a ≤ S10x16384.size a
  inb_S16384x128_S128x128_2304_0 : ∀ a, (![2304, 0] : Fin 2 → Nat) a + S128x128.size a ≤ S16384x128.size a
  inb_S10x16384_S1x128_0_2432 : ∀ a, (![0, 2432] : Fin 2 → Nat) a + S1x128.size a ≤ S10x16384.size a
  inb_S10x16384_S1x128_1_2432 : ∀ a, (![1, 2432] : Fin 2 → Nat) a + S1x128.size a ≤ S10x16384.size a
  inb_S10x16384_S1x128_2_2432 : ∀ a, (![2, 2432] : Fin 2 → Nat) a + S1x128.size a ≤ S10x16384.size a
  inb_S10x16384_S1x128_3_2432 : ∀ a, (![3, 2432] : Fin 2 → Nat) a + S1x128.size a ≤ S10x16384.size a
  inb_S10x16384_S1x128_4_2432 : ∀ a, (![4, 2432] : Fin 2 → Nat) a + S1x128.size a ≤ S10x16384.size a
  inb_S10x16384_S1x128_5_2432 : ∀ a, (![5, 2432] : Fin 2 → Nat) a + S1x128.size a ≤ S10x16384.size a
  inb_S10x16384_S1x128_6_2432 : ∀ a, (![6, 2432] : Fin 2 → Nat) a + S1x128.size a ≤ S10x16384.size a
  inb_S10x16384_S1x128_7_2432 : ∀ a, (![7, 2432] : Fin 2 → Nat) a + S1x128.size a ≤ S10x16384.size a
  inb_S10x16384_S1x128_8_2432 : ∀ a, (![8, 2432] : Fin 2 → Nat) a + S1x128.size a ≤ S10x16384.size a
  inb_S10x16384_S1x128_9_2432 : ∀ a, (![9, 2432] : Fin 2 → Nat) a + S1x128.size a ≤ S10x16384.size a
  inb_S16384x128_S128x128_2432_0 : ∀ a, (![2432, 0] : Fin 2 → Nat) a + S128x128.size a ≤ S16384x128.size a
  inb_S10x16384_S1x128_0_2560 : ∀ a, (![0, 2560] : Fin 2 → Nat) a + S1x128.size a ≤ S10x16384.size a
  inb_S10x16384_S1x128_1_2560 : ∀ a, (![1, 2560] : Fin 2 → Nat) a + S1x128.size a ≤ S10x16384.size a
  inb_S10x16384_S1x128_2_2560 : ∀ a, (![2, 2560] : Fin 2 → Nat) a + S1x128.size a ≤ S10x16384.size a
  inb_S10x16384_S1x128_3_2560 : ∀ a, (![3, 2560] : Fin 2 → Nat) a + S1x128.size a ≤ S10x16384.size a
  inb_S10x16384_S1x128_4_2560 : ∀ a, (![4, 2560] : Fin 2 → Nat) a + S1x128.size a ≤ S10x16384.size a
  inb_S10x16384_S1x128_5_2560 : ∀ a, (![5, 2560] : Fin 2 → Nat) a + S1x128.size a ≤ S10x16384.size a
  inb_S10x16384_S1x128_6_2560 : ∀ a, (![6, 2560] : Fin 2 → Nat) a + S1x128.size a ≤ S10x16384.size a
  inb_S10x16384_S1x128_7_2560 : ∀ a, (![7, 2560] : Fin 2 → Nat) a + S1x128.size a ≤ S10x16384.size a
  inb_S10x16384_S1x128_8_2560 : ∀ a, (![8, 2560] : Fin 2 → Nat) a + S1x128.size a ≤ S10x16384.size a
  inb_S10x16384_S1x128_9_2560 : ∀ a, (![9, 2560] : Fin 2 → Nat) a + S1x128.size a ≤ S10x16384.size a
  inb_S16384x128_S128x128_2560_0 : ∀ a, (![2560, 0] : Fin 2 → Nat) a + S128x128.size a ≤ S16384x128.size a
  inb_S10x16384_S1x128_0_2688 : ∀ a, (![0, 2688] : Fin 2 → Nat) a + S1x128.size a ≤ S10x16384.size a
  inb_S10x16384_S1x128_1_2688 : ∀ a, (![1, 2688] : Fin 2 → Nat) a + S1x128.size a ≤ S10x16384.size a
  inb_S10x16384_S1x128_2_2688 : ∀ a, (![2, 2688] : Fin 2 → Nat) a + S1x128.size a ≤ S10x16384.size a
  inb_S10x16384_S1x128_3_2688 : ∀ a, (![3, 2688] : Fin 2 → Nat) a + S1x128.size a ≤ S10x16384.size a
  inb_S10x16384_S1x128_4_2688 : ∀ a, (![4, 2688] : Fin 2 → Nat) a + S1x128.size a ≤ S10x16384.size a
  inb_S10x16384_S1x128_5_2688 : ∀ a, (![5, 2688] : Fin 2 → Nat) a + S1x128.size a ≤ S10x16384.size a
  inb_S10x16384_S1x128_6_2688 : ∀ a, (![6, 2688] : Fin 2 → Nat) a + S1x128.size a ≤ S10x16384.size a
  inb_S10x16384_S1x128_7_2688 : ∀ a, (![7, 2688] : Fin 2 → Nat) a + S1x128.size a ≤ S10x16384.size a
  inb_S10x16384_S1x128_8_2688 : ∀ a, (![8, 2688] : Fin 2 → Nat) a + S1x128.size a ≤ S10x16384.size a
  inb_S10x16384_S1x128_9_2688 : ∀ a, (![9, 2688] : Fin 2 → Nat) a + S1x128.size a ≤ S10x16384.size a
  inb_S16384x128_S128x128_2688_0 : ∀ a, (![2688, 0] : Fin 2 → Nat) a + S128x128.size a ≤ S16384x128.size a
  inb_S10x16384_S1x128_0_2816 : ∀ a, (![0, 2816] : Fin 2 → Nat) a + S1x128.size a ≤ S10x16384.size a
  inb_S10x16384_S1x128_1_2816 : ∀ a, (![1, 2816] : Fin 2 → Nat) a + S1x128.size a ≤ S10x16384.size a
  inb_S10x16384_S1x128_2_2816 : ∀ a, (![2, 2816] : Fin 2 → Nat) a + S1x128.size a ≤ S10x16384.size a
  inb_S10x16384_S1x128_3_2816 : ∀ a, (![3, 2816] : Fin 2 → Nat) a + S1x128.size a ≤ S10x16384.size a
  inb_S10x16384_S1x128_4_2816 : ∀ a, (![4, 2816] : Fin 2 → Nat) a + S1x128.size a ≤ S10x16384.size a
  inb_S10x16384_S1x128_5_2816 : ∀ a, (![5, 2816] : Fin 2 → Nat) a + S1x128.size a ≤ S10x16384.size a
  inb_S10x16384_S1x128_6_2816 : ∀ a, (![6, 2816] : Fin 2 → Nat) a + S1x128.size a ≤ S10x16384.size a
  inb_S10x16384_S1x128_7_2816 : ∀ a, (![7, 2816] : Fin 2 → Nat) a + S1x128.size a ≤ S10x16384.size a
  inb_S10x16384_S1x128_8_2816 : ∀ a, (![8, 2816] : Fin 2 → Nat) a + S1x128.size a ≤ S10x16384.size a
  inb_S10x16384_S1x128_9_2816 : ∀ a, (![9, 2816] : Fin 2 → Nat) a + S1x128.size a ≤ S10x16384.size a
  inb_S16384x128_S128x128_2816_0 : ∀ a, (![2816, 0] : Fin 2 → Nat) a + S128x128.size a ≤ S16384x128.size a
  inb_S10x16384_S1x128_0_2944 : ∀ a, (![0, 2944] : Fin 2 → Nat) a + S1x128.size a ≤ S10x16384.size a
  inb_S10x16384_S1x128_1_2944 : ∀ a, (![1, 2944] : Fin 2 → Nat) a + S1x128.size a ≤ S10x16384.size a
  inb_S10x16384_S1x128_2_2944 : ∀ a, (![2, 2944] : Fin 2 → Nat) a + S1x128.size a ≤ S10x16384.size a
  inb_S10x16384_S1x128_3_2944 : ∀ a, (![3, 2944] : Fin 2 → Nat) a + S1x128.size a ≤ S10x16384.size a
  inb_S10x16384_S1x128_4_2944 : ∀ a, (![4, 2944] : Fin 2 → Nat) a + S1x128.size a ≤ S10x16384.size a
  inb_S10x16384_S1x128_5_2944 : ∀ a, (![5, 2944] : Fin 2 → Nat) a + S1x128.size a ≤ S10x16384.size a
  inb_S10x16384_S1x128_6_2944 : ∀ a, (![6, 2944] : Fin 2 → Nat) a + S1x128.size a ≤ S10x16384.size a
  inb_S10x16384_S1x128_7_2944 : ∀ a, (![7, 2944] : Fin 2 → Nat) a + S1x128.size a ≤ S10x16384.size a
  inb_S10x16384_S1x128_8_2944 : ∀ a, (![8, 2944] : Fin 2 → Nat) a + S1x128.size a ≤ S10x16384.size a
  inb_S10x16384_S1x128_9_2944 : ∀ a, (![9, 2944] : Fin 2 → Nat) a + S1x128.size a ≤ S10x16384.size a
  inb_S16384x128_S128x128_2944_0 : ∀ a, (![2944, 0] : Fin 2 → Nat) a + S128x128.size a ≤ S16384x128.size a
  inb_S10x16384_S1x128_0_3072 : ∀ a, (![0, 3072] : Fin 2 → Nat) a + S1x128.size a ≤ S10x16384.size a
  inb_S10x16384_S1x128_1_3072 : ∀ a, (![1, 3072] : Fin 2 → Nat) a + S1x128.size a ≤ S10x16384.size a
  inb_S10x16384_S1x128_2_3072 : ∀ a, (![2, 3072] : Fin 2 → Nat) a + S1x128.size a ≤ S10x16384.size a
  inb_S10x16384_S1x128_3_3072 : ∀ a, (![3, 3072] : Fin 2 → Nat) a + S1x128.size a ≤ S10x16384.size a
  inb_S10x16384_S1x128_4_3072 : ∀ a, (![4, 3072] : Fin 2 → Nat) a + S1x128.size a ≤ S10x16384.size a
  inb_S10x16384_S1x128_5_3072 : ∀ a, (![5, 3072] : Fin 2 → Nat) a + S1x128.size a ≤ S10x16384.size a
  inb_S10x16384_S1x128_6_3072 : ∀ a, (![6, 3072] : Fin 2 → Nat) a + S1x128.size a ≤ S10x16384.size a
  inb_S10x16384_S1x128_7_3072 : ∀ a, (![7, 3072] : Fin 2 → Nat) a + S1x128.size a ≤ S10x16384.size a
  inb_S10x16384_S1x128_8_3072 : ∀ a, (![8, 3072] : Fin 2 → Nat) a + S1x128.size a ≤ S10x16384.size a
  inb_S10x16384_S1x128_9_3072 : ∀ a, (![9, 3072] : Fin 2 → Nat) a + S1x128.size a ≤ S10x16384.size a
  inb_S16384x128_S128x128_3072_0 : ∀ a, (![3072, 0] : Fin 2 → Nat) a + S128x128.size a ≤ S16384x128.size a
  inb_S10x16384_S1x128_0_3200 : ∀ a, (![0, 3200] : Fin 2 → Nat) a + S1x128.size a ≤ S10x16384.size a
  inb_S10x16384_S1x128_1_3200 : ∀ a, (![1, 3200] : Fin 2 → Nat) a + S1x128.size a ≤ S10x16384.size a
  inb_S10x16384_S1x128_2_3200 : ∀ a, (![2, 3200] : Fin 2 → Nat) a + S1x128.size a ≤ S10x16384.size a
  inb_S10x16384_S1x128_3_3200 : ∀ a, (![3, 3200] : Fin 2 → Nat) a + S1x128.size a ≤ S10x16384.size a
  inb_S10x16384_S1x128_4_3200 : ∀ a, (![4, 3200] : Fin 2 → Nat) a + S1x128.size a ≤ S10x16384.size a
  inb_S10x16384_S1x128_5_3200 : ∀ a, (![5, 3200] : Fin 2 → Nat) a + S1x128.size a ≤ S10x16384.size a
  inb_S10x16384_S1x128_6_3200 : ∀ a, (![6, 3200] : Fin 2 → Nat) a + S1x128.size a ≤ S10x16384.size a
  inb_S10x16384_S1x128_7_3200 : ∀ a, (![7, 3200] : Fin 2 → Nat) a + S1x128.size a ≤ S10x16384.size a
  inb_S10x16384_S1x128_8_3200 : ∀ a, (![8, 3200] : Fin 2 → Nat) a + S1x128.size a ≤ S10x16384.size a
  inb_S10x16384_S1x128_9_3200 : ∀ a, (![9, 3200] : Fin 2 → Nat) a + S1x128.size a ≤ S10x16384.size a
  inb_S16384x128_S128x128_3200_0 : ∀ a, (![3200, 0] : Fin 2 → Nat) a + S128x128.size a ≤ S16384x128.size a
  inb_S10x16384_S1x128_0_3328 : ∀ a, (![0, 3328] : Fin 2 → Nat) a + S1x128.size a ≤ S10x16384.size a
  inb_S10x16384_S1x128_1_3328 : ∀ a, (![1, 3328] : Fin 2 → Nat) a + S1x128.size a ≤ S10x16384.size a
  inb_S10x16384_S1x128_2_3328 : ∀ a, (![2, 3328] : Fin 2 → Nat) a + S1x128.size a ≤ S10x16384.size a
  inb_S10x16384_S1x128_3_3328 : ∀ a, (![3, 3328] : Fin 2 → Nat) a + S1x128.size a ≤ S10x16384.size a
  inb_S10x16384_S1x128_4_3328 : ∀ a, (![4, 3328] : Fin 2 → Nat) a + S1x128.size a ≤ S10x16384.size a
  inb_S10x16384_S1x128_5_3328 : ∀ a, (![5, 3328] : Fin 2 → Nat) a + S1x128.size a ≤ S10x16384.size a
  inb_S10x16384_S1x128_6_3328 : ∀ a, (![6, 3328] : Fin 2 → Nat) a + S1x128.size a ≤ S10x16384.size a
  inb_S10x16384_S1x128_7_3328 : ∀ a, (![7, 3328] : Fin 2 → Nat) a + S1x128.size a ≤ S10x16384.size a
  inb_S10x16384_S1x128_8_3328 : ∀ a, (![8, 3328] : Fin 2 → Nat) a + S1x128.size a ≤ S10x16384.size a
  inb_S10x16384_S1x128_9_3328 : ∀ a, (![9, 3328] : Fin 2 → Nat) a + S1x128.size a ≤ S10x16384.size a
  inb_S16384x128_S128x128_3328_0 : ∀ a, (![3328, 0] : Fin 2 → Nat) a + S128x128.size a ≤ S16384x128.size a
  inb_S10x16384_S1x128_0_3456 : ∀ a, (![0, 3456] : Fin 2 → Nat) a + S1x128.size a ≤ S10x16384.size a
  inb_S10x16384_S1x128_1_3456 : ∀ a, (![1, 3456] : Fin 2 → Nat) a + S1x128.size a ≤ S10x16384.size a
  inb_S10x16384_S1x128_2_3456 : ∀ a, (![2, 3456] : Fin 2 → Nat) a + S1x128.size a ≤ S10x16384.size a
  inb_S10x16384_S1x128_3_3456 : ∀ a, (![3, 3456] : Fin 2 → Nat) a + S1x128.size a ≤ S10x16384.size a
  inb_S10x16384_S1x128_4_3456 : ∀ a, (![4, 3456] : Fin 2 → Nat) a + S1x128.size a ≤ S10x16384.size a
  inb_S10x16384_S1x128_5_3456 : ∀ a, (![5, 3456] : Fin 2 → Nat) a + S1x128.size a ≤ S10x16384.size a
  inb_S10x16384_S1x128_6_3456 : ∀ a, (![6, 3456] : Fin 2 → Nat) a + S1x128.size a ≤ S10x16384.size a
  inb_S10x16384_S1x128_7_3456 : ∀ a, (![7, 3456] : Fin 2 → Nat) a + S1x128.size a ≤ S10x16384.size a
  inb_S10x16384_S1x128_8_3456 : ∀ a, (![8, 3456] : Fin 2 → Nat) a + S1x128.size a ≤ S10x16384.size a
  inb_S10x16384_S1x128_9_3456 : ∀ a, (![9, 3456] : Fin 2 → Nat) a + S1x128.size a ≤ S10x16384.size a
  inb_S16384x128_S128x128_3456_0 : ∀ a, (![3456, 0] : Fin 2 → Nat) a + S128x128.size a ≤ S16384x128.size a
  inb_S10x16384_S1x128_0_3584 : ∀ a, (![0, 3584] : Fin 2 → Nat) a + S1x128.size a ≤ S10x16384.size a
  inb_S10x16384_S1x128_1_3584 : ∀ a, (![1, 3584] : Fin 2 → Nat) a + S1x128.size a ≤ S10x16384.size a
  inb_S10x16384_S1x128_2_3584 : ∀ a, (![2, 3584] : Fin 2 → Nat) a + S1x128.size a ≤ S10x16384.size a
  inb_S10x16384_S1x128_3_3584 : ∀ a, (![3, 3584] : Fin 2 → Nat) a + S1x128.size a ≤ S10x16384.size a
  inb_S10x16384_S1x128_4_3584 : ∀ a, (![4, 3584] : Fin 2 → Nat) a + S1x128.size a ≤ S10x16384.size a
  inb_S10x16384_S1x128_5_3584 : ∀ a, (![5, 3584] : Fin 2 → Nat) a + S1x128.size a ≤ S10x16384.size a
  inb_S10x16384_S1x128_6_3584 : ∀ a, (![6, 3584] : Fin 2 → Nat) a + S1x128.size a ≤ S10x16384.size a
  inb_S10x16384_S1x128_7_3584 : ∀ a, (![7, 3584] : Fin 2 → Nat) a + S1x128.size a ≤ S10x16384.size a
  inb_S10x16384_S1x128_8_3584 : ∀ a, (![8, 3584] : Fin 2 → Nat) a + S1x128.size a ≤ S10x16384.size a
  inb_S10x16384_S1x128_9_3584 : ∀ a, (![9, 3584] : Fin 2 → Nat) a + S1x128.size a ≤ S10x16384.size a
  inb_S16384x128_S128x128_3584_0 : ∀ a, (![3584, 0] : Fin 2 → Nat) a + S128x128.size a ≤ S16384x128.size a
  inb_S10x16384_S1x128_0_3712 : ∀ a, (![0, 3712] : Fin 2 → Nat) a + S1x128.size a ≤ S10x16384.size a
  inb_S10x16384_S1x128_1_3712 : ∀ a, (![1, 3712] : Fin 2 → Nat) a + S1x128.size a ≤ S10x16384.size a
  inb_S10x16384_S1x128_2_3712 : ∀ a, (![2, 3712] : Fin 2 → Nat) a + S1x128.size a ≤ S10x16384.size a
  inb_S10x16384_S1x128_3_3712 : ∀ a, (![3, 3712] : Fin 2 → Nat) a + S1x128.size a ≤ S10x16384.size a
  inb_S10x16384_S1x128_4_3712 : ∀ a, (![4, 3712] : Fin 2 → Nat) a + S1x128.size a ≤ S10x16384.size a
  inb_S10x16384_S1x128_5_3712 : ∀ a, (![5, 3712] : Fin 2 → Nat) a + S1x128.size a ≤ S10x16384.size a
  inb_S10x16384_S1x128_6_3712 : ∀ a, (![6, 3712] : Fin 2 → Nat) a + S1x128.size a ≤ S10x16384.size a
  inb_S10x16384_S1x128_7_3712 : ∀ a, (![7, 3712] : Fin 2 → Nat) a + S1x128.size a ≤ S10x16384.size a
  inb_S10x16384_S1x128_8_3712 : ∀ a, (![8, 3712] : Fin 2 → Nat) a + S1x128.size a ≤ S10x16384.size a
  inb_S10x16384_S1x128_9_3712 : ∀ a, (![9, 3712] : Fin 2 → Nat) a + S1x128.size a ≤ S10x16384.size a
  inb_S16384x128_S128x128_3712_0 : ∀ a, (![3712, 0] : Fin 2 → Nat) a + S128x128.size a ≤ S16384x128.size a
  inb_S10x16384_S1x128_0_3840 : ∀ a, (![0, 3840] : Fin 2 → Nat) a + S1x128.size a ≤ S10x16384.size a
  inb_S10x16384_S1x128_1_3840 : ∀ a, (![1, 3840] : Fin 2 → Nat) a + S1x128.size a ≤ S10x16384.size a
  inb_S10x16384_S1x128_2_3840 : ∀ a, (![2, 3840] : Fin 2 → Nat) a + S1x128.size a ≤ S10x16384.size a
  inb_S10x16384_S1x128_3_3840 : ∀ a, (![3, 3840] : Fin 2 → Nat) a + S1x128.size a ≤ S10x16384.size a
  inb_S10x16384_S1x128_4_3840 : ∀ a, (![4, 3840] : Fin 2 → Nat) a + S1x128.size a ≤ S10x16384.size a
  inb_S10x16384_S1x128_5_3840 : ∀ a, (![5, 3840] : Fin 2 → Nat) a + S1x128.size a ≤ S10x16384.size a
  inb_S10x16384_S1x128_6_3840 : ∀ a, (![6, 3840] : Fin 2 → Nat) a + S1x128.size a ≤ S10x16384.size a
  inb_S10x16384_S1x128_7_3840 : ∀ a, (![7, 3840] : Fin 2 → Nat) a + S1x128.size a ≤ S10x16384.size a
  inb_S10x16384_S1x128_8_3840 : ∀ a, (![8, 3840] : Fin 2 → Nat) a + S1x128.size a ≤ S10x16384.size a
  inb_S10x16384_S1x128_9_3840 : ∀ a, (![9, 3840] : Fin 2 → Nat) a + S1x128.size a ≤ S10x16384.size a
  inb_S16384x128_S128x128_3840_0 : ∀ a, (![3840, 0] : Fin 2 → Nat) a + S128x128.size a ≤ S16384x128.size a
  inb_S10x16384_S1x128_0_3968 : ∀ a, (![0, 3968] : Fin 2 → Nat) a + S1x128.size a ≤ S10x16384.size a
  inb_S10x16384_S1x128_1_3968 : ∀ a, (![1, 3968] : Fin 2 → Nat) a + S1x128.size a ≤ S10x16384.size a
  inb_S10x16384_S1x128_2_3968 : ∀ a, (![2, 3968] : Fin 2 → Nat) a + S1x128.size a ≤ S10x16384.size a
  inb_S10x16384_S1x128_3_3968 : ∀ a, (![3, 3968] : Fin 2 → Nat) a + S1x128.size a ≤ S10x16384.size a
  inb_S10x16384_S1x128_4_3968 : ∀ a, (![4, 3968] : Fin 2 → Nat) a + S1x128.size a ≤ S10x16384.size a
  inb_S10x16384_S1x128_5_3968 : ∀ a, (![5, 3968] : Fin 2 → Nat) a + S1x128.size a ≤ S10x16384.size a
  inb_S10x16384_S1x128_6_3968 : ∀ a, (![6, 3968] : Fin 2 → Nat) a + S1x128.size a ≤ S10x16384.size a
  inb_S10x16384_S1x128_7_3968 : ∀ a, (![7, 3968] : Fin 2 → Nat) a + S1x128.size a ≤ S10x16384.size a
  inb_S10x16384_S1x128_8_3968 : ∀ a, (![8, 3968] : Fin 2 → Nat) a + S1x128.size a ≤ S10x16384.size a
  inb_S10x16384_S1x128_9_3968 : ∀ a, (![9, 3968] : Fin 2 → Nat) a + S1x128.size a ≤ S10x16384.size a
  inb_S16384x128_S128x128_3968_0 : ∀ a, (![3968, 0] : Fin 2 → Nat) a + S128x128.size a ≤ S16384x128.size a
  inb_S10x16384_S1x128_0_4096 : ∀ a, (![0, 4096] : Fin 2 → Nat) a + S1x128.size a ≤ S10x16384.size a
  inb_S10x16384_S1x128_1_4096 : ∀ a, (![1, 4096] : Fin 2 → Nat) a + S1x128.size a ≤ S10x16384.size a
  inb_S10x16384_S1x128_2_4096 : ∀ a, (![2, 4096] : Fin 2 → Nat) a + S1x128.size a ≤ S10x16384.size a
  inb_S10x16384_S1x128_3_4096 : ∀ a, (![3, 4096] : Fin 2 → Nat) a + S1x128.size a ≤ S10x16384.size a
  inb_S10x16384_S1x128_4_4096 : ∀ a, (![4, 4096] : Fin 2 → Nat) a + S1x128.size a ≤ S10x16384.size a
  inb_S10x16384_S1x128_5_4096 : ∀ a, (![5, 4096] : Fin 2 → Nat) a + S1x128.size a ≤ S10x16384.size a
  inb_S10x16384_S1x128_6_4096 : ∀ a, (![6, 4096] : Fin 2 → Nat) a + S1x128.size a ≤ S10x16384.size a
  inb_S10x16384_S1x128_7_4096 : ∀ a, (![7, 4096] : Fin 2 → Nat) a + S1x128.size a ≤ S10x16384.size a
  inb_S10x16384_S1x128_8_4096 : ∀ a, (![8, 4096] : Fin 2 → Nat) a + S1x128.size a ≤ S10x16384.size a
  inb_S10x16384_S1x128_9_4096 : ∀ a, (![9, 4096] : Fin 2 → Nat) a + S1x128.size a ≤ S10x16384.size a
  inb_S16384x128_S128x128_4096_0 : ∀ a, (![4096, 0] : Fin 2 → Nat) a + S128x128.size a ≤ S16384x128.size a
  inb_S10x16384_S1x128_0_4224 : ∀ a, (![0, 4224] : Fin 2 → Nat) a + S1x128.size a ≤ S10x16384.size a
  inb_S10x16384_S1x128_1_4224 : ∀ a, (![1, 4224] : Fin 2 → Nat) a + S1x128.size a ≤ S10x16384.size a
  inb_S10x16384_S1x128_2_4224 : ∀ a, (![2, 4224] : Fin 2 → Nat) a + S1x128.size a ≤ S10x16384.size a
  inb_S10x16384_S1x128_3_4224 : ∀ a, (![3, 4224] : Fin 2 → Nat) a + S1x128.size a ≤ S10x16384.size a
  inb_S10x16384_S1x128_4_4224 : ∀ a, (![4, 4224] : Fin 2 → Nat) a + S1x128.size a ≤ S10x16384.size a
  inb_S10x16384_S1x128_5_4224 : ∀ a, (![5, 4224] : Fin 2 → Nat) a + S1x128.size a ≤ S10x16384.size a
  inb_S10x16384_S1x128_6_4224 : ∀ a, (![6, 4224] : Fin 2 → Nat) a + S1x128.size a ≤ S10x16384.size a
  inb_S10x16384_S1x128_7_4224 : ∀ a, (![7, 4224] : Fin 2 → Nat) a + S1x128.size a ≤ S10x16384.size a
  inb_S10x16384_S1x128_8_4224 : ∀ a, (![8, 4224] : Fin 2 → Nat) a + S1x128.size a ≤ S10x16384.size a
  inb_S10x16384_S1x128_9_4224 : ∀ a, (![9, 4224] : Fin 2 → Nat) a + S1x128.size a ≤ S10x16384.size a
  inb_S16384x128_S128x128_4224_0 : ∀ a, (![4224, 0] : Fin 2 → Nat) a + S128x128.size a ≤ S16384x128.size a
  inb_S10x16384_S1x128_0_4352 : ∀ a, (![0, 4352] : Fin 2 → Nat) a + S1x128.size a ≤ S10x16384.size a
  inb_S10x16384_S1x128_1_4352 : ∀ a, (![1, 4352] : Fin 2 → Nat) a + S1x128.size a ≤ S10x16384.size a
  inb_S10x16384_S1x128_2_4352 : ∀ a, (![2, 4352] : Fin 2 → Nat) a + S1x128.size a ≤ S10x16384.size a
  inb_S10x16384_S1x128_3_4352 : ∀ a, (![3, 4352] : Fin 2 → Nat) a + S1x128.size a ≤ S10x16384.size a
  inb_S10x16384_S1x128_4_4352 : ∀ a, (![4, 4352] : Fin 2 → Nat) a + S1x128.size a ≤ S10x16384.size a
  inb_S10x16384_S1x128_5_4352 : ∀ a, (![5, 4352] : Fin 2 → Nat) a + S1x128.size a ≤ S10x16384.size a
  inb_S10x16384_S1x128_6_4352 : ∀ a, (![6, 4352] : Fin 2 → Nat) a + S1x128.size a ≤ S10x16384.size a
  inb_S10x16384_S1x128_7_4352 : ∀ a, (![7, 4352] : Fin 2 → Nat) a + S1x128.size a ≤ S10x16384.size a
  inb_S10x16384_S1x128_8_4352 : ∀ a, (![8, 4352] : Fin 2 → Nat) a + S1x128.size a ≤ S10x16384.size a
  inb_S10x16384_S1x128_9_4352 : ∀ a, (![9, 4352] : Fin 2 → Nat) a + S1x128.size a ≤ S10x16384.size a
  inb_S16384x128_S128x128_4352_0 : ∀ a, (![4352, 0] : Fin 2 → Nat) a + S128x128.size a ≤ S16384x128.size a
  inb_S10x16384_S1x128_0_4480 : ∀ a, (![0, 4480] : Fin 2 → Nat) a + S1x128.size a ≤ S10x16384.size a
  inb_S10x16384_S1x128_1_4480 : ∀ a, (![1, 4480] : Fin 2 → Nat) a + S1x128.size a ≤ S10x16384.size a
  inb_S10x16384_S1x128_2_4480 : ∀ a, (![2, 4480] : Fin 2 → Nat) a + S1x128.size a ≤ S10x16384.size a
  inb_S10x16384_S1x128_3_4480 : ∀ a, (![3, 4480] : Fin 2 → Nat) a + S1x128.size a ≤ S10x16384.size a
  inb_S10x16384_S1x128_4_4480 : ∀ a, (![4, 4480] : Fin 2 → Nat) a + S1x128.size a ≤ S10x16384.size a
  inb_S10x16384_S1x128_5_4480 : ∀ a, (![5, 4480] : Fin 2 → Nat) a + S1x128.size a ≤ S10x16384.size a
  inb_S10x16384_S1x128_6_4480 : ∀ a, (![6, 4480] : Fin 2 → Nat) a + S1x128.size a ≤ S10x16384.size a
  inb_S10x16384_S1x128_7_4480 : ∀ a, (![7, 4480] : Fin 2 → Nat) a + S1x128.size a ≤ S10x16384.size a
  inb_S10x16384_S1x128_8_4480 : ∀ a, (![8, 4480] : Fin 2 → Nat) a + S1x128.size a ≤ S10x16384.size a
  inb_S10x16384_S1x128_9_4480 : ∀ a, (![9, 4480] : Fin 2 → Nat) a + S1x128.size a ≤ S10x16384.size a
  inb_S16384x128_S128x128_4480_0 : ∀ a, (![4480, 0] : Fin 2 → Nat) a + S128x128.size a ≤ S16384x128.size a
  inb_S10x16384_S1x128_0_4608 : ∀ a, (![0, 4608] : Fin 2 → Nat) a + S1x128.size a ≤ S10x16384.size a
  inb_S10x16384_S1x128_1_4608 : ∀ a, (![1, 4608] : Fin 2 → Nat) a + S1x128.size a ≤ S10x16384.size a
  inb_S10x16384_S1x128_2_4608 : ∀ a, (![2, 4608] : Fin 2 → Nat) a + S1x128.size a ≤ S10x16384.size a
  inb_S10x16384_S1x128_3_4608 : ∀ a, (![3, 4608] : Fin 2 → Nat) a + S1x128.size a ≤ S10x16384.size a
  inb_S10x16384_S1x128_4_4608 : ∀ a, (![4, 4608] : Fin 2 → Nat) a + S1x128.size a ≤ S10x16384.size a
  inb_S10x16384_S1x128_5_4608 : ∀ a, (![5, 4608] : Fin 2 → Nat) a + S1x128.size a ≤ S10x16384.size a
  inb_S10x16384_S1x128_6_4608 : ∀ a, (![6, 4608] : Fin 2 → Nat) a + S1x128.size a ≤ S10x16384.size a
  inb_S10x16384_S1x128_7_4608 : ∀ a, (![7, 4608] : Fin 2 → Nat) a + S1x128.size a ≤ S10x16384.size a
  inb_S10x16384_S1x128_8_4608 : ∀ a, (![8, 4608] : Fin 2 → Nat) a + S1x128.size a ≤ S10x16384.size a
  inb_S10x16384_S1x128_9_4608 : ∀ a, (![9, 4608] : Fin 2 → Nat) a + S1x128.size a ≤ S10x16384.size a
  inb_S16384x128_S128x128_4608_0 : ∀ a, (![4608, 0] : Fin 2 → Nat) a + S128x128.size a ≤ S16384x128.size a
  inb_S10x16384_S1x128_0_4736 : ∀ a, (![0, 4736] : Fin 2 → Nat) a + S1x128.size a ≤ S10x16384.size a
  inb_S10x16384_S1x128_1_4736 : ∀ a, (![1, 4736] : Fin 2 → Nat) a + S1x128.size a ≤ S10x16384.size a
  inb_S10x16384_S1x128_2_4736 : ∀ a, (![2, 4736] : Fin 2 → Nat) a + S1x128.size a ≤ S10x16384.size a
  inb_S10x16384_S1x128_3_4736 : ∀ a, (![3, 4736] : Fin 2 → Nat) a + S1x128.size a ≤ S10x16384.size a
  inb_S10x16384_S1x128_4_4736 : ∀ a, (![4, 4736] : Fin 2 → Nat) a + S1x128.size a ≤ S10x16384.size a
  inb_S10x16384_S1x128_5_4736 : ∀ a, (![5, 4736] : Fin 2 → Nat) a + S1x128.size a ≤ S10x16384.size a
  inb_S10x16384_S1x128_6_4736 : ∀ a, (![6, 4736] : Fin 2 → Nat) a + S1x128.size a ≤ S10x16384.size a
  inb_S10x16384_S1x128_7_4736 : ∀ a, (![7, 4736] : Fin 2 → Nat) a + S1x128.size a ≤ S10x16384.size a
  inb_S10x16384_S1x128_8_4736 : ∀ a, (![8, 4736] : Fin 2 → Nat) a + S1x128.size a ≤ S10x16384.size a
  inb_S10x16384_S1x128_9_4736 : ∀ a, (![9, 4736] : Fin 2 → Nat) a + S1x128.size a ≤ S10x16384.size a
  inb_S16384x128_S128x128_4736_0 : ∀ a, (![4736, 0] : Fin 2 → Nat) a + S128x128.size a ≤ S16384x128.size a
  inb_S10x16384_S1x128_0_4864 : ∀ a, (![0, 4864] : Fin 2 → Nat) a + S1x128.size a ≤ S10x16384.size a
  inb_S10x16384_S1x128_1_4864 : ∀ a, (![1, 4864] : Fin 2 → Nat) a + S1x128.size a ≤ S10x16384.size a
  inb_S10x16384_S1x128_2_4864 : ∀ a, (![2, 4864] : Fin 2 → Nat) a + S1x128.size a ≤ S10x16384.size a
  inb_S10x16384_S1x128_3_4864 : ∀ a, (![3, 4864] : Fin 2 → Nat) a + S1x128.size a ≤ S10x16384.size a
  inb_S10x16384_S1x128_4_4864 : ∀ a, (![4, 4864] : Fin 2 → Nat) a + S1x128.size a ≤ S10x16384.size a
  inb_S10x16384_S1x128_5_4864 : ∀ a, (![5, 4864] : Fin 2 → Nat) a + S1x128.size a ≤ S10x16384.size a
  inb_S10x16384_S1x128_6_4864 : ∀ a, (![6, 4864] : Fin 2 → Nat) a + S1x128.size a ≤ S10x16384.size a
  inb_S10x16384_S1x128_7_4864 : ∀ a, (![7, 4864] : Fin 2 → Nat) a + S1x128.size a ≤ S10x16384.size a
  inb_S10x16384_S1x128_8_4864 : ∀ a, (![8, 4864] : Fin 2 → Nat) a + S1x128.size a ≤ S10x16384.size a
  inb_S10x16384_S1x128_9_4864 : ∀ a, (![9, 4864] : Fin 2 → Nat) a + S1x128.size a ≤ S10x16384.size a
  inb_S16384x128_S128x128_4864_0 : ∀ a, (![4864, 0] : Fin 2 → Nat) a + S128x128.size a ≤ S16384x128.size a
  inb_S10x16384_S1x128_0_4992 : ∀ a, (![0, 4992] : Fin 2 → Nat) a + S1x128.size a ≤ S10x16384.size a
  inb_S10x16384_S1x128_1_4992 : ∀ a, (![1, 4992] : Fin 2 → Nat) a + S1x128.size a ≤ S10x16384.size a
  inb_S10x16384_S1x128_2_4992 : ∀ a, (![2, 4992] : Fin 2 → Nat) a + S1x128.size a ≤ S10x16384.size a
  inb_S10x16384_S1x128_3_4992 : ∀ a, (![3, 4992] : Fin 2 → Nat) a + S1x128.size a ≤ S10x16384.size a
  inb_S10x16384_S1x128_4_4992 : ∀ a, (![4, 4992] : Fin 2 → Nat) a + S1x128.size a ≤ S10x16384.size a
  inb_S10x16384_S1x128_5_4992 : ∀ a, (![5, 4992] : Fin 2 → Nat) a + S1x128.size a ≤ S10x16384.size a
  inb_S10x16384_S1x128_6_4992 : ∀ a, (![6, 4992] : Fin 2 → Nat) a + S1x128.size a ≤ S10x16384.size a
  inb_S10x16384_S1x128_7_4992 : ∀ a, (![7, 4992] : Fin 2 → Nat) a + S1x128.size a ≤ S10x16384.size a
  inb_S10x16384_S1x128_8_4992 : ∀ a, (![8, 4992] : Fin 2 → Nat) a + S1x128.size a ≤ S10x16384.size a
  inb_S10x16384_S1x128_9_4992 : ∀ a, (![9, 4992] : Fin 2 → Nat) a + S1x128.size a ≤ S10x16384.size a
  inb_S16384x128_S128x128_4992_0 : ∀ a, (![4992, 0] : Fin 2 → Nat) a + S128x128.size a ≤ S16384x128.size a
  inb_S10x16384_S1x128_0_5120 : ∀ a, (![0, 5120] : Fin 2 → Nat) a + S1x128.size a ≤ S10x16384.size a
  inb_S10x16384_S1x128_1_5120 : ∀ a, (![1, 5120] : Fin 2 → Nat) a + S1x128.size a ≤ S10x16384.size a
  inb_S10x16384_S1x128_2_5120 : ∀ a, (![2, 5120] : Fin 2 → Nat) a + S1x128.size a ≤ S10x16384.size a
  inb_S10x16384_S1x128_3_5120 : ∀ a, (![3, 5120] : Fin 2 → Nat) a + S1x128.size a ≤ S10x16384.size a
  inb_S10x16384_S1x128_4_5120 : ∀ a, (![4, 5120] : Fin 2 → Nat) a + S1x128.size a ≤ S10x16384.size a
  inb_S10x16384_S1x128_5_5120 : ∀ a, (![5, 5120] : Fin 2 → Nat) a + S1x128.size a ≤ S10x16384.size a
  inb_S10x16384_S1x128_6_5120 : ∀ a, (![6, 5120] : Fin 2 → Nat) a + S1x128.size a ≤ S10x16384.size a
  inb_S10x16384_S1x128_7_5120 : ∀ a, (![7, 5120] : Fin 2 → Nat) a + S1x128.size a ≤ S10x16384.size a
  inb_S10x16384_S1x128_8_5120 : ∀ a, (![8, 5120] : Fin 2 → Nat) a + S1x128.size a ≤ S10x16384.size a
  inb_S10x16384_S1x128_9_5120 : ∀ a, (![9, 5120] : Fin 2 → Nat) a + S1x128.size a ≤ S10x16384.size a
  inb_S16384x128_S128x128_5120_0 : ∀ a, (![5120, 0] : Fin 2 → Nat) a + S128x128.size a ≤ S16384x128.size a
  inb_S10x16384_S1x128_0_5248 : ∀ a, (![0, 5248] : Fin 2 → Nat) a + S1x128.size a ≤ S10x16384.size a
  inb_S10x16384_S1x128_1_5248 : ∀ a, (![1, 5248] : Fin 2 → Nat) a + S1x128.size a ≤ S10x16384.size a
  inb_S10x16384_S1x128_2_5248 : ∀ a, (![2, 5248] : Fin 2 → Nat) a + S1x128.size a ≤ S10x16384.size a
  inb_S10x16384_S1x128_3_5248 : ∀ a, (![3, 5248] : Fin 2 → Nat) a + S1x128.size a ≤ S10x16384.size a
  inb_S10x16384_S1x128_4_5248 : ∀ a, (![4, 5248] : Fin 2 → Nat) a + S1x128.size a ≤ S10x16384.size a
  inb_S10x16384_S1x128_5_5248 : ∀ a, (![5, 5248] : Fin 2 → Nat) a + S1x128.size a ≤ S10x16384.size a
  inb_S10x16384_S1x128_6_5248 : ∀ a, (![6, 5248] : Fin 2 → Nat) a + S1x128.size a ≤ S10x16384.size a
  inb_S10x16384_S1x128_7_5248 : ∀ a, (![7, 5248] : Fin 2 → Nat) a + S1x128.size a ≤ S10x16384.size a
  inb_S10x16384_S1x128_8_5248 : ∀ a, (![8, 5248] : Fin 2 → Nat) a + S1x128.size a ≤ S10x16384.size a
  inb_S10x16384_S1x128_9_5248 : ∀ a, (![9, 5248] : Fin 2 → Nat) a + S1x128.size a ≤ S10x16384.size a
  inb_S16384x128_S128x128_5248_0 : ∀ a, (![5248, 0] : Fin 2 → Nat) a + S128x128.size a ≤ S16384x128.size a
  inb_S10x16384_S1x128_0_5376 : ∀ a, (![0, 5376] : Fin 2 → Nat) a + S1x128.size a ≤ S10x16384.size a
  inb_S10x16384_S1x128_1_5376 : ∀ a, (![1, 5376] : Fin 2 → Nat) a + S1x128.size a ≤ S10x16384.size a
  inb_S10x16384_S1x128_2_5376 : ∀ a, (![2, 5376] : Fin 2 → Nat) a + S1x128.size a ≤ S10x16384.size a
  inb_S10x16384_S1x128_3_5376 : ∀ a, (![3, 5376] : Fin 2 → Nat) a + S1x128.size a ≤ S10x16384.size a
  inb_S10x16384_S1x128_4_5376 : ∀ a, (![4, 5376] : Fin 2 → Nat) a + S1x128.size a ≤ S10x16384.size a
  inb_S10x16384_S1x128_5_5376 : ∀ a, (![5, 5376] : Fin 2 → Nat) a + S1x128.size a ≤ S10x16384.size a
  inb_S10x16384_S1x128_6_5376 : ∀ a, (![6, 5376] : Fin 2 → Nat) a + S1x128.size a ≤ S10x16384.size a
  inb_S10x16384_S1x128_7_5376 : ∀ a, (![7, 5376] : Fin 2 → Nat) a + S1x128.size a ≤ S10x16384.size a
  inb_S10x16384_S1x128_8_5376 : ∀ a, (![8, 5376] : Fin 2 → Nat) a + S1x128.size a ≤ S10x16384.size a
  inb_S10x16384_S1x128_9_5376 : ∀ a, (![9, 5376] : Fin 2 → Nat) a + S1x128.size a ≤ S10x16384.size a
  inb_S16384x128_S128x128_5376_0 : ∀ a, (![5376, 0] : Fin 2 → Nat) a + S128x128.size a ≤ S16384x128.size a
  inb_S10x16384_S1x128_0_5504 : ∀ a, (![0, 5504] : Fin 2 → Nat) a + S1x128.size a ≤ S10x16384.size a
  inb_S10x16384_S1x128_1_5504 : ∀ a, (![1, 5504] : Fin 2 → Nat) a + S1x128.size a ≤ S10x16384.size a
  inb_S10x16384_S1x128_2_5504 : ∀ a, (![2, 5504] : Fin 2 → Nat) a + S1x128.size a ≤ S10x16384.size a
  inb_S10x16384_S1x128_3_5504 : ∀ a, (![3, 5504] : Fin 2 → Nat) a + S1x128.size a ≤ S10x16384.size a
  inb_S10x16384_S1x128_4_5504 : ∀ a, (![4, 5504] : Fin 2 → Nat) a + S1x128.size a ≤ S10x16384.size a
  inb_S10x16384_S1x128_5_5504 : ∀ a, (![5, 5504] : Fin 2 → Nat) a + S1x128.size a ≤ S10x16384.size a
  inb_S10x16384_S1x128_6_5504 : ∀ a, (![6, 5504] : Fin 2 → Nat) a + S1x128.size a ≤ S10x16384.size a
  inb_S10x16384_S1x128_7_5504 : ∀ a, (![7, 5504] : Fin 2 → Nat) a + S1x128.size a ≤ S10x16384.size a
  inb_S10x16384_S1x128_8_5504 : ∀ a, (![8, 5504] : Fin 2 → Nat) a + S1x128.size a ≤ S10x16384.size a
  inb_S10x16384_S1x128_9_5504 : ∀ a, (![9, 5504] : Fin 2 → Nat) a + S1x128.size a ≤ S10x16384.size a
  inb_S16384x128_S128x128_5504_0 : ∀ a, (![5504, 0] : Fin 2 → Nat) a + S128x128.size a ≤ S16384x128.size a
  inb_S10x16384_S1x128_0_5632 : ∀ a, (![0, 5632] : Fin 2 → Nat) a + S1x128.size a ≤ S10x16384.size a
  inb_S10x16384_S1x128_1_5632 : ∀ a, (![1, 5632] : Fin 2 → Nat) a + S1x128.size a ≤ S10x16384.size a
  inb_S10x16384_S1x128_2_5632 : ∀ a, (![2, 5632] : Fin 2 → Nat) a + S1x128.size a ≤ S10x16384.size a
  inb_S10x16384_S1x128_3_5632 : ∀ a, (![3, 5632] : Fin 2 → Nat) a + S1x128.size a ≤ S10x16384.size a
  inb_S10x16384_S1x128_4_5632 : ∀ a, (![4, 5632] : Fin 2 → Nat) a + S1x128.size a ≤ S10x16384.size a
  inb_S10x16384_S1x128_5_5632 : ∀ a, (![5, 5632] : Fin 2 → Nat) a + S1x128.size a ≤ S10x16384.size a
  inb_S10x16384_S1x128_6_5632 : ∀ a, (![6, 5632] : Fin 2 → Nat) a + S1x128.size a ≤ S10x16384.size a
  inb_S10x16384_S1x128_7_5632 : ∀ a, (![7, 5632] : Fin 2 → Nat) a + S1x128.size a ≤ S10x16384.size a
  inb_S10x16384_S1x128_8_5632 : ∀ a, (![8, 5632] : Fin 2 → Nat) a + S1x128.size a ≤ S10x16384.size a
  inb_S10x16384_S1x128_9_5632 : ∀ a, (![9, 5632] : Fin 2 → Nat) a + S1x128.size a ≤ S10x16384.size a
  inb_S16384x128_S128x128_5632_0 : ∀ a, (![5632, 0] : Fin 2 → Nat) a + S128x128.size a ≤ S16384x128.size a
  inb_S10x16384_S1x128_0_5760 : ∀ a, (![0, 5760] : Fin 2 → Nat) a + S1x128.size a ≤ S10x16384.size a
  inb_S10x16384_S1x128_1_5760 : ∀ a, (![1, 5760] : Fin 2 → Nat) a + S1x128.size a ≤ S10x16384.size a
  inb_S10x16384_S1x128_2_5760 : ∀ a, (![2, 5760] : Fin 2 → Nat) a + S1x128.size a ≤ S10x16384.size a
  inb_S10x16384_S1x128_3_5760 : ∀ a, (![3, 5760] : Fin 2 → Nat) a + S1x128.size a ≤ S10x16384.size a
  inb_S10x16384_S1x128_4_5760 : ∀ a, (![4, 5760] : Fin 2 → Nat) a + S1x128.size a ≤ S10x16384.size a
  inb_S10x16384_S1x128_5_5760 : ∀ a, (![5, 5760] : Fin 2 → Nat) a + S1x128.size a ≤ S10x16384.size a
  inb_S10x16384_S1x128_6_5760 : ∀ a, (![6, 5760] : Fin 2 → Nat) a + S1x128.size a ≤ S10x16384.size a
  inb_S10x16384_S1x128_7_5760 : ∀ a, (![7, 5760] : Fin 2 → Nat) a + S1x128.size a ≤ S10x16384.size a
  inb_S10x16384_S1x128_8_5760 : ∀ a, (![8, 5760] : Fin 2 → Nat) a + S1x128.size a ≤ S10x16384.size a
  inb_S10x16384_S1x128_9_5760 : ∀ a, (![9, 5760] : Fin 2 → Nat) a + S1x128.size a ≤ S10x16384.size a
  inb_S16384x128_S128x128_5760_0 : ∀ a, (![5760, 0] : Fin 2 → Nat) a + S128x128.size a ≤ S16384x128.size a
  inb_S10x16384_S1x128_0_5888 : ∀ a, (![0, 5888] : Fin 2 → Nat) a + S1x128.size a ≤ S10x16384.size a
  inb_S10x16384_S1x128_1_5888 : ∀ a, (![1, 5888] : Fin 2 → Nat) a + S1x128.size a ≤ S10x16384.size a
  inb_S10x16384_S1x128_2_5888 : ∀ a, (![2, 5888] : Fin 2 → Nat) a + S1x128.size a ≤ S10x16384.size a
  inb_S10x16384_S1x128_3_5888 : ∀ a, (![3, 5888] : Fin 2 → Nat) a + S1x128.size a ≤ S10x16384.size a
  inb_S10x16384_S1x128_4_5888 : ∀ a, (![4, 5888] : Fin 2 → Nat) a + S1x128.size a ≤ S10x16384.size a
  inb_S10x16384_S1x128_5_5888 : ∀ a, (![5, 5888] : Fin 2 → Nat) a + S1x128.size a ≤ S10x16384.size a
  inb_S10x16384_S1x128_6_5888 : ∀ a, (![6, 5888] : Fin 2 → Nat) a + S1x128.size a ≤ S10x16384.size a
  inb_S10x16384_S1x128_7_5888 : ∀ a, (![7, 5888] : Fin 2 → Nat) a + S1x128.size a ≤ S10x16384.size a
  inb_S10x16384_S1x128_8_5888 : ∀ a, (![8, 5888] : Fin 2 → Nat) a + S1x128.size a ≤ S10x16384.size a
  inb_S10x16384_S1x128_9_5888 : ∀ a, (![9, 5888] : Fin 2 → Nat) a + S1x128.size a ≤ S10x16384.size a
  inb_S16384x128_S128x128_5888_0 : ∀ a, (![5888, 0] : Fin 2 → Nat) a + S128x128.size a ≤ S16384x128.size a
  inb_S10x16384_S1x128_0_6016 : ∀ a, (![0, 6016] : Fin 2 → Nat) a + S1x128.size a ≤ S10x16384.size a
  inb_S10x16384_S1x128_1_6016 : ∀ a, (![1, 6016] : Fin 2 → Nat) a + S1x128.size a ≤ S10x16384.size a
  inb_S10x16384_S1x128_2_6016 : ∀ a, (![2, 6016] : Fin 2 → Nat) a + S1x128.size a ≤ S10x16384.size a
  inb_S10x16384_S1x128_3_6016 : ∀ a, (![3, 6016] : Fin 2 → Nat) a + S1x128.size a ≤ S10x16384.size a
  inb_S10x16384_S1x128_4_6016 : ∀ a, (![4, 6016] : Fin 2 → Nat) a + S1x128.size a ≤ S10x16384.size a
  inb_S10x16384_S1x128_5_6016 : ∀ a, (![5, 6016] : Fin 2 → Nat) a + S1x128.size a ≤ S10x16384.size a
  inb_S10x16384_S1x128_6_6016 : ∀ a, (![6, 6016] : Fin 2 → Nat) a + S1x128.size a ≤ S10x16384.size a
  inb_S10x16384_S1x128_7_6016 : ∀ a, (![7, 6016] : Fin 2 → Nat) a + S1x128.size a ≤ S10x16384.size a
  inb_S10x16384_S1x128_8_6016 : ∀ a, (![8, 6016] : Fin 2 → Nat) a + S1x128.size a ≤ S10x16384.size a
  inb_S10x16384_S1x128_9_6016 : ∀ a, (![9, 6016] : Fin 2 → Nat) a + S1x128.size a ≤ S10x16384.size a
  inb_S16384x128_S128x128_6016_0 : ∀ a, (![6016, 0] : Fin 2 → Nat) a + S128x128.size a ≤ S16384x128.size a
  inb_S10x16384_S1x128_0_6144 : ∀ a, (![0, 6144] : Fin 2 → Nat) a + S1x128.size a ≤ S10x16384.size a
  inb_S10x16384_S1x128_1_6144 : ∀ a, (![1, 6144] : Fin 2 → Nat) a + S1x128.size a ≤ S10x16384.size a
  inb_S10x16384_S1x128_2_6144 : ∀ a, (![2, 6144] : Fin 2 → Nat) a + S1x128.size a ≤ S10x16384.size a
  inb_S10x16384_S1x128_3_6144 : ∀ a, (![3, 6144] : Fin 2 → Nat) a + S1x128.size a ≤ S10x16384.size a
  inb_S10x16384_S1x128_4_6144 : ∀ a, (![4, 6144] : Fin 2 → Nat) a + S1x128.size a ≤ S10x16384.size a
  inb_S10x16384_S1x128_5_6144 : ∀ a, (![5, 6144] : Fin 2 → Nat) a + S1x128.size a ≤ S10x16384.size a
  inb_S10x16384_S1x128_6_6144 : ∀ a, (![6, 6144] : Fin 2 → Nat) a + S1x128.size a ≤ S10x16384.size a
  inb_S10x16384_S1x128_7_6144 : ∀ a, (![7, 6144] : Fin 2 → Nat) a + S1x128.size a ≤ S10x16384.size a
  inb_S10x16384_S1x128_8_6144 : ∀ a, (![8, 6144] : Fin 2 → Nat) a + S1x128.size a ≤ S10x16384.size a
  inb_S10x16384_S1x128_9_6144 : ∀ a, (![9, 6144] : Fin 2 → Nat) a + S1x128.size a ≤ S10x16384.size a
  inb_S16384x128_S128x128_6144_0 : ∀ a, (![6144, 0] : Fin 2 → Nat) a + S128x128.size a ≤ S16384x128.size a
  inb_S10x16384_S1x128_0_6272 : ∀ a, (![0, 6272] : Fin 2 → Nat) a + S1x128.size a ≤ S10x16384.size a
  inb_S10x16384_S1x128_1_6272 : ∀ a, (![1, 6272] : Fin 2 → Nat) a + S1x128.size a ≤ S10x16384.size a
  inb_S10x16384_S1x128_2_6272 : ∀ a, (![2, 6272] : Fin 2 → Nat) a + S1x128.size a ≤ S10x16384.size a
  inb_S10x16384_S1x128_3_6272 : ∀ a, (![3, 6272] : Fin 2 → Nat) a + S1x128.size a ≤ S10x16384.size a
  inb_S10x16384_S1x128_4_6272 : ∀ a, (![4, 6272] : Fin 2 → Nat) a + S1x128.size a ≤ S10x16384.size a
  inb_S10x16384_S1x128_5_6272 : ∀ a, (![5, 6272] : Fin 2 → Nat) a + S1x128.size a ≤ S10x16384.size a
  inb_S10x16384_S1x128_6_6272 : ∀ a, (![6, 6272] : Fin 2 → Nat) a + S1x128.size a ≤ S10x16384.size a
  inb_S10x16384_S1x128_7_6272 : ∀ a, (![7, 6272] : Fin 2 → Nat) a + S1x128.size a ≤ S10x16384.size a
  inb_S10x16384_S1x128_8_6272 : ∀ a, (![8, 6272] : Fin 2 → Nat) a + S1x128.size a ≤ S10x16384.size a
  inb_S10x16384_S1x128_9_6272 : ∀ a, (![9, 6272] : Fin 2 → Nat) a + S1x128.size a ≤ S10x16384.size a
  inb_S16384x128_S128x128_6272_0 : ∀ a, (![6272, 0] : Fin 2 → Nat) a + S128x128.size a ≤ S16384x128.size a
  inb_S10x16384_S1x128_0_6400 : ∀ a, (![0, 6400] : Fin 2 → Nat) a + S1x128.size a ≤ S10x16384.size a
  inb_S10x16384_S1x128_1_6400 : ∀ a, (![1, 6400] : Fin 2 → Nat) a + S1x128.size a ≤ S10x16384.size a
  inb_S10x16384_S1x128_2_6400 : ∀ a, (![2, 6400] : Fin 2 → Nat) a + S1x128.size a ≤ S10x16384.size a
  inb_S10x16384_S1x128_3_6400 : ∀ a, (![3, 6400] : Fin 2 → Nat) a + S1x128.size a ≤ S10x16384.size a
  inb_S10x16384_S1x128_4_6400 : ∀ a, (![4, 6400] : Fin 2 → Nat) a + S1x128.size a ≤ S10x16384.size a
  inb_S10x16384_S1x128_5_6400 : ∀ a, (![5, 6400] : Fin 2 → Nat) a + S1x128.size a ≤ S10x16384.size a
  inb_S10x16384_S1x128_6_6400 : ∀ a, (![6, 6400] : Fin 2 → Nat) a + S1x128.size a ≤ S10x16384.size a
  inb_S10x16384_S1x128_7_6400 : ∀ a, (![7, 6400] : Fin 2 → Nat) a + S1x128.size a ≤ S10x16384.size a
  inb_S10x16384_S1x128_8_6400 : ∀ a, (![8, 6400] : Fin 2 → Nat) a + S1x128.size a ≤ S10x16384.size a
  inb_S10x16384_S1x128_9_6400 : ∀ a, (![9, 6400] : Fin 2 → Nat) a + S1x128.size a ≤ S10x16384.size a
  inb_S16384x128_S128x128_6400_0 : ∀ a, (![6400, 0] : Fin 2 → Nat) a + S128x128.size a ≤ S16384x128.size a
  inb_S10x16384_S1x128_0_6528 : ∀ a, (![0, 6528] : Fin 2 → Nat) a + S1x128.size a ≤ S10x16384.size a
  inb_S10x16384_S1x128_1_6528 : ∀ a, (![1, 6528] : Fin 2 → Nat) a + S1x128.size a ≤ S10x16384.size a
  inb_S10x16384_S1x128_2_6528 : ∀ a, (![2, 6528] : Fin 2 → Nat) a + S1x128.size a ≤ S10x16384.size a
  inb_S10x16384_S1x128_3_6528 : ∀ a, (![3, 6528] : Fin 2 → Nat) a + S1x128.size a ≤ S10x16384.size a
  inb_S10x16384_S1x128_4_6528 : ∀ a, (![4, 6528] : Fin 2 → Nat) a + S1x128.size a ≤ S10x16384.size a
  inb_S10x16384_S1x128_5_6528 : ∀ a, (![5, 6528] : Fin 2 → Nat) a + S1x128.size a ≤ S10x16384.size a
  inb_S10x16384_S1x128_6_6528 : ∀ a, (![6, 6528] : Fin 2 → Nat) a + S1x128.size a ≤ S10x16384.size a
  inb_S10x16384_S1x128_7_6528 : ∀ a, (![7, 6528] : Fin 2 → Nat) a + S1x128.size a ≤ S10x16384.size a
  inb_S10x16384_S1x128_8_6528 : ∀ a, (![8, 6528] : Fin 2 → Nat) a + S1x128.size a ≤ S10x16384.size a
  inb_S10x16384_S1x128_9_6528 : ∀ a, (![9, 6528] : Fin 2 → Nat) a + S1x128.size a ≤ S10x16384.size a
  inb_S16384x128_S128x128_6528_0 : ∀ a, (![6528, 0] : Fin 2 → Nat) a + S128x128.size a ≤ S16384x128.size a
  inb_S10x16384_S1x128_0_6656 : ∀ a, (![0, 6656] : Fin 2 → Nat) a + S1x128.size a ≤ S10x16384.size a
  inb_S10x16384_S1x128_1_6656 : ∀ a, (![1, 6656] : Fin 2 → Nat) a + S1x128.size a ≤ S10x16384.size a
  inb_S10x16384_S1x128_2_6656 : ∀ a, (![2, 6656] : Fin 2 → Nat) a + S1x128.size a ≤ S10x16384.size a
  inb_S10x16384_S1x128_3_6656 : ∀ a, (![3, 6656] : Fin 2 → Nat) a + S1x128.size a ≤ S10x16384.size a
  inb_S10x16384_S1x128_4_6656 : ∀ a, (![4, 6656] : Fin 2 → Nat) a + S1x128.size a ≤ S10x16384.size a
  inb_S10x16384_S1x128_5_6656 : ∀ a, (![5, 6656] : Fin 2 → Nat) a + S1x128.size a ≤ S10x16384.size a
  inb_S10x16384_S1x128_6_6656 : ∀ a, (![6, 6656] : Fin 2 → Nat) a + S1x128.size a ≤ S10x16384.size a
  inb_S10x16384_S1x128_7_6656 : ∀ a, (![7, 6656] : Fin 2 → Nat) a + S1x128.size a ≤ S10x16384.size a
  inb_S10x16384_S1x128_8_6656 : ∀ a, (![8, 6656] : Fin 2 → Nat) a + S1x128.size a ≤ S10x16384.size a
  inb_S10x16384_S1x128_9_6656 : ∀ a, (![9, 6656] : Fin 2 → Nat) a + S1x128.size a ≤ S10x16384.size a
  inb_S16384x128_S128x128_6656_0 : ∀ a, (![6656, 0] : Fin 2 → Nat) a + S128x128.size a ≤ S16384x128.size a
  inb_S10x16384_S1x128_0_6784 : ∀ a, (![0, 6784] : Fin 2 → Nat) a + S1x128.size a ≤ S10x16384.size a
  inb_S10x16384_S1x128_1_6784 : ∀ a, (![1, 6784] : Fin 2 → Nat) a + S1x128.size a ≤ S10x16384.size a
  inb_S10x16384_S1x128_2_6784 : ∀ a, (![2, 6784] : Fin 2 → Nat) a + S1x128.size a ≤ S10x16384.size a
  inb_S10x16384_S1x128_3_6784 : ∀ a, (![3, 6784] : Fin 2 → Nat) a + S1x128.size a ≤ S10x16384.size a
  inb_S10x16384_S1x128_4_6784 : ∀ a, (![4, 6784] : Fin 2 → Nat) a + S1x128.size a ≤ S10x16384.size a
  inb_S10x16384_S1x128_5_6784 : ∀ a, (![5, 6784] : Fin 2 → Nat) a + S1x128.size a ≤ S10x16384.size a
  inb_S10x16384_S1x128_6_6784 : ∀ a, (![6, 6784] : Fin 2 → Nat) a + S1x128.size a ≤ S10x16384.size a
  inb_S10x16384_S1x128_7_6784 : ∀ a, (![7, 6784] : Fin 2 → Nat) a + S1x128.size a ≤ S10x16384.size a
  inb_S10x16384_S1x128_8_6784 : ∀ a, (![8, 6784] : Fin 2 → Nat) a + S1x128.size a ≤ S10x16384.size a
  inb_S10x16384_S1x128_9_6784 : ∀ a, (![9, 6784] : Fin 2 → Nat) a + S1x128.size a ≤ S10x16384.size a
  inb_S16384x128_S128x128_6784_0 : ∀ a, (![6784, 0] : Fin 2 → Nat) a + S128x128.size a ≤ S16384x128.size a
  inb_S10x16384_S1x128_0_6912 : ∀ a, (![0, 6912] : Fin 2 → Nat) a + S1x128.size a ≤ S10x16384.size a
  inb_S10x16384_S1x128_1_6912 : ∀ a, (![1, 6912] : Fin 2 → Nat) a + S1x128.size a ≤ S10x16384.size a
  inb_S10x16384_S1x128_2_6912 : ∀ a, (![2, 6912] : Fin 2 → Nat) a + S1x128.size a ≤ S10x16384.size a
  inb_S10x16384_S1x128_3_6912 : ∀ a, (![3, 6912] : Fin 2 → Nat) a + S1x128.size a ≤ S10x16384.size a
  inb_S10x16384_S1x128_4_6912 : ∀ a, (![4, 6912] : Fin 2 → Nat) a + S1x128.size a ≤ S10x16384.size a
  inb_S10x16384_S1x128_5_6912 : ∀ a, (![5, 6912] : Fin 2 → Nat) a + S1x128.size a ≤ S10x16384.size a
  inb_S10x16384_S1x128_6_6912 : ∀ a, (![6, 6912] : Fin 2 → Nat) a + S1x128.size a ≤ S10x16384.size a
  inb_S10x16384_S1x128_7_6912 : ∀ a, (![7, 6912] : Fin 2 → Nat) a + S1x128.size a ≤ S10x16384.size a
  inb_S10x16384_S1x128_8_6912 : ∀ a, (![8, 6912] : Fin 2 → Nat) a + S1x128.size a ≤ S10x16384.size a
  inb_S10x16384_S1x128_9_6912 : ∀ a, (![9, 6912] : Fin 2 → Nat) a + S1x128.size a ≤ S10x16384.size a
  inb_S16384x128_S128x128_6912_0 : ∀ a, (![6912, 0] : Fin 2 → Nat) a + S128x128.size a ≤ S16384x128.size a
  inb_S10x16384_S1x128_0_7040 : ∀ a, (![0, 7040] : Fin 2 → Nat) a + S1x128.size a ≤ S10x16384.size a
  inb_S10x16384_S1x128_1_7040 : ∀ a, (![1, 7040] : Fin 2 → Nat) a + S1x128.size a ≤ S10x16384.size a
  inb_S10x16384_S1x128_2_7040 : ∀ a, (![2, 7040] : Fin 2 → Nat) a + S1x128.size a ≤ S10x16384.size a
  inb_S10x16384_S1x128_3_7040 : ∀ a, (![3, 7040] : Fin 2 → Nat) a + S1x128.size a ≤ S10x16384.size a
  inb_S10x16384_S1x128_4_7040 : ∀ a, (![4, 7040] : Fin 2 → Nat) a + S1x128.size a ≤ S10x16384.size a
  inb_S10x16384_S1x128_5_7040 : ∀ a, (![5, 7040] : Fin 2 → Nat) a + S1x128.size a ≤ S10x16384.size a
  inb_S10x16384_S1x128_6_7040 : ∀ a, (![6, 7040] : Fin 2 → Nat) a + S1x128.size a ≤ S10x16384.size a
  inb_S10x16384_S1x128_7_7040 : ∀ a, (![7, 7040] : Fin 2 → Nat) a + S1x128.size a ≤ S10x16384.size a
  inb_S10x16384_S1x128_8_7040 : ∀ a, (![8, 7040] : Fin 2 → Nat) a + S1x128.size a ≤ S10x16384.size a
  inb_S10x16384_S1x128_9_7040 : ∀ a, (![9, 7040] : Fin 2 → Nat) a + S1x128.size a ≤ S10x16384.size a
  inb_S16384x128_S128x128_7040_0 : ∀ a, (![7040, 0] : Fin 2 → Nat) a + S128x128.size a ≤ S16384x128.size a
  inb_S10x16384_S1x128_0_7168 : ∀ a, (![0, 7168] : Fin 2 → Nat) a + S1x128.size a ≤ S10x16384.size a
  inb_S10x16384_S1x128_1_7168 : ∀ a, (![1, 7168] : Fin 2 → Nat) a + S1x128.size a ≤ S10x16384.size a
  inb_S10x16384_S1x128_2_7168 : ∀ a, (![2, 7168] : Fin 2 → Nat) a + S1x128.size a ≤ S10x16384.size a
  inb_S10x16384_S1x128_3_7168 : ∀ a, (![3, 7168] : Fin 2 → Nat) a + S1x128.size a ≤ S10x16384.size a
  inb_S10x16384_S1x128_4_7168 : ∀ a, (![4, 7168] : Fin 2 → Nat) a + S1x128.size a ≤ S10x16384.size a
  inb_S10x16384_S1x128_5_7168 : ∀ a, (![5, 7168] : Fin 2 → Nat) a + S1x128.size a ≤ S10x16384.size a
  inb_S10x16384_S1x128_6_7168 : ∀ a, (![6, 7168] : Fin 2 → Nat) a + S1x128.size a ≤ S10x16384.size a
  inb_S10x16384_S1x128_7_7168 : ∀ a, (![7, 7168] : Fin 2 → Nat) a + S1x128.size a ≤ S10x16384.size a
  inb_S10x16384_S1x128_8_7168 : ∀ a, (![8, 7168] : Fin 2 → Nat) a + S1x128.size a ≤ S10x16384.size a
  inb_S10x16384_S1x128_9_7168 : ∀ a, (![9, 7168] : Fin 2 → Nat) a + S1x128.size a ≤ S10x16384.size a
  inb_S16384x128_S128x128_7168_0 : ∀ a, (![7168, 0] : Fin 2 → Nat) a + S128x128.size a ≤ S16384x128.size a
  inb_S10x16384_S1x128_0_7296 : ∀ a, (![0, 7296] : Fin 2 → Nat) a + S1x128.size a ≤ S10x16384.size a
  inb_S10x16384_S1x128_1_7296 : ∀ a, (![1, 7296] : Fin 2 → Nat) a + S1x128.size a ≤ S10x16384.size a
  inb_S10x16384_S1x128_2_7296 : ∀ a, (![2, 7296] : Fin 2 → Nat) a + S1x128.size a ≤ S10x16384.size a
  inb_S10x16384_S1x128_3_7296 : ∀ a, (![3, 7296] : Fin 2 → Nat) a + S1x128.size a ≤ S10x16384.size a
  inb_S10x16384_S1x128_4_7296 : ∀ a, (![4, 7296] : Fin 2 → Nat) a + S1x128.size a ≤ S10x16384.size a
  inb_S10x16384_S1x128_5_7296 : ∀ a, (![5, 7296] : Fin 2 → Nat) a + S1x128.size a ≤ S10x16384.size a
  inb_S10x16384_S1x128_6_7296 : ∀ a, (![6, 7296] : Fin 2 → Nat) a + S1x128.size a ≤ S10x16384.size a
  inb_S10x16384_S1x128_7_7296 : ∀ a, (![7, 7296] : Fin 2 → Nat) a + S1x128.size a ≤ S10x16384.size a
  inb_S10x16384_S1x128_8_7296 : ∀ a, (![8, 7296] : Fin 2 → Nat) a + S1x128.size a ≤ S10x16384.size a
  inb_S10x16384_S1x128_9_7296 : ∀ a, (![9, 7296] : Fin 2 → Nat) a + S1x128.size a ≤ S10x16384.size a
  inb_S16384x128_S128x128_7296_0 : ∀ a, (![7296, 0] : Fin 2 → Nat) a + S128x128.size a ≤ S16384x128.size a
  inb_S10x16384_S1x128_0_7424 : ∀ a, (![0, 7424] : Fin 2 → Nat) a + S1x128.size a ≤ S10x16384.size a
  inb_S10x16384_S1x128_1_7424 : ∀ a, (![1, 7424] : Fin 2 → Nat) a + S1x128.size a ≤ S10x16384.size a
  inb_S10x16384_S1x128_2_7424 : ∀ a, (![2, 7424] : Fin 2 → Nat) a + S1x128.size a ≤ S10x16384.size a
  inb_S10x16384_S1x128_3_7424 : ∀ a, (![3, 7424] : Fin 2 → Nat) a + S1x128.size a ≤ S10x16384.size a
  inb_S10x16384_S1x128_4_7424 : ∀ a, (![4, 7424] : Fin 2 → Nat) a + S1x128.size a ≤ S10x16384.size a
  inb_S10x16384_S1x128_5_7424 : ∀ a, (![5, 7424] : Fin 2 → Nat) a + S1x128.size a ≤ S10x16384.size a
  inb_S10x16384_S1x128_6_7424 : ∀ a, (![6, 7424] : Fin 2 → Nat) a + S1x128.size a ≤ S10x16384.size a
  inb_S10x16384_S1x128_7_7424 : ∀ a, (![7, 7424] : Fin 2 → Nat) a + S1x128.size a ≤ S10x16384.size a
  inb_S10x16384_S1x128_8_7424 : ∀ a, (![8, 7424] : Fin 2 → Nat) a + S1x128.size a ≤ S10x16384.size a
  inb_S10x16384_S1x128_9_7424 : ∀ a, (![9, 7424] : Fin 2 → Nat) a + S1x128.size a ≤ S10x16384.size a
  inb_S16384x128_S128x128_7424_0 : ∀ a, (![7424, 0] : Fin 2 → Nat) a + S128x128.size a ≤ S16384x128.size a
  inb_S10x16384_S1x128_0_7552 : ∀ a, (![0, 7552] : Fin 2 → Nat) a + S1x128.size a ≤ S10x16384.size a
  inb_S10x16384_S1x128_1_7552 : ∀ a, (![1, 7552] : Fin 2 → Nat) a + S1x128.size a ≤ S10x16384.size a
  inb_S10x16384_S1x128_2_7552 : ∀ a, (![2, 7552] : Fin 2 → Nat) a + S1x128.size a ≤ S10x16384.size a
  inb_S10x16384_S1x128_3_7552 : ∀ a, (![3, 7552] : Fin 2 → Nat) a + S1x128.size a ≤ S10x16384.size a
  inb_S10x16384_S1x128_4_7552 : ∀ a, (![4, 7552] : Fin 2 → Nat) a + S1x128.size a ≤ S10x16384.size a
  inb_S10x16384_S1x128_5_7552 : ∀ a, (![5, 7552] : Fin 2 → Nat) a + S1x128.size a ≤ S10x16384.size a
  inb_S10x16384_S1x128_6_7552 : ∀ a, (![6, 7552] : Fin 2 → Nat) a + S1x128.size a ≤ S10x16384.size a
  inb_S10x16384_S1x128_7_7552 : ∀ a, (![7, 7552] : Fin 2 → Nat) a + S1x128.size a ≤ S10x16384.size a
  inb_S10x16384_S1x128_8_7552 : ∀ a, (![8, 7552] : Fin 2 → Nat) a + S1x128.size a ≤ S10x16384.size a
  inb_S10x16384_S1x128_9_7552 : ∀ a, (![9, 7552] : Fin 2 → Nat) a + S1x128.size a ≤ S10x16384.size a
  inb_S16384x128_S128x128_7552_0 : ∀ a, (![7552, 0] : Fin 2 → Nat) a + S128x128.size a ≤ S16384x128.size a
  inb_S10x16384_S1x128_0_7680 : ∀ a, (![0, 7680] : Fin 2 → Nat) a + S1x128.size a ≤ S10x16384.size a
  inb_S10x16384_S1x128_1_7680 : ∀ a, (![1, 7680] : Fin 2 → Nat) a + S1x128.size a ≤ S10x16384.size a
  inb_S10x16384_S1x128_2_7680 : ∀ a, (![2, 7680] : Fin 2 → Nat) a + S1x128.size a ≤ S10x16384.size a
  inb_S10x16384_S1x128_3_7680 : ∀ a, (![3, 7680] : Fin 2 → Nat) a + S1x128.size a ≤ S10x16384.size a
  inb_S10x16384_S1x128_4_7680 : ∀ a, (![4, 7680] : Fin 2 → Nat) a + S1x128.size a ≤ S10x16384.size a
  inb_S10x16384_S1x128_5_7680 : ∀ a, (![5, 7680] : Fin 2 → Nat) a + S1x128.size a ≤ S10x16384.size a
  inb_S10x16384_S1x128_6_7680 : ∀ a, (![6, 7680] : Fin 2 → Nat) a + S1x128.size a ≤ S10x16384.size a
  inb_S10x16384_S1x128_7_7680 : ∀ a, (![7, 7680] : Fin 2 → Nat) a + S1x128.size a ≤ S10x16384.size a
  inb_S10x16384_S1x128_8_7680 : ∀ a, (![8, 7680] : Fin 2 → Nat) a + S1x128.size a ≤ S10x16384.size a
  inb_S10x16384_S1x128_9_7680 : ∀ a, (![9, 7680] : Fin 2 → Nat) a + S1x128.size a ≤ S10x16384.size a
  inb_S16384x128_S128x128_7680_0 : ∀ a, (![7680, 0] : Fin 2 → Nat) a + S128x128.size a ≤ S16384x128.size a
  inb_S10x16384_S1x128_0_7808 : ∀ a, (![0, 7808] : Fin 2 → Nat) a + S1x128.size a ≤ S10x16384.size a
  inb_S10x16384_S1x128_1_7808 : ∀ a, (![1, 7808] : Fin 2 → Nat) a + S1x128.size a ≤ S10x16384.size a
  inb_S10x16384_S1x128_2_7808 : ∀ a, (![2, 7808] : Fin 2 → Nat) a + S1x128.size a ≤ S10x16384.size a
  inb_S10x16384_S1x128_3_7808 : ∀ a, (![3, 7808] : Fin 2 → Nat) a + S1x128.size a ≤ S10x16384.size a
  inb_S10x16384_S1x128_4_7808 : ∀ a, (![4, 7808] : Fin 2 → Nat) a + S1x128.size a ≤ S10x16384.size a
  inb_S10x16384_S1x128_5_7808 : ∀ a, (![5, 7808] : Fin 2 → Nat) a + S1x128.size a ≤ S10x16384.size a
  inb_S10x16384_S1x128_6_7808 : ∀ a, (![6, 7808] : Fin 2 → Nat) a + S1x128.size a ≤ S10x16384.size a
  inb_S10x16384_S1x128_7_7808 : ∀ a, (![7, 7808] : Fin 2 → Nat) a + S1x128.size a ≤ S10x16384.size a
  inb_S10x16384_S1x128_8_7808 : ∀ a, (![8, 7808] : Fin 2 → Nat) a + S1x128.size a ≤ S10x16384.size a
  inb_S10x16384_S1x128_9_7808 : ∀ a, (![9, 7808] : Fin 2 → Nat) a + S1x128.size a ≤ S10x16384.size a
  inb_S16384x128_S128x128_7808_0 : ∀ a, (![7808, 0] : Fin 2 → Nat) a + S128x128.size a ≤ S16384x128.size a
  inb_S10x16384_S1x128_0_7936 : ∀ a, (![0, 7936] : Fin 2 → Nat) a + S1x128.size a ≤ S10x16384.size a
  inb_S10x16384_S1x128_1_7936 : ∀ a, (![1, 7936] : Fin 2 → Nat) a + S1x128.size a ≤ S10x16384.size a
  inb_S10x16384_S1x128_2_7936 : ∀ a, (![2, 7936] : Fin 2 → Nat) a + S1x128.size a ≤ S10x16384.size a
  inb_S10x16384_S1x128_3_7936 : ∀ a, (![3, 7936] : Fin 2 → Nat) a + S1x128.size a ≤ S10x16384.size a
  inb_S10x16384_S1x128_4_7936 : ∀ a, (![4, 7936] : Fin 2 → Nat) a + S1x128.size a ≤ S10x16384.size a
  inb_S10x16384_S1x128_5_7936 : ∀ a, (![5, 7936] : Fin 2 → Nat) a + S1x128.size a ≤ S10x16384.size a
  inb_S10x16384_S1x128_6_7936 : ∀ a, (![6, 7936] : Fin 2 → Nat) a + S1x128.size a ≤ S10x16384.size a
  inb_S10x16384_S1x128_7_7936 : ∀ a, (![7, 7936] : Fin 2 → Nat) a + S1x128.size a ≤ S10x16384.size a
  inb_S10x16384_S1x128_8_7936 : ∀ a, (![8, 7936] : Fin 2 → Nat) a + S1x128.size a ≤ S10x16384.size a
  inb_S10x16384_S1x128_9_7936 : ∀ a, (![9, 7936] : Fin 2 → Nat) a + S1x128.size a ≤ S10x16384.size a
  inb_S16384x128_S128x128_7936_0 : ∀ a, (![7936, 0] : Fin 2 → Nat) a + S128x128.size a ≤ S16384x128.size a
  inb_S10x16384_S1x128_0_8064 : ∀ a, (![0, 8064] : Fin 2 → Nat) a + S1x128.size a ≤ S10x16384.size a
  inb_S10x16384_S1x128_1_8064 : ∀ a, (![1, 8064] : Fin 2 → Nat) a + S1x128.size a ≤ S10x16384.size a
  inb_S10x16384_S1x128_2_8064 : ∀ a, (![2, 8064] : Fin 2 → Nat) a + S1x128.size a ≤ S10x16384.size a
  inb_S10x16384_S1x128_3_8064 : ∀ a, (![3, 8064] : Fin 2 → Nat) a + S1x128.size a ≤ S10x16384.size a
  inb_S10x16384_S1x128_4_8064 : ∀ a, (![4, 8064] : Fin 2 → Nat) a + S1x128.size a ≤ S10x16384.size a
  inb_S10x16384_S1x128_5_8064 : ∀ a, (![5, 8064] : Fin 2 → Nat) a + S1x128.size a ≤ S10x16384.size a
  inb_S10x16384_S1x128_6_8064 : ∀ a, (![6, 8064] : Fin 2 → Nat) a + S1x128.size a ≤ S10x16384.size a
  inb_S10x16384_S1x128_7_8064 : ∀ a, (![7, 8064] : Fin 2 → Nat) a + S1x128.size a ≤ S10x16384.size a
  inb_S10x16384_S1x128_8_8064 : ∀ a, (![8, 8064] : Fin 2 → Nat) a + S1x128.size a ≤ S10x16384.size a
  inb_S10x16384_S1x128_9_8064 : ∀ a, (![9, 8064] : Fin 2 → Nat) a + S1x128.size a ≤ S10x16384.size a
  inb_S16384x128_S128x128_8064_0 : ∀ a, (![8064, 0] : Fin 2 → Nat) a + S128x128.size a ≤ S16384x128.size a
  inb_S10x16384_S1x128_0_8192 : ∀ a, (![0, 8192] : Fin 2 → Nat) a + S1x128.size a ≤ S10x16384.size a
  inb_S10x16384_S1x128_1_8192 : ∀ a, (![1, 8192] : Fin 2 → Nat) a + S1x128.size a ≤ S10x16384.size a
  inb_S10x16384_S1x128_2_8192 : ∀ a, (![2, 8192] : Fin 2 → Nat) a + S1x128.size a ≤ S10x16384.size a
  inb_S10x16384_S1x128_3_8192 : ∀ a, (![3, 8192] : Fin 2 → Nat) a + S1x128.size a ≤ S10x16384.size a
  inb_S10x16384_S1x128_4_8192 : ∀ a, (![4, 8192] : Fin 2 → Nat) a + S1x128.size a ≤ S10x16384.size a
  inb_S10x16384_S1x128_5_8192 : ∀ a, (![5, 8192] : Fin 2 → Nat) a + S1x128.size a ≤ S10x16384.size a
  inb_S10x16384_S1x128_6_8192 : ∀ a, (![6, 8192] : Fin 2 → Nat) a + S1x128.size a ≤ S10x16384.size a
  inb_S10x16384_S1x128_7_8192 : ∀ a, (![7, 8192] : Fin 2 → Nat) a + S1x128.size a ≤ S10x16384.size a
  inb_S10x16384_S1x128_8_8192 : ∀ a, (![8, 8192] : Fin 2 → Nat) a + S1x128.size a ≤ S10x16384.size a
  inb_S10x16384_S1x128_9_8192 : ∀ a, (![9, 8192] : Fin 2 → Nat) a + S1x128.size a ≤ S10x16384.size a
  inb_S16384x128_S128x128_8192_0 : ∀ a, (![8192, 0] : Fin 2 → Nat) a + S128x128.size a ≤ S16384x128.size a
  inb_S10x16384_S1x128_0_8320 : ∀ a, (![0, 8320] : Fin 2 → Nat) a + S1x128.size a ≤ S10x16384.size a
  inb_S10x16384_S1x128_1_8320 : ∀ a, (![1, 8320] : Fin 2 → Nat) a + S1x128.size a ≤ S10x16384.size a
  inb_S10x16384_S1x128_2_8320 : ∀ a, (![2, 8320] : Fin 2 → Nat) a + S1x128.size a ≤ S10x16384.size a
  inb_S10x16384_S1x128_3_8320 : ∀ a, (![3, 8320] : Fin 2 → Nat) a + S1x128.size a ≤ S10x16384.size a
  inb_S10x16384_S1x128_4_8320 : ∀ a, (![4, 8320] : Fin 2 → Nat) a + S1x128.size a ≤ S10x16384.size a
  inb_S10x16384_S1x128_5_8320 : ∀ a, (![5, 8320] : Fin 2 → Nat) a + S1x128.size a ≤ S10x16384.size a
  inb_S10x16384_S1x128_6_8320 : ∀ a, (![6, 8320] : Fin 2 → Nat) a + S1x128.size a ≤ S10x16384.size a
  inb_S10x16384_S1x128_7_8320 : ∀ a, (![7, 8320] : Fin 2 → Nat) a + S1x128.size a ≤ S10x16384.size a
  inb_S10x16384_S1x128_8_8320 : ∀ a, (![8, 8320] : Fin 2 → Nat) a + S1x128.size a ≤ S10x16384.size a
  inb_S10x16384_S1x128_9_8320 : ∀ a, (![9, 8320] : Fin 2 → Nat) a + S1x128.size a ≤ S10x16384.size a
  inb_S16384x128_S128x128_8320_0 : ∀ a, (![8320, 0] : Fin 2 → Nat) a + S128x128.size a ≤ S16384x128.size a
  inb_S10x16384_S1x128_0_8448 : ∀ a, (![0, 8448] : Fin 2 → Nat) a + S1x128.size a ≤ S10x16384.size a
  inb_S10x16384_S1x128_1_8448 : ∀ a, (![1, 8448] : Fin 2 → Nat) a + S1x128.size a ≤ S10x16384.size a
  inb_S10x16384_S1x128_2_8448 : ∀ a, (![2, 8448] : Fin 2 → Nat) a + S1x128.size a ≤ S10x16384.size a
  inb_S10x16384_S1x128_3_8448 : ∀ a, (![3, 8448] : Fin 2 → Nat) a + S1x128.size a ≤ S10x16384.size a
  inb_S10x16384_S1x128_4_8448 : ∀ a, (![4, 8448] : Fin 2 → Nat) a + S1x128.size a ≤ S10x16384.size a
  inb_S10x16384_S1x128_5_8448 : ∀ a, (![5, 8448] : Fin 2 → Nat) a + S1x128.size a ≤ S10x16384.size a
  inb_S10x16384_S1x128_6_8448 : ∀ a, (![6, 8448] : Fin 2 → Nat) a + S1x128.size a ≤ S10x16384.size a
  inb_S10x16384_S1x128_7_8448 : ∀ a, (![7, 8448] : Fin 2 → Nat) a + S1x128.size a ≤ S10x16384.size a
  inb_S10x16384_S1x128_8_8448 : ∀ a, (![8, 8448] : Fin 2 → Nat) a + S1x128.size a ≤ S10x16384.size a
  inb_S10x16384_S1x128_9_8448 : ∀ a, (![9, 8448] : Fin 2 → Nat) a + S1x128.size a ≤ S10x16384.size a
  inb_S16384x128_S128x128_8448_0 : ∀ a, (![8448, 0] : Fin 2 → Nat) a + S128x128.size a ≤ S16384x128.size a
  inb_S10x16384_S1x128_0_8576 : ∀ a, (![0, 8576] : Fin 2 → Nat) a + S1x128.size a ≤ S10x16384.size a
  inb_S10x16384_S1x128_1_8576 : ∀ a, (![1, 8576] : Fin 2 → Nat) a + S1x128.size a ≤ S10x16384.size a
  inb_S10x16384_S1x128_2_8576 : ∀ a, (![2, 8576] : Fin 2 → Nat) a + S1x128.size a ≤ S10x16384.size a
  inb_S10x16384_S1x128_3_8576 : ∀ a, (![3, 8576] : Fin 2 → Nat) a + S1x128.size a ≤ S10x16384.size a
  inb_S10x16384_S1x128_4_8576 : ∀ a, (![4, 8576] : Fin 2 → Nat) a + S1x128.size a ≤ S10x16384.size a
  inb_S10x16384_S1x128_5_8576 : ∀ a, (![5, 8576] : Fin 2 → Nat) a + S1x128.size a ≤ S10x16384.size a
  inb_S10x16384_S1x128_6_8576 : ∀ a, (![6, 8576] : Fin 2 → Nat) a + S1x128.size a ≤ S10x16384.size a
  inb_S10x16384_S1x128_7_8576 : ∀ a, (![7, 8576] : Fin 2 → Nat) a + S1x128.size a ≤ S10x16384.size a
  inb_S10x16384_S1x128_8_8576 : ∀ a, (![8, 8576] : Fin 2 → Nat) a + S1x128.size a ≤ S10x16384.size a
  inb_S10x16384_S1x128_9_8576 : ∀ a, (![9, 8576] : Fin 2 → Nat) a + S1x128.size a ≤ S10x16384.size a
  inb_S16384x128_S128x128_8576_0 : ∀ a, (![8576, 0] : Fin 2 → Nat) a + S128x128.size a ≤ S16384x128.size a
  inb_S10x16384_S1x128_0_8704 : ∀ a, (![0, 8704] : Fin 2 → Nat) a + S1x128.size a ≤ S10x16384.size a
  inb_S10x16384_S1x128_1_8704 : ∀ a, (![1, 8704] : Fin 2 → Nat) a + S1x128.size a ≤ S10x16384.size a
  inb_S10x16384_S1x128_2_8704 : ∀ a, (![2, 8704] : Fin 2 → Nat) a + S1x128.size a ≤ S10x16384.size a
  inb_S10x16384_S1x128_3_8704 : ∀ a, (![3, 8704] : Fin 2 → Nat) a + S1x128.size a ≤ S10x16384.size a
  inb_S10x16384_S1x128_4_8704 : ∀ a, (![4, 8704] : Fin 2 → Nat) a + S1x128.size a ≤ S10x16384.size a
  inb_S10x16384_S1x128_5_8704 : ∀ a, (![5, 8704] : Fin 2 → Nat) a + S1x128.size a ≤ S10x16384.size a
  inb_S10x16384_S1x128_6_8704 : ∀ a, (![6, 8704] : Fin 2 → Nat) a + S1x128.size a ≤ S10x16384.size a
  inb_S10x16384_S1x128_7_8704 : ∀ a, (![7, 8704] : Fin 2 → Nat) a + S1x128.size a ≤ S10x16384.size a
  inb_S10x16384_S1x128_8_8704 : ∀ a, (![8, 8704] : Fin 2 → Nat) a + S1x128.size a ≤ S10x16384.size a
  inb_S10x16384_S1x128_9_8704 : ∀ a, (![9, 8704] : Fin 2 → Nat) a + S1x128.size a ≤ S10x16384.size a
  inb_S16384x128_S128x128_8704_0 : ∀ a, (![8704, 0] : Fin 2 → Nat) a + S128x128.size a ≤ S16384x128.size a
  inb_S10x16384_S1x128_0_8832 : ∀ a, (![0, 8832] : Fin 2 → Nat) a + S1x128.size a ≤ S10x16384.size a
  inb_S10x16384_S1x128_1_8832 : ∀ a, (![1, 8832] : Fin 2 → Nat) a + S1x128.size a ≤ S10x16384.size a
  inb_S10x16384_S1x128_2_8832 : ∀ a, (![2, 8832] : Fin 2 → Nat) a + S1x128.size a ≤ S10x16384.size a
  inb_S10x16384_S1x128_3_8832 : ∀ a, (![3, 8832] : Fin 2 → Nat) a + S1x128.size a ≤ S10x16384.size a
  inb_S10x16384_S1x128_4_8832 : ∀ a, (![4, 8832] : Fin 2 → Nat) a + S1x128.size a ≤ S10x16384.size a
  inb_S10x16384_S1x128_5_8832 : ∀ a, (![5, 8832] : Fin 2 → Nat) a + S1x128.size a ≤ S10x16384.size a
  inb_S10x16384_S1x128_6_8832 : ∀ a, (![6, 8832] : Fin 2 → Nat) a + S1x128.size a ≤ S10x16384.size a
  inb_S10x16384_S1x128_7_8832 : ∀ a, (![7, 8832] : Fin 2 → Nat) a + S1x128.size a ≤ S10x16384.size a
  inb_S10x16384_S1x128_8_8832 : ∀ a, (![8, 8832] : Fin 2 → Nat) a + S1x128.size a ≤ S10x16384.size a
  inb_S10x16384_S1x128_9_8832 : ∀ a, (![9, 8832] : Fin 2 → Nat) a + S1x128.size a ≤ S10x16384.size a
  inb_S16384x128_S128x128_8832_0 : ∀ a, (![8832, 0] : Fin 2 → Nat) a + S128x128.size a ≤ S16384x128.size a
  inb_S10x16384_S1x128_0_8960 : ∀ a, (![0, 8960] : Fin 2 → Nat) a + S1x128.size a ≤ S10x16384.size a
  inb_S10x16384_S1x128_1_8960 : ∀ a, (![1, 8960] : Fin 2 → Nat) a + S1x128.size a ≤ S10x16384.size a
  inb_S10x16384_S1x128_2_8960 : ∀ a, (![2, 8960] : Fin 2 → Nat) a + S1x128.size a ≤ S10x16384.size a
  inb_S10x16384_S1x128_3_8960 : ∀ a, (![3, 8960] : Fin 2 → Nat) a + S1x128.size a ≤ S10x16384.size a
  inb_S10x16384_S1x128_4_8960 : ∀ a, (![4, 8960] : Fin 2 → Nat) a + S1x128.size a ≤ S10x16384.size a
  inb_S10x16384_S1x128_5_8960 : ∀ a, (![5, 8960] : Fin 2 → Nat) a + S1x128.size a ≤ S10x16384.size a
  inb_S10x16384_S1x128_6_8960 : ∀ a, (![6, 8960] : Fin 2 → Nat) a + S1x128.size a ≤ S10x16384.size a
  inb_S10x16384_S1x128_7_8960 : ∀ a, (![7, 8960] : Fin 2 → Nat) a + S1x128.size a ≤ S10x16384.size a
  inb_S10x16384_S1x128_8_8960 : ∀ a, (![8, 8960] : Fin 2 → Nat) a + S1x128.size a ≤ S10x16384.size a
  inb_S10x16384_S1x128_9_8960 : ∀ a, (![9, 8960] : Fin 2 → Nat) a + S1x128.size a ≤ S10x16384.size a
  inb_S16384x128_S128x128_8960_0 : ∀ a, (![8960, 0] : Fin 2 → Nat) a + S128x128.size a ≤ S16384x128.size a
  inb_S10x16384_S1x128_0_9088 : ∀ a, (![0, 9088] : Fin 2 → Nat) a + S1x128.size a ≤ S10x16384.size a
  inb_S10x16384_S1x128_1_9088 : ∀ a, (![1, 9088] : Fin 2 → Nat) a + S1x128.size a ≤ S10x16384.size a
  inb_S10x16384_S1x128_2_9088 : ∀ a, (![2, 9088] : Fin 2 → Nat) a + S1x128.size a ≤ S10x16384.size a
  inb_S10x16384_S1x128_3_9088 : ∀ a, (![3, 9088] : Fin 2 → Nat) a + S1x128.size a ≤ S10x16384.size a
  inb_S10x16384_S1x128_4_9088 : ∀ a, (![4, 9088] : Fin 2 → Nat) a + S1x128.size a ≤ S10x16384.size a
  inb_S10x16384_S1x128_5_9088 : ∀ a, (![5, 9088] : Fin 2 → Nat) a + S1x128.size a ≤ S10x16384.size a
  inb_S10x16384_S1x128_6_9088 : ∀ a, (![6, 9088] : Fin 2 → Nat) a + S1x128.size a ≤ S10x16384.size a
  inb_S10x16384_S1x128_7_9088 : ∀ a, (![7, 9088] : Fin 2 → Nat) a + S1x128.size a ≤ S10x16384.size a
  inb_S10x16384_S1x128_8_9088 : ∀ a, (![8, 9088] : Fin 2 → Nat) a + S1x128.size a ≤ S10x16384.size a
  inb_S10x16384_S1x128_9_9088 : ∀ a, (![9, 9088] : Fin 2 → Nat) a + S1x128.size a ≤ S10x16384.size a
  inb_S16384x128_S128x128_9088_0 : ∀ a, (![9088, 0] : Fin 2 → Nat) a + S128x128.size a ≤ S16384x128.size a
  inb_S10x16384_S1x128_0_9216 : ∀ a, (![0, 9216] : Fin 2 → Nat) a + S1x128.size a ≤ S10x16384.size a
  inb_S10x16384_S1x128_1_9216 : ∀ a, (![1, 9216] : Fin 2 → Nat) a + S1x128.size a ≤ S10x16384.size a
  inb_S10x16384_S1x128_2_9216 : ∀ a, (![2, 9216] : Fin 2 → Nat) a + S1x128.size a ≤ S10x16384.size a
  inb_S10x16384_S1x128_3_9216 : ∀ a, (![3, 9216] : Fin 2 → Nat) a + S1x128.size a ≤ S10x16384.size a
  inb_S10x16384_S1x128_4_9216 : ∀ a, (![4, 9216] : Fin 2 → Nat) a + S1x128.size a ≤ S10x16384.size a
  inb_S10x16384_S1x128_5_9216 : ∀ a, (![5, 9216] : Fin 2 → Nat) a + S1x128.size a ≤ S10x16384.size a
  inb_S10x16384_S1x128_6_9216 : ∀ a, (![6, 9216] : Fin 2 → Nat) a + S1x128.size a ≤ S10x16384.size a
  inb_S10x16384_S1x128_7_9216 : ∀ a, (![7, 9216] : Fin 2 → Nat) a + S1x128.size a ≤ S10x16384.size a
  inb_S10x16384_S1x128_8_9216 : ∀ a, (![8, 9216] : Fin 2 → Nat) a + S1x128.size a ≤ S10x16384.size a
  inb_S10x16384_S1x128_9_9216 : ∀ a, (![9, 9216] : Fin 2 → Nat) a + S1x128.size a ≤ S10x16384.size a
  inb_S16384x128_S128x128_9216_0 : ∀ a, (![9216, 0] : Fin 2 → Nat) a + S128x128.size a ≤ S16384x128.size a
  inb_S10x16384_S1x128_0_9344 : ∀ a, (![0, 9344] : Fin 2 → Nat) a + S1x128.size a ≤ S10x16384.size a
  inb_S10x16384_S1x128_1_9344 : ∀ a, (![1, 9344] : Fin 2 → Nat) a + S1x128.size a ≤ S10x16384.size a
  inb_S10x16384_S1x128_2_9344 : ∀ a, (![2, 9344] : Fin 2 → Nat) a + S1x128.size a ≤ S10x16384.size a
  inb_S10x16384_S1x128_3_9344 : ∀ a, (![3, 9344] : Fin 2 → Nat) a + S1x128.size a ≤ S10x16384.size a
  inb_S10x16384_S1x128_4_9344 : ∀ a, (![4, 9344] : Fin 2 → Nat) a + S1x128.size a ≤ S10x16384.size a
  inb_S10x16384_S1x128_5_9344 : ∀ a, (![5, 9344] : Fin 2 → Nat) a + S1x128.size a ≤ S10x16384.size a
  inb_S10x16384_S1x128_6_9344 : ∀ a, (![6, 9344] : Fin 2 → Nat) a + S1x128.size a ≤ S10x16384.size a
  inb_S10x16384_S1x128_7_9344 : ∀ a, (![7, 9344] : Fin 2 → Nat) a + S1x128.size a ≤ S10x16384.size a
  inb_S10x16384_S1x128_8_9344 : ∀ a, (![8, 9344] : Fin 2 → Nat) a + S1x128.size a ≤ S10x16384.size a
  inb_S10x16384_S1x128_9_9344 : ∀ a, (![9, 9344] : Fin 2 → Nat) a + S1x128.size a ≤ S10x16384.size a
  inb_S16384x128_S128x128_9344_0 : ∀ a, (![9344, 0] : Fin 2 → Nat) a + S128x128.size a ≤ S16384x128.size a
  inb_S10x16384_S1x128_0_9472 : ∀ a, (![0, 9472] : Fin 2 → Nat) a + S1x128.size a ≤ S10x16384.size a
  inb_S10x16384_S1x128_1_9472 : ∀ a, (![1, 9472] : Fin 2 → Nat) a + S1x128.size a ≤ S10x16384.size a
  inb_S10x16384_S1x128_2_9472 : ∀ a, (![2, 9472] : Fin 2 → Nat) a + S1x128.size a ≤ S10x16384.size a
  inb_S10x16384_S1x128_3_9472 : ∀ a, (![3, 9472] : Fin 2 → Nat) a + S1x128.size a ≤ S10x16384.size a
  inb_S10x16384_S1x128_4_9472 : ∀ a, (![4, 9472] : Fin 2 → Nat) a + S1x128.size a ≤ S10x16384.size a
  inb_S10x16384_S1x128_5_9472 : ∀ a, (![5, 9472] : Fin 2 → Nat) a + S1x128.size a ≤ S10x16384.size a
  inb_S10x16384_S1x128_6_9472 : ∀ a, (![6, 9472] : Fin 2 → Nat) a + S1x128.size a ≤ S10x16384.size a
  inb_S10x16384_S1x128_7_9472 : ∀ a, (![7, 9472] : Fin 2 → Nat) a + S1x128.size a ≤ S10x16384.size a
  inb_S10x16384_S1x128_8_9472 : ∀ a, (![8, 9472] : Fin 2 → Nat) a + S1x128.size a ≤ S10x16384.size a
  inb_S10x16384_S1x128_9_9472 : ∀ a, (![9, 9472] : Fin 2 → Nat) a + S1x128.size a ≤ S10x16384.size a
  inb_S16384x128_S128x128_9472_0 : ∀ a, (![9472, 0] : Fin 2 → Nat) a + S128x128.size a ≤ S16384x128.size a
  inb_S10x16384_S1x128_0_9600 : ∀ a, (![0, 9600] : Fin 2 → Nat) a + S1x128.size a ≤ S10x16384.size a
  inb_S10x16384_S1x128_1_9600 : ∀ a, (![1, 9600] : Fin 2 → Nat) a + S1x128.size a ≤ S10x16384.size a
  inb_S10x16384_S1x128_2_9600 : ∀ a, (![2, 9600] : Fin 2 → Nat) a + S1x128.size a ≤ S10x16384.size a
  inb_S10x16384_S1x128_3_9600 : ∀ a, (![3, 9600] : Fin 2 → Nat) a + S1x128.size a ≤ S10x16384.size a
  inb_S10x16384_S1x128_4_9600 : ∀ a, (![4, 9600] : Fin 2 → Nat) a + S1x128.size a ≤ S10x16384.size a
  inb_S10x16384_S1x128_5_9600 : ∀ a, (![5, 9600] : Fin 2 → Nat) a + S1x128.size a ≤ S10x16384.size a
  inb_S10x16384_S1x128_6_9600 : ∀ a, (![6, 9600] : Fin 2 → Nat) a + S1x128.size a ≤ S10x16384.size a
  inb_S10x16384_S1x128_7_9600 : ∀ a, (![7, 9600] : Fin 2 → Nat) a + S1x128.size a ≤ S10x16384.size a
  inb_S10x16384_S1x128_8_9600 : ∀ a, (![8, 9600] : Fin 2 → Nat) a + S1x128.size a ≤ S10x16384.size a
  inb_S10x16384_S1x128_9_9600 : ∀ a, (![9, 9600] : Fin 2 → Nat) a + S1x128.size a ≤ S10x16384.size a
  inb_S16384x128_S128x128_9600_0 : ∀ a, (![9600, 0] : Fin 2 → Nat) a + S128x128.size a ≤ S16384x128.size a
  inb_S10x16384_S1x128_0_9728 : ∀ a, (![0, 9728] : Fin 2 → Nat) a + S1x128.size a ≤ S10x16384.size a
  inb_S10x16384_S1x128_1_9728 : ∀ a, (![1, 9728] : Fin 2 → Nat) a + S1x128.size a ≤ S10x16384.size a
  inb_S10x16384_S1x128_2_9728 : ∀ a, (![2, 9728] : Fin 2 → Nat) a + S1x128.size a ≤ S10x16384.size a
  inb_S10x16384_S1x128_3_9728 : ∀ a, (![3, 9728] : Fin 2 → Nat) a + S1x128.size a ≤ S10x16384.size a
  inb_S10x16384_S1x128_4_9728 : ∀ a, (![4, 9728] : Fin 2 → Nat) a + S1x128.size a ≤ S10x16384.size a
  inb_S10x16384_S1x128_5_9728 : ∀ a, (![5, 9728] : Fin 2 → Nat) a + S1x128.size a ≤ S10x16384.size a
  inb_S10x16384_S1x128_6_9728 : ∀ a, (![6, 9728] : Fin 2 → Nat) a + S1x128.size a ≤ S10x16384.size a
  inb_S10x16384_S1x128_7_9728 : ∀ a, (![7, 9728] : Fin 2 → Nat) a + S1x128.size a ≤ S10x16384.size a
  inb_S10x16384_S1x128_8_9728 : ∀ a, (![8, 9728] : Fin 2 → Nat) a + S1x128.size a ≤ S10x16384.size a
  inb_S10x16384_S1x128_9_9728 : ∀ a, (![9, 9728] : Fin 2 → Nat) a + S1x128.size a ≤ S10x16384.size a
  inb_S16384x128_S128x128_9728_0 : ∀ a, (![9728, 0] : Fin 2 → Nat) a + S128x128.size a ≤ S16384x128.size a
  inb_S10x16384_S1x128_0_9856 : ∀ a, (![0, 9856] : Fin 2 → Nat) a + S1x128.size a ≤ S10x16384.size a
  inb_S10x16384_S1x128_1_9856 : ∀ a, (![1, 9856] : Fin 2 → Nat) a + S1x128.size a ≤ S10x16384.size a
  inb_S10x16384_S1x128_2_9856 : ∀ a, (![2, 9856] : Fin 2 → Nat) a + S1x128.size a ≤ S10x16384.size a
  inb_S10x16384_S1x128_3_9856 : ∀ a, (![3, 9856] : Fin 2 → Nat) a + S1x128.size a ≤ S10x16384.size a
  inb_S10x16384_S1x128_4_9856 : ∀ a, (![4, 9856] : Fin 2 → Nat) a + S1x128.size a ≤ S10x16384.size a
  inb_S10x16384_S1x128_5_9856 : ∀ a, (![5, 9856] : Fin 2 → Nat) a + S1x128.size a ≤ S10x16384.size a
  inb_S10x16384_S1x128_6_9856 : ∀ a, (![6, 9856] : Fin 2 → Nat) a + S1x128.size a ≤ S10x16384.size a
  inb_S10x16384_S1x128_7_9856 : ∀ a, (![7, 9856] : Fin 2 → Nat) a + S1x128.size a ≤ S10x16384.size a
  inb_S10x16384_S1x128_8_9856 : ∀ a, (![8, 9856] : Fin 2 → Nat) a + S1x128.size a ≤ S10x16384.size a
  inb_S10x16384_S1x128_9_9856 : ∀ a, (![9, 9856] : Fin 2 → Nat) a + S1x128.size a ≤ S10x16384.size a
  inb_S16384x128_S128x128_9856_0 : ∀ a, (![9856, 0] : Fin 2 → Nat) a + S128x128.size a ≤ S16384x128.size a
  inb_S10x16384_S1x128_0_9984 : ∀ a, (![0, 9984] : Fin 2 → Nat) a + S1x128.size a ≤ S10x16384.size a
  inb_S10x16384_S1x128_1_9984 : ∀ a, (![1, 9984] : Fin 2 → Nat) a + S1x128.size a ≤ S10x16384.size a
  inb_S10x16384_S1x128_2_9984 : ∀ a, (![2, 9984] : Fin 2 → Nat) a + S1x128.size a ≤ S10x16384.size a
  inb_S10x16384_S1x128_3_9984 : ∀ a, (![3, 9984] : Fin 2 → Nat) a + S1x128.size a ≤ S10x16384.size a
  inb_S10x16384_S1x128_4_9984 : ∀ a, (![4, 9984] : Fin 2 → Nat) a + S1x128.size a ≤ S10x16384.size a
  inb_S10x16384_S1x128_5_9984 : ∀ a, (![5, 9984] : Fin 2 → Nat) a + S1x128.size a ≤ S10x16384.size a
  inb_S10x16384_S1x128_6_9984 : ∀ a, (![6, 9984] : Fin 2 → Nat) a + S1x128.size a ≤ S10x16384.size a
  inb_S10x16384_S1x128_7_9984 : ∀ a, (![7, 9984] : Fin 2 → Nat) a + S1x128.size a ≤ S10x16384.size a
  inb_S10x16384_S1x128_8_9984 : ∀ a, (![8, 9984] : Fin 2 → Nat) a + S1x128.size a ≤ S10x16384.size a
  inb_S10x16384_S1x128_9_9984 : ∀ a, (![9, 9984] : Fin 2 → Nat) a + S1x128.size a ≤ S10x16384.size a
  inb_S16384x128_S128x128_9984_0 : ∀ a, (![9984, 0] : Fin 2 → Nat) a + S128x128.size a ≤ S16384x128.size a
  inb_S10x16384_S1x128_0_10112 : ∀ a, (![0, 10112] : Fin 2 → Nat) a + S1x128.size a ≤ S10x16384.size a
  inb_S10x16384_S1x128_1_10112 : ∀ a, (![1, 10112] : Fin 2 → Nat) a + S1x128.size a ≤ S10x16384.size a
  inb_S10x16384_S1x128_2_10112 : ∀ a, (![2, 10112] : Fin 2 → Nat) a + S1x128.size a ≤ S10x16384.size a
  inb_S10x16384_S1x128_3_10112 : ∀ a, (![3, 10112] : Fin 2 → Nat) a + S1x128.size a ≤ S10x16384.size a
  inb_S10x16384_S1x128_4_10112 : ∀ a, (![4, 10112] : Fin 2 → Nat) a + S1x128.size a ≤ S10x16384.size a
  inb_S10x16384_S1x128_5_10112 : ∀ a, (![5, 10112] : Fin 2 → Nat) a + S1x128.size a ≤ S10x16384.size a
  inb_S10x16384_S1x128_6_10112 : ∀ a, (![6, 10112] : Fin 2 → Nat) a + S1x128.size a ≤ S10x16384.size a
  inb_S10x16384_S1x128_7_10112 : ∀ a, (![7, 10112] : Fin 2 → Nat) a + S1x128.size a ≤ S10x16384.size a
  inb_S10x16384_S1x128_8_10112 : ∀ a, (![8, 10112] : Fin 2 → Nat) a + S1x128.size a ≤ S10x16384.size a
  inb_S10x16384_S1x128_9_10112 : ∀ a, (![9, 10112] : Fin 2 → Nat) a + S1x128.size a ≤ S10x16384.size a
  inb_S16384x128_S128x128_10112_0 : ∀ a, (![10112, 0] : Fin 2 → Nat) a + S128x128.size a ≤ S16384x128.size a
  inb_S10x16384_S1x128_0_10240 : ∀ a, (![0, 10240] : Fin 2 → Nat) a + S1x128.size a ≤ S10x16384.size a
  inb_S10x16384_S1x128_1_10240 : ∀ a, (![1, 10240] : Fin 2 → Nat) a + S1x128.size a ≤ S10x16384.size a
  inb_S10x16384_S1x128_2_10240 : ∀ a, (![2, 10240] : Fin 2 → Nat) a + S1x128.size a ≤ S10x16384.size a
  inb_S10x16384_S1x128_3_10240 : ∀ a, (![3, 10240] : Fin 2 → Nat) a + S1x128.size a ≤ S10x16384.size a
  inb_S10x16384_S1x128_4_10240 : ∀ a, (![4, 10240] : Fin 2 → Nat) a + S1x128.size a ≤ S10x16384.size a
  inb_S10x16384_S1x128_5_10240 : ∀ a, (![5, 10240] : Fin 2 → Nat) a + S1x128.size a ≤ S10x16384.size a
  inb_S10x16384_S1x128_6_10240 : ∀ a, (![6, 10240] : Fin 2 → Nat) a + S1x128.size a ≤ S10x16384.size a
  inb_S10x16384_S1x128_7_10240 : ∀ a, (![7, 10240] : Fin 2 → Nat) a + S1x128.size a ≤ S10x16384.size a
  inb_S10x16384_S1x128_8_10240 : ∀ a, (![8, 10240] : Fin 2 → Nat) a + S1x128.size a ≤ S10x16384.size a
  inb_S10x16384_S1x128_9_10240 : ∀ a, (![9, 10240] : Fin 2 → Nat) a + S1x128.size a ≤ S10x16384.size a
  inb_S16384x128_S128x128_10240_0 : ∀ a, (![10240, 0] : Fin 2 → Nat) a + S128x128.size a ≤ S16384x128.size a
  inb_S10x16384_S1x128_0_10368 : ∀ a, (![0, 10368] : Fin 2 → Nat) a + S1x128.size a ≤ S10x16384.size a
  inb_S10x16384_S1x128_1_10368 : ∀ a, (![1, 10368] : Fin 2 → Nat) a + S1x128.size a ≤ S10x16384.size a
  inb_S10x16384_S1x128_2_10368 : ∀ a, (![2, 10368] : Fin 2 → Nat) a + S1x128.size a ≤ S10x16384.size a
  inb_S10x16384_S1x128_3_10368 : ∀ a, (![3, 10368] : Fin 2 → Nat) a + S1x128.size a ≤ S10x16384.size a
  inb_S10x16384_S1x128_4_10368 : ∀ a, (![4, 10368] : Fin 2 → Nat) a + S1x128.size a ≤ S10x16384.size a
  inb_S10x16384_S1x128_5_10368 : ∀ a, (![5, 10368] : Fin 2 → Nat) a + S1x128.size a ≤ S10x16384.size a
  inb_S10x16384_S1x128_6_10368 : ∀ a, (![6, 10368] : Fin 2 → Nat) a + S1x128.size a ≤ S10x16384.size a
  inb_S10x16384_S1x128_7_10368 : ∀ a, (![7, 10368] : Fin 2 → Nat) a + S1x128.size a ≤ S10x16384.size a
  inb_S10x16384_S1x128_8_10368 : ∀ a, (![8, 10368] : Fin 2 → Nat) a + S1x128.size a ≤ S10x16384.size a
  inb_S10x16384_S1x128_9_10368 : ∀ a, (![9, 10368] : Fin 2 → Nat) a + S1x128.size a ≤ S10x16384.size a
  inb_S16384x128_S128x128_10368_0 : ∀ a, (![10368, 0] : Fin 2 → Nat) a + S128x128.size a ≤ S16384x128.size a
  inb_S10x16384_S1x128_0_10496 : ∀ a, (![0, 10496] : Fin 2 → Nat) a + S1x128.size a ≤ S10x16384.size a
  inb_S10x16384_S1x128_1_10496 : ∀ a, (![1, 10496] : Fin 2 → Nat) a + S1x128.size a ≤ S10x16384.size a
  inb_S10x16384_S1x128_2_10496 : ∀ a, (![2, 10496] : Fin 2 → Nat) a + S1x128.size a ≤ S10x16384.size a
  inb_S10x16384_S1x128_3_10496 : ∀ a, (![3, 10496] : Fin 2 → Nat) a + S1x128.size a ≤ S10x16384.size a
  inb_S10x16384_S1x128_4_10496 : ∀ a, (![4, 10496] : Fin 2 → Nat) a + S1x128.size a ≤ S10x16384.size a
  inb_S10x16384_S1x128_5_10496 : ∀ a, (![5, 10496] : Fin 2 → Nat) a + S1x128.size a ≤ S10x16384.size a
  inb_S10x16384_S1x128_6_10496 : ∀ a, (![6, 10496] : Fin 2 → Nat) a + S1x128.size a ≤ S10x16384.size a
  inb_S10x16384_S1x128_7_10496 : ∀ a, (![7, 10496] : Fin 2 → Nat) a + S1x128.size a ≤ S10x16384.size a
  inb_S10x16384_S1x128_8_10496 : ∀ a, (![8, 10496] : Fin 2 → Nat) a + S1x128.size a ≤ S10x16384.size a
  inb_S10x16384_S1x128_9_10496 : ∀ a, (![9, 10496] : Fin 2 → Nat) a + S1x128.size a ≤ S10x16384.size a
  inb_S16384x128_S128x128_10496_0 : ∀ a, (![10496, 0] : Fin 2 → Nat) a + S128x128.size a ≤ S16384x128.size a
  inb_S10x16384_S1x128_0_10624 : ∀ a, (![0, 10624] : Fin 2 → Nat) a + S1x128.size a ≤ S10x16384.size a
  inb_S10x16384_S1x128_1_10624 : ∀ a, (![1, 10624] : Fin 2 → Nat) a + S1x128.size a ≤ S10x16384.size a
  inb_S10x16384_S1x128_2_10624 : ∀ a, (![2, 10624] : Fin 2 → Nat) a + S1x128.size a ≤ S10x16384.size a
  inb_S10x16384_S1x128_3_10624 : ∀ a, (![3, 10624] : Fin 2 → Nat) a + S1x128.size a ≤ S10x16384.size a
  inb_S10x16384_S1x128_4_10624 : ∀ a, (![4, 10624] : Fin 2 → Nat) a + S1x128.size a ≤ S10x16384.size a
  inb_S10x16384_S1x128_5_10624 : ∀ a, (![5, 10624] : Fin 2 → Nat) a + S1x128.size a ≤ S10x16384.size a
  inb_S10x16384_S1x128_6_10624 : ∀ a, (![6, 10624] : Fin 2 → Nat) a + S1x128.size a ≤ S10x16384.size a
  inb_S10x16384_S1x128_7_10624 : ∀ a, (![7, 10624] : Fin 2 → Nat) a + S1x128.size a ≤ S10x16384.size a
  inb_S10x16384_S1x128_8_10624 : ∀ a, (![8, 10624] : Fin 2 → Nat) a + S1x128.size a ≤ S10x16384.size a
  inb_S10x16384_S1x128_9_10624 : ∀ a, (![9, 10624] : Fin 2 → Nat) a + S1x128.size a ≤ S10x16384.size a
  inb_S16384x128_S128x128_10624_0 : ∀ a, (![10624, 0] : Fin 2 → Nat) a + S128x128.size a ≤ S16384x128.size a
  inb_S10x16384_S1x128_0_10752 : ∀ a, (![0, 10752] : Fin 2 → Nat) a + S1x128.size a ≤ S10x16384.size a
  inb_S10x16384_S1x128_1_10752 : ∀ a, (![1, 10752] : Fin 2 → Nat) a + S1x128.size a ≤ S10x16384.size a
  inb_S10x16384_S1x128_2_10752 : ∀ a, (![2, 10752] : Fin 2 → Nat) a + S1x128.size a ≤ S10x16384.size a
  inb_S10x16384_S1x128_3_10752 : ∀ a, (![3, 10752] : Fin 2 → Nat) a + S1x128.size a ≤ S10x16384.size a
  inb_S10x16384_S1x128_4_10752 : ∀ a, (![4, 10752] : Fin 2 → Nat) a + S1x128.size a ≤ S10x16384.size a
  inb_S10x16384_S1x128_5_10752 : ∀ a, (![5, 10752] : Fin 2 → Nat) a + S1x128.size a ≤ S10x16384.size a
  inb_S10x16384_S1x128_6_10752 : ∀ a, (![6, 10752] : Fin 2 → Nat) a + S1x128.size a ≤ S10x16384.size a
  inb_S10x16384_S1x128_7_10752 : ∀ a, (![7, 10752] : Fin 2 → Nat) a + S1x128.size a ≤ S10x16384.size a
  inb_S10x16384_S1x128_8_10752 : ∀ a, (![8, 10752] : Fin 2 → Nat) a + S1x128.size a ≤ S10x16384.size a
  inb_S10x16384_S1x128_9_10752 : ∀ a, (![9, 10752] : Fin 2 → Nat) a + S1x128.size a ≤ S10x16384.size a
  inb_S16384x128_S128x128_10752_0 : ∀ a, (![10752, 0] : Fin 2 → Nat) a + S128x128.size a ≤ S16384x128.size a
  inb_S10x16384_S1x128_0_10880 : ∀ a, (![0, 10880] : Fin 2 → Nat) a + S1x128.size a ≤ S10x16384.size a
  inb_S10x16384_S1x128_1_10880 : ∀ a, (![1, 10880] : Fin 2 → Nat) a + S1x128.size a ≤ S10x16384.size a
  inb_S10x16384_S1x128_2_10880 : ∀ a, (![2, 10880] : Fin 2 → Nat) a + S1x128.size a ≤ S10x16384.size a
  inb_S10x16384_S1x128_3_10880 : ∀ a, (![3, 10880] : Fin 2 → Nat) a + S1x128.size a ≤ S10x16384.size a
  inb_S10x16384_S1x128_4_10880 : ∀ a, (![4, 10880] : Fin 2 → Nat) a + S1x128.size a ≤ S10x16384.size a
  inb_S10x16384_S1x128_5_10880 : ∀ a, (![5, 10880] : Fin 2 → Nat) a + S1x128.size a ≤ S10x16384.size a
  inb_S10x16384_S1x128_6_10880 : ∀ a, (![6, 10880] : Fin 2 → Nat) a + S1x128.size a ≤ S10x16384.size a
  inb_S10x16384_S1x128_7_10880 : ∀ a, (![7, 10880] : Fin 2 → Nat) a + S1x128.size a ≤ S10x16384.size a
  inb_S10x16384_S1x128_8_10880 : ∀ a, (![8, 10880] : Fin 2 → Nat) a + S1x128.size a ≤ S10x16384.size a
  inb_S10x16384_S1x128_9_10880 : ∀ a, (![9, 10880] : Fin 2 → Nat) a + S1x128.size a ≤ S10x16384.size a
  inb_S16384x128_S128x128_10880_0 : ∀ a, (![10880, 0] : Fin 2 → Nat) a + S128x128.size a ≤ S16384x128.size a
  inb_S10x16384_S1x128_0_11008 : ∀ a, (![0, 11008] : Fin 2 → Nat) a + S1x128.size a ≤ S10x16384.size a
  inb_S10x16384_S1x128_1_11008 : ∀ a, (![1, 11008] : Fin 2 → Nat) a + S1x128.size a ≤ S10x16384.size a
  inb_S10x16384_S1x128_2_11008 : ∀ a, (![2, 11008] : Fin 2 → Nat) a + S1x128.size a ≤ S10x16384.size a
  inb_S10x16384_S1x128_3_11008 : ∀ a, (![3, 11008] : Fin 2 → Nat) a + S1x128.size a ≤ S10x16384.size a
  inb_S10x16384_S1x128_4_11008 : ∀ a, (![4, 11008] : Fin 2 → Nat) a + S1x128.size a ≤ S10x16384.size a
  inb_S10x16384_S1x128_5_11008 : ∀ a, (![5, 11008] : Fin 2 → Nat) a + S1x128.size a ≤ S10x16384.size a
  inb_S10x16384_S1x128_6_11008 : ∀ a, (![6, 11008] : Fin 2 → Nat) a + S1x128.size a ≤ S10x16384.size a
  inb_S10x16384_S1x128_7_11008 : ∀ a, (![7, 11008] : Fin 2 → Nat) a + S1x128.size a ≤ S10x16384.size a
  inb_S10x16384_S1x128_8_11008 : ∀ a, (![8, 11008] : Fin 2 → Nat) a + S1x128.size a ≤ S10x16384.size a
  inb_S10x16384_S1x128_9_11008 : ∀ a, (![9, 11008] : Fin 2 → Nat) a + S1x128.size a ≤ S10x16384.size a
  inb_S16384x128_S128x128_11008_0 : ∀ a, (![11008, 0] : Fin 2 → Nat) a + S128x128.size a ≤ S16384x128.size a
  inb_S10x16384_S1x128_0_11136 : ∀ a, (![0, 11136] : Fin 2 → Nat) a + S1x128.size a ≤ S10x16384.size a
  inb_S10x16384_S1x128_1_11136 : ∀ a, (![1, 11136] : Fin 2 → Nat) a + S1x128.size a ≤ S10x16384.size a
  inb_S10x16384_S1x128_2_11136 : ∀ a, (![2, 11136] : Fin 2 → Nat) a + S1x128.size a ≤ S10x16384.size a
  inb_S10x16384_S1x128_3_11136 : ∀ a, (![3, 11136] : Fin 2 → Nat) a + S1x128.size a ≤ S10x16384.size a
  inb_S10x16384_S1x128_4_11136 : ∀ a, (![4, 11136] : Fin 2 → Nat) a + S1x128.size a ≤ S10x16384.size a
  inb_S10x16384_S1x128_5_11136 : ∀ a, (![5, 11136] : Fin 2 → Nat) a + S1x128.size a ≤ S10x16384.size a
  inb_S10x16384_S1x128_6_11136 : ∀ a, (![6, 11136] : Fin 2 → Nat) a + S1x128.size a ≤ S10x16384.size a
  inb_S10x16384_S1x128_7_11136 : ∀ a, (![7, 11136] : Fin 2 → Nat) a + S1x128.size a ≤ S10x16384.size a
  inb_S10x16384_S1x128_8_11136 : ∀ a, (![8, 11136] : Fin 2 → Nat) a + S1x128.size a ≤ S10x16384.size a
  inb_S10x16384_S1x128_9_11136 : ∀ a, (![9, 11136] : Fin 2 → Nat) a + S1x128.size a ≤ S10x16384.size a
  inb_S16384x128_S128x128_11136_0 : ∀ a, (![11136, 0] : Fin 2 → Nat) a + S128x128.size a ≤ S16384x128.size a
  inb_S10x16384_S1x128_0_11264 : ∀ a, (![0, 11264] : Fin 2 → Nat) a + S1x128.size a ≤ S10x16384.size a
  inb_S10x16384_S1x128_1_11264 : ∀ a, (![1, 11264] : Fin 2 → Nat) a + S1x128.size a ≤ S10x16384.size a
  inb_S10x16384_S1x128_2_11264 : ∀ a, (![2, 11264] : Fin 2 → Nat) a + S1x128.size a ≤ S10x16384.size a
  inb_S10x16384_S1x128_3_11264 : ∀ a, (![3, 11264] : Fin 2 → Nat) a + S1x128.size a ≤ S10x16384.size a
  inb_S10x16384_S1x128_4_11264 : ∀ a, (![4, 11264] : Fin 2 → Nat) a + S1x128.size a ≤ S10x16384.size a
  inb_S10x16384_S1x128_5_11264 : ∀ a, (![5, 11264] : Fin 2 → Nat) a + S1x128.size a ≤ S10x16384.size a
  inb_S10x16384_S1x128_6_11264 : ∀ a, (![6, 11264] : Fin 2 → Nat) a + S1x128.size a ≤ S10x16384.size a
  inb_S10x16384_S1x128_7_11264 : ∀ a, (![7, 11264] : Fin 2 → Nat) a + S1x128.size a ≤ S10x16384.size a
  inb_S10x16384_S1x128_8_11264 : ∀ a, (![8, 11264] : Fin 2 → Nat) a + S1x128.size a ≤ S10x16384.size a
  inb_S10x16384_S1x128_9_11264 : ∀ a, (![9, 11264] : Fin 2 → Nat) a + S1x128.size a ≤ S10x16384.size a
  inb_S16384x128_S128x128_11264_0 : ∀ a, (![11264, 0] : Fin 2 → Nat) a + S128x128.size a ≤ S16384x128.size a

class Shapes2.Facts₀ : Prop where
  inb_S10x16384_S1x128_0_11392 : ∀ a, (![0, 11392] : Fin 2 → Nat) a + S1x128.size a ≤ S10x16384.size a
  inb_S10x16384_S1x128_1_11392 : ∀ a, (![1, 11392] : Fin 2 → Nat) a + S1x128.size a ≤ S10x16384.size a
  inb_S10x16384_S1x128_2_11392 : ∀ a, (![2, 11392] : Fin 2 → Nat) a + S1x128.size a ≤ S10x16384.size a
  inb_S10x16384_S1x128_3_11392 : ∀ a, (![3, 11392] : Fin 2 → Nat) a + S1x128.size a ≤ S10x16384.size a
  inb_S10x16384_S1x128_4_11392 : ∀ a, (![4, 11392] : Fin 2 → Nat) a + S1x128.size a ≤ S10x16384.size a
  inb_S10x16384_S1x128_5_11392 : ∀ a, (![5, 11392] : Fin 2 → Nat) a + S1x128.size a ≤ S10x16384.size a
  inb_S10x16384_S1x128_6_11392 : ∀ a, (![6, 11392] : Fin 2 → Nat) a + S1x128.size a ≤ S10x16384.size a
  inb_S10x16384_S1x128_7_11392 : ∀ a, (![7, 11392] : Fin 2 → Nat) a + S1x128.size a ≤ S10x16384.size a
  inb_S10x16384_S1x128_8_11392 : ∀ a, (![8, 11392] : Fin 2 → Nat) a + S1x128.size a ≤ S10x16384.size a
  inb_S10x16384_S1x128_9_11392 : ∀ a, (![9, 11392] : Fin 2 → Nat) a + S1x128.size a ≤ S10x16384.size a
  inb_S16384x128_S128x128_11392_0 : ∀ a, (![11392, 0] : Fin 2 → Nat) a + S128x128.size a ≤ S16384x128.size a
  inb_S10x16384_S1x128_0_11520 : ∀ a, (![0, 11520] : Fin 2 → Nat) a + S1x128.size a ≤ S10x16384.size a
  inb_S10x16384_S1x128_1_11520 : ∀ a, (![1, 11520] : Fin 2 → Nat) a + S1x128.size a ≤ S10x16384.size a
  inb_S10x16384_S1x128_2_11520 : ∀ a, (![2, 11520] : Fin 2 → Nat) a + S1x128.size a ≤ S10x16384.size a
  inb_S10x16384_S1x128_3_11520 : ∀ a, (![3, 11520] : Fin 2 → Nat) a + S1x128.size a ≤ S10x16384.size a
  inb_S10x16384_S1x128_4_11520 : ∀ a, (![4, 11520] : Fin 2 → Nat) a + S1x128.size a ≤ S10x16384.size a
  inb_S10x16384_S1x128_5_11520 : ∀ a, (![5, 11520] : Fin 2 → Nat) a + S1x128.size a ≤ S10x16384.size a
  inb_S10x16384_S1x128_6_11520 : ∀ a, (![6, 11520] : Fin 2 → Nat) a + S1x128.size a ≤ S10x16384.size a
  inb_S10x16384_S1x128_7_11520 : ∀ a, (![7, 11520] : Fin 2 → Nat) a + S1x128.size a ≤ S10x16384.size a
  inb_S10x16384_S1x128_8_11520 : ∀ a, (![8, 11520] : Fin 2 → Nat) a + S1x128.size a ≤ S10x16384.size a
  inb_S10x16384_S1x128_9_11520 : ∀ a, (![9, 11520] : Fin 2 → Nat) a + S1x128.size a ≤ S10x16384.size a
  inb_S16384x128_S128x128_11520_0 : ∀ a, (![11520, 0] : Fin 2 → Nat) a + S128x128.size a ≤ S16384x128.size a
  inb_S10x16384_S1x128_0_11648 : ∀ a, (![0, 11648] : Fin 2 → Nat) a + S1x128.size a ≤ S10x16384.size a
  inb_S10x16384_S1x128_1_11648 : ∀ a, (![1, 11648] : Fin 2 → Nat) a + S1x128.size a ≤ S10x16384.size a
  inb_S10x16384_S1x128_2_11648 : ∀ a, (![2, 11648] : Fin 2 → Nat) a + S1x128.size a ≤ S10x16384.size a
  inb_S10x16384_S1x128_3_11648 : ∀ a, (![3, 11648] : Fin 2 → Nat) a + S1x128.size a ≤ S10x16384.size a
  inb_S10x16384_S1x128_4_11648 : ∀ a, (![4, 11648] : Fin 2 → Nat) a + S1x128.size a ≤ S10x16384.size a
  inb_S10x16384_S1x128_5_11648 : ∀ a, (![5, 11648] : Fin 2 → Nat) a + S1x128.size a ≤ S10x16384.size a
  inb_S10x16384_S1x128_6_11648 : ∀ a, (![6, 11648] : Fin 2 → Nat) a + S1x128.size a ≤ S10x16384.size a
  inb_S10x16384_S1x128_7_11648 : ∀ a, (![7, 11648] : Fin 2 → Nat) a + S1x128.size a ≤ S10x16384.size a
  inb_S10x16384_S1x128_8_11648 : ∀ a, (![8, 11648] : Fin 2 → Nat) a + S1x128.size a ≤ S10x16384.size a
  inb_S10x16384_S1x128_9_11648 : ∀ a, (![9, 11648] : Fin 2 → Nat) a + S1x128.size a ≤ S10x16384.size a
  inb_S16384x128_S128x128_11648_0 : ∀ a, (![11648, 0] : Fin 2 → Nat) a + S128x128.size a ≤ S16384x128.size a
  inb_S10x16384_S1x128_0_11776 : ∀ a, (![0, 11776] : Fin 2 → Nat) a + S1x128.size a ≤ S10x16384.size a
  inb_S10x16384_S1x128_1_11776 : ∀ a, (![1, 11776] : Fin 2 → Nat) a + S1x128.size a ≤ S10x16384.size a
  inb_S10x16384_S1x128_2_11776 : ∀ a, (![2, 11776] : Fin 2 → Nat) a + S1x128.size a ≤ S10x16384.size a
  inb_S10x16384_S1x128_3_11776 : ∀ a, (![3, 11776] : Fin 2 → Nat) a + S1x128.size a ≤ S10x16384.size a
  inb_S10x16384_S1x128_4_11776 : ∀ a, (![4, 11776] : Fin 2 → Nat) a + S1x128.size a ≤ S10x16384.size a
  inb_S10x16384_S1x128_5_11776 : ∀ a, (![5, 11776] : Fin 2 → Nat) a + S1x128.size a ≤ S10x16384.size a
  inb_S10x16384_S1x128_6_11776 : ∀ a, (![6, 11776] : Fin 2 → Nat) a + S1x128.size a ≤ S10x16384.size a
  inb_S10x16384_S1x128_7_11776 : ∀ a, (![7, 11776] : Fin 2 → Nat) a + S1x128.size a ≤ S10x16384.size a
  inb_S10x16384_S1x128_8_11776 : ∀ a, (![8, 11776] : Fin 2 → Nat) a + S1x128.size a ≤ S10x16384.size a
  inb_S10x16384_S1x128_9_11776 : ∀ a, (![9, 11776] : Fin 2 → Nat) a + S1x128.size a ≤ S10x16384.size a
  inb_S16384x128_S128x128_11776_0 : ∀ a, (![11776, 0] : Fin 2 → Nat) a + S128x128.size a ≤ S16384x128.size a
  inb_S10x16384_S1x128_0_11904 : ∀ a, (![0, 11904] : Fin 2 → Nat) a + S1x128.size a ≤ S10x16384.size a
  inb_S10x16384_S1x128_1_11904 : ∀ a, (![1, 11904] : Fin 2 → Nat) a + S1x128.size a ≤ S10x16384.size a
  inb_S10x16384_S1x128_2_11904 : ∀ a, (![2, 11904] : Fin 2 → Nat) a + S1x128.size a ≤ S10x16384.size a
  inb_S10x16384_S1x128_3_11904 : ∀ a, (![3, 11904] : Fin 2 → Nat) a + S1x128.size a ≤ S10x16384.size a
  inb_S10x16384_S1x128_4_11904 : ∀ a, (![4, 11904] : Fin 2 → Nat) a + S1x128.size a ≤ S10x16384.size a
  inb_S10x16384_S1x128_5_11904 : ∀ a, (![5, 11904] : Fin 2 → Nat) a + S1x128.size a ≤ S10x16384.size a
  inb_S10x16384_S1x128_6_11904 : ∀ a, (![6, 11904] : Fin 2 → Nat) a + S1x128.size a ≤ S10x16384.size a
  inb_S10x16384_S1x128_7_11904 : ∀ a, (![7, 11904] : Fin 2 → Nat) a + S1x128.size a ≤ S10x16384.size a
  inb_S10x16384_S1x128_8_11904 : ∀ a, (![8, 11904] : Fin 2 → Nat) a + S1x128.size a ≤ S10x16384.size a
  inb_S10x16384_S1x128_9_11904 : ∀ a, (![9, 11904] : Fin 2 → Nat) a + S1x128.size a ≤ S10x16384.size a
  inb_S16384x128_S128x128_11904_0 : ∀ a, (![11904, 0] : Fin 2 → Nat) a + S128x128.size a ≤ S16384x128.size a
  inb_S10x16384_S1x128_0_12032 : ∀ a, (![0, 12032] : Fin 2 → Nat) a + S1x128.size a ≤ S10x16384.size a
  inb_S10x16384_S1x128_1_12032 : ∀ a, (![1, 12032] : Fin 2 → Nat) a + S1x128.size a ≤ S10x16384.size a
  inb_S10x16384_S1x128_2_12032 : ∀ a, (![2, 12032] : Fin 2 → Nat) a + S1x128.size a ≤ S10x16384.size a
  inb_S10x16384_S1x128_3_12032 : ∀ a, (![3, 12032] : Fin 2 → Nat) a + S1x128.size a ≤ S10x16384.size a
  inb_S10x16384_S1x128_4_12032 : ∀ a, (![4, 12032] : Fin 2 → Nat) a + S1x128.size a ≤ S10x16384.size a
  inb_S10x16384_S1x128_5_12032 : ∀ a, (![5, 12032] : Fin 2 → Nat) a + S1x128.size a ≤ S10x16384.size a
  inb_S10x16384_S1x128_6_12032 : ∀ a, (![6, 12032] : Fin 2 → Nat) a + S1x128.size a ≤ S10x16384.size a
  inb_S10x16384_S1x128_7_12032 : ∀ a, (![7, 12032] : Fin 2 → Nat) a + S1x128.size a ≤ S10x16384.size a
  inb_S10x16384_S1x128_8_12032 : ∀ a, (![8, 12032] : Fin 2 → Nat) a + S1x128.size a ≤ S10x16384.size a
  inb_S10x16384_S1x128_9_12032 : ∀ a, (![9, 12032] : Fin 2 → Nat) a + S1x128.size a ≤ S10x16384.size a
  inb_S16384x128_S128x128_12032_0 : ∀ a, (![12032, 0] : Fin 2 → Nat) a + S128x128.size a ≤ S16384x128.size a
  inb_S10x16384_S1x128_0_12160 : ∀ a, (![0, 12160] : Fin 2 → Nat) a + S1x128.size a ≤ S10x16384.size a
  inb_S10x16384_S1x128_1_12160 : ∀ a, (![1, 12160] : Fin 2 → Nat) a + S1x128.size a ≤ S10x16384.size a
  inb_S10x16384_S1x128_2_12160 : ∀ a, (![2, 12160] : Fin 2 → Nat) a + S1x128.size a ≤ S10x16384.size a
  inb_S10x16384_S1x128_3_12160 : ∀ a, (![3, 12160] : Fin 2 → Nat) a + S1x128.size a ≤ S10x16384.size a
  inb_S10x16384_S1x128_4_12160 : ∀ a, (![4, 12160] : Fin 2 → Nat) a + S1x128.size a ≤ S10x16384.size a
  inb_S10x16384_S1x128_5_12160 : ∀ a, (![5, 12160] : Fin 2 → Nat) a + S1x128.size a ≤ S10x16384.size a
  inb_S10x16384_S1x128_6_12160 : ∀ a, (![6, 12160] : Fin 2 → Nat) a + S1x128.size a ≤ S10x16384.size a
  inb_S10x16384_S1x128_7_12160 : ∀ a, (![7, 12160] : Fin 2 → Nat) a + S1x128.size a ≤ S10x16384.size a
  inb_S10x16384_S1x128_8_12160 : ∀ a, (![8, 12160] : Fin 2 → Nat) a + S1x128.size a ≤ S10x16384.size a
  inb_S10x16384_S1x128_9_12160 : ∀ a, (![9, 12160] : Fin 2 → Nat) a + S1x128.size a ≤ S10x16384.size a
  inb_S16384x128_S128x128_12160_0 : ∀ a, (![12160, 0] : Fin 2 → Nat) a + S128x128.size a ≤ S16384x128.size a
  inb_S10x16384_S1x128_0_12288 : ∀ a, (![0, 12288] : Fin 2 → Nat) a + S1x128.size a ≤ S10x16384.size a
  inb_S10x16384_S1x128_1_12288 : ∀ a, (![1, 12288] : Fin 2 → Nat) a + S1x128.size a ≤ S10x16384.size a
  inb_S10x16384_S1x128_2_12288 : ∀ a, (![2, 12288] : Fin 2 → Nat) a + S1x128.size a ≤ S10x16384.size a
  inb_S10x16384_S1x128_3_12288 : ∀ a, (![3, 12288] : Fin 2 → Nat) a + S1x128.size a ≤ S10x16384.size a
  inb_S10x16384_S1x128_4_12288 : ∀ a, (![4, 12288] : Fin 2 → Nat) a + S1x128.size a ≤ S10x16384.size a
  inb_S10x16384_S1x128_5_12288 : ∀ a, (![5, 12288] : Fin 2 → Nat) a + S1x128.size a ≤ S10x16384.size a
  inb_S10x16384_S1x128_6_12288 : ∀ a, (![6, 12288] : Fin 2 → Nat) a + S1x128.size a ≤ S10x16384.size a
  inb_S10x16384_S1x128_7_12288 : ∀ a, (![7, 12288] : Fin 2 → Nat) a + S1x128.size a ≤ S10x16384.size a
  inb_S10x16384_S1x128_8_12288 : ∀ a, (![8, 12288] : Fin 2 → Nat) a + S1x128.size a ≤ S10x16384.size a
  inb_S10x16384_S1x128_9_12288 : ∀ a, (![9, 12288] : Fin 2 → Nat) a + S1x128.size a ≤ S10x16384.size a
  inb_S16384x128_S128x128_12288_0 : ∀ a, (![12288, 0] : Fin 2 → Nat) a + S128x128.size a ≤ S16384x128.size a
  inb_S10x16384_S1x128_0_12416 : ∀ a, (![0, 12416] : Fin 2 → Nat) a + S1x128.size a ≤ S10x16384.size a
  inb_S10x16384_S1x128_1_12416 : ∀ a, (![1, 12416] : Fin 2 → Nat) a + S1x128.size a ≤ S10x16384.size a
  inb_S10x16384_S1x128_2_12416 : ∀ a, (![2, 12416] : Fin 2 → Nat) a + S1x128.size a ≤ S10x16384.size a
  inb_S10x16384_S1x128_3_12416 : ∀ a, (![3, 12416] : Fin 2 → Nat) a + S1x128.size a ≤ S10x16384.size a
  inb_S10x16384_S1x128_4_12416 : ∀ a, (![4, 12416] : Fin 2 → Nat) a + S1x128.size a ≤ S10x16384.size a
  inb_S10x16384_S1x128_5_12416 : ∀ a, (![5, 12416] : Fin 2 → Nat) a + S1x128.size a ≤ S10x16384.size a
  inb_S10x16384_S1x128_6_12416 : ∀ a, (![6, 12416] : Fin 2 → Nat) a + S1x128.size a ≤ S10x16384.size a
  inb_S10x16384_S1x128_7_12416 : ∀ a, (![7, 12416] : Fin 2 → Nat) a + S1x128.size a ≤ S10x16384.size a
  inb_S10x16384_S1x128_8_12416 : ∀ a, (![8, 12416] : Fin 2 → Nat) a + S1x128.size a ≤ S10x16384.size a
  inb_S10x16384_S1x128_9_12416 : ∀ a, (![9, 12416] : Fin 2 → Nat) a + S1x128.size a ≤ S10x16384.size a
  inb_S16384x128_S128x128_12416_0 : ∀ a, (![12416, 0] : Fin 2 → Nat) a + S128x128.size a ≤ S16384x128.size a
  inb_S10x16384_S1x128_0_12544 : ∀ a, (![0, 12544] : Fin 2 → Nat) a + S1x128.size a ≤ S10x16384.size a
  inb_S10x16384_S1x128_1_12544 : ∀ a, (![1, 12544] : Fin 2 → Nat) a + S1x128.size a ≤ S10x16384.size a
  inb_S10x16384_S1x128_2_12544 : ∀ a, (![2, 12544] : Fin 2 → Nat) a + S1x128.size a ≤ S10x16384.size a
  inb_S10x16384_S1x128_3_12544 : ∀ a, (![3, 12544] : Fin 2 → Nat) a + S1x128.size a ≤ S10x16384.size a
  inb_S10x16384_S1x128_4_12544 : ∀ a, (![4, 12544] : Fin 2 → Nat) a + S1x128.size a ≤ S10x16384.size a
  inb_S10x16384_S1x128_5_12544 : ∀ a, (![5, 12544] : Fin 2 → Nat) a + S1x128.size a ≤ S10x16384.size a
  inb_S10x16384_S1x128_6_12544 : ∀ a, (![6, 12544] : Fin 2 → Nat) a + S1x128.size a ≤ S10x16384.size a
  inb_S10x16384_S1x128_7_12544 : ∀ a, (![7, 12544] : Fin 2 → Nat) a + S1x128.size a ≤ S10x16384.size a
  inb_S10x16384_S1x128_8_12544 : ∀ a, (![8, 12544] : Fin 2 → Nat) a + S1x128.size a ≤ S10x16384.size a
  inb_S10x16384_S1x128_9_12544 : ∀ a, (![9, 12544] : Fin 2 → Nat) a + S1x128.size a ≤ S10x16384.size a
  inb_S16384x128_S128x128_12544_0 : ∀ a, (![12544, 0] : Fin 2 → Nat) a + S128x128.size a ≤ S16384x128.size a
  inb_S10x16384_S1x128_0_12672 : ∀ a, (![0, 12672] : Fin 2 → Nat) a + S1x128.size a ≤ S10x16384.size a
  inb_S10x16384_S1x128_1_12672 : ∀ a, (![1, 12672] : Fin 2 → Nat) a + S1x128.size a ≤ S10x16384.size a
  inb_S10x16384_S1x128_2_12672 : ∀ a, (![2, 12672] : Fin 2 → Nat) a + S1x128.size a ≤ S10x16384.size a
  inb_S10x16384_S1x128_3_12672 : ∀ a, (![3, 12672] : Fin 2 → Nat) a + S1x128.size a ≤ S10x16384.size a
  inb_S10x16384_S1x128_4_12672 : ∀ a, (![4, 12672] : Fin 2 → Nat) a + S1x128.size a ≤ S10x16384.size a
  inb_S10x16384_S1x128_5_12672 : ∀ a, (![5, 12672] : Fin 2 → Nat) a + S1x128.size a ≤ S10x16384.size a
  inb_S10x16384_S1x128_6_12672 : ∀ a, (![6, 12672] : Fin 2 → Nat) a + S1x128.size a ≤ S10x16384.size a
  inb_S10x16384_S1x128_7_12672 : ∀ a, (![7, 12672] : Fin 2 → Nat) a + S1x128.size a ≤ S10x16384.size a
  inb_S10x16384_S1x128_8_12672 : ∀ a, (![8, 12672] : Fin 2 → Nat) a + S1x128.size a ≤ S10x16384.size a
  inb_S10x16384_S1x128_9_12672 : ∀ a, (![9, 12672] : Fin 2 → Nat) a + S1x128.size a ≤ S10x16384.size a
  inb_S16384x128_S128x128_12672_0 : ∀ a, (![12672, 0] : Fin 2 → Nat) a + S128x128.size a ≤ S16384x128.size a
  inb_S10x16384_S1x128_0_12800 : ∀ a, (![0, 12800] : Fin 2 → Nat) a + S1x128.size a ≤ S10x16384.size a
  inb_S10x16384_S1x128_1_12800 : ∀ a, (![1, 12800] : Fin 2 → Nat) a + S1x128.size a ≤ S10x16384.size a
  inb_S10x16384_S1x128_2_12800 : ∀ a, (![2, 12800] : Fin 2 → Nat) a + S1x128.size a ≤ S10x16384.size a
  inb_S10x16384_S1x128_3_12800 : ∀ a, (![3, 12800] : Fin 2 → Nat) a + S1x128.size a ≤ S10x16384.size a
  inb_S10x16384_S1x128_4_12800 : ∀ a, (![4, 12800] : Fin 2 → Nat) a + S1x128.size a ≤ S10x16384.size a
  inb_S10x16384_S1x128_5_12800 : ∀ a, (![5, 12800] : Fin 2 → Nat) a + S1x128.size a ≤ S10x16384.size a
  inb_S10x16384_S1x128_6_12800 : ∀ a, (![6, 12800] : Fin 2 → Nat) a + S1x128.size a ≤ S10x16384.size a
  inb_S10x16384_S1x128_7_12800 : ∀ a, (![7, 12800] : Fin 2 → Nat) a + S1x128.size a ≤ S10x16384.size a
  inb_S10x16384_S1x128_8_12800 : ∀ a, (![8, 12800] : Fin 2 → Nat) a + S1x128.size a ≤ S10x16384.size a
  inb_S10x16384_S1x128_9_12800 : ∀ a, (![9, 12800] : Fin 2 → Nat) a + S1x128.size a ≤ S10x16384.size a
  inb_S16384x128_S128x128_12800_0 : ∀ a, (![12800, 0] : Fin 2 → Nat) a + S128x128.size a ≤ S16384x128.size a
  inb_S10x16384_S1x128_0_12928 : ∀ a, (![0, 12928] : Fin 2 → Nat) a + S1x128.size a ≤ S10x16384.size a
  inb_S10x16384_S1x128_1_12928 : ∀ a, (![1, 12928] : Fin 2 → Nat) a + S1x128.size a ≤ S10x16384.size a
  inb_S10x16384_S1x128_2_12928 : ∀ a, (![2, 12928] : Fin 2 → Nat) a + S1x128.size a ≤ S10x16384.size a
  inb_S10x16384_S1x128_3_12928 : ∀ a, (![3, 12928] : Fin 2 → Nat) a + S1x128.size a ≤ S10x16384.size a
  inb_S10x16384_S1x128_4_12928 : ∀ a, (![4, 12928] : Fin 2 → Nat) a + S1x128.size a ≤ S10x16384.size a
  inb_S10x16384_S1x128_5_12928 : ∀ a, (![5, 12928] : Fin 2 → Nat) a + S1x128.size a ≤ S10x16384.size a
  inb_S10x16384_S1x128_6_12928 : ∀ a, (![6, 12928] : Fin 2 → Nat) a + S1x128.size a ≤ S10x16384.size a
  inb_S10x16384_S1x128_7_12928 : ∀ a, (![7, 12928] : Fin 2 → Nat) a + S1x128.size a ≤ S10x16384.size a
  inb_S10x16384_S1x128_8_12928 : ∀ a, (![8, 12928] : Fin 2 → Nat) a + S1x128.size a ≤ S10x16384.size a
  inb_S10x16384_S1x128_9_12928 : ∀ a, (![9, 12928] : Fin 2 → Nat) a + S1x128.size a ≤ S10x16384.size a
  inb_S16384x128_S128x128_12928_0 : ∀ a, (![12928, 0] : Fin 2 → Nat) a + S128x128.size a ≤ S16384x128.size a
  inb_S10x16384_S1x128_0_13056 : ∀ a, (![0, 13056] : Fin 2 → Nat) a + S1x128.size a ≤ S10x16384.size a
  inb_S10x16384_S1x128_1_13056 : ∀ a, (![1, 13056] : Fin 2 → Nat) a + S1x128.size a ≤ S10x16384.size a
  inb_S10x16384_S1x128_2_13056 : ∀ a, (![2, 13056] : Fin 2 → Nat) a + S1x128.size a ≤ S10x16384.size a
  inb_S10x16384_S1x128_3_13056 : ∀ a, (![3, 13056] : Fin 2 → Nat) a + S1x128.size a ≤ S10x16384.size a
  inb_S10x16384_S1x128_4_13056 : ∀ a, (![4, 13056] : Fin 2 → Nat) a + S1x128.size a ≤ S10x16384.size a
  inb_S10x16384_S1x128_5_13056 : ∀ a, (![5, 13056] : Fin 2 → Nat) a + S1x128.size a ≤ S10x16384.size a
  inb_S10x16384_S1x128_6_13056 : ∀ a, (![6, 13056] : Fin 2 → Nat) a + S1x128.size a ≤ S10x16384.size a
  inb_S10x16384_S1x128_7_13056 : ∀ a, (![7, 13056] : Fin 2 → Nat) a + S1x128.size a ≤ S10x16384.size a
  inb_S10x16384_S1x128_8_13056 : ∀ a, (![8, 13056] : Fin 2 → Nat) a + S1x128.size a ≤ S10x16384.size a
  inb_S10x16384_S1x128_9_13056 : ∀ a, (![9, 13056] : Fin 2 → Nat) a + S1x128.size a ≤ S10x16384.size a
  inb_S16384x128_S128x128_13056_0 : ∀ a, (![13056, 0] : Fin 2 → Nat) a + S128x128.size a ≤ S16384x128.size a
  inb_S10x16384_S1x128_0_13184 : ∀ a, (![0, 13184] : Fin 2 → Nat) a + S1x128.size a ≤ S10x16384.size a
  inb_S10x16384_S1x128_1_13184 : ∀ a, (![1, 13184] : Fin 2 → Nat) a + S1x128.size a ≤ S10x16384.size a
  inb_S10x16384_S1x128_2_13184 : ∀ a, (![2, 13184] : Fin 2 → Nat) a + S1x128.size a ≤ S10x16384.size a
  inb_S10x16384_S1x128_3_13184 : ∀ a, (![3, 13184] : Fin 2 → Nat) a + S1x128.size a ≤ S10x16384.size a
  inb_S10x16384_S1x128_4_13184 : ∀ a, (![4, 13184] : Fin 2 → Nat) a + S1x128.size a ≤ S10x16384.size a
  inb_S10x16384_S1x128_5_13184 : ∀ a, (![5, 13184] : Fin 2 → Nat) a + S1x128.size a ≤ S10x16384.size a
  inb_S10x16384_S1x128_6_13184 : ∀ a, (![6, 13184] : Fin 2 → Nat) a + S1x128.size a ≤ S10x16384.size a
  inb_S10x16384_S1x128_7_13184 : ∀ a, (![7, 13184] : Fin 2 → Nat) a + S1x128.size a ≤ S10x16384.size a
  inb_S10x16384_S1x128_8_13184 : ∀ a, (![8, 13184] : Fin 2 → Nat) a + S1x128.size a ≤ S10x16384.size a
  inb_S10x16384_S1x128_9_13184 : ∀ a, (![9, 13184] : Fin 2 → Nat) a + S1x128.size a ≤ S10x16384.size a
  inb_S16384x128_S128x128_13184_0 : ∀ a, (![13184, 0] : Fin 2 → Nat) a + S128x128.size a ≤ S16384x128.size a
  inb_S10x16384_S1x128_0_13312 : ∀ a, (![0, 13312] : Fin 2 → Nat) a + S1x128.size a ≤ S10x16384.size a
  inb_S10x16384_S1x128_1_13312 : ∀ a, (![1, 13312] : Fin 2 → Nat) a + S1x128.size a ≤ S10x16384.size a
  inb_S10x16384_S1x128_2_13312 : ∀ a, (![2, 13312] : Fin 2 → Nat) a + S1x128.size a ≤ S10x16384.size a
  inb_S10x16384_S1x128_3_13312 : ∀ a, (![3, 13312] : Fin 2 → Nat) a + S1x128.size a ≤ S10x16384.size a
  inb_S10x16384_S1x128_4_13312 : ∀ a, (![4, 13312] : Fin 2 → Nat) a + S1x128.size a ≤ S10x16384.size a
  inb_S10x16384_S1x128_5_13312 : ∀ a, (![5, 13312] : Fin 2 → Nat) a + S1x128.size a ≤ S10x16384.size a
  inb_S10x16384_S1x128_6_13312 : ∀ a, (![6, 13312] : Fin 2 → Nat) a + S1x128.size a ≤ S10x16384.size a
  inb_S10x16384_S1x128_7_13312 : ∀ a, (![7, 13312] : Fin 2 → Nat) a + S1x128.size a ≤ S10x16384.size a
  inb_S10x16384_S1x128_8_13312 : ∀ a, (![8, 13312] : Fin 2 → Nat) a + S1x128.size a ≤ S10x16384.size a
  inb_S10x16384_S1x128_9_13312 : ∀ a, (![9, 13312] : Fin 2 → Nat) a + S1x128.size a ≤ S10x16384.size a
  inb_S16384x128_S128x128_13312_0 : ∀ a, (![13312, 0] : Fin 2 → Nat) a + S128x128.size a ≤ S16384x128.size a
  inb_S10x16384_S1x128_0_13440 : ∀ a, (![0, 13440] : Fin 2 → Nat) a + S1x128.size a ≤ S10x16384.size a
  inb_S10x16384_S1x128_1_13440 : ∀ a, (![1, 13440] : Fin 2 → Nat) a + S1x128.size a ≤ S10x16384.size a
  inb_S10x16384_S1x128_2_13440 : ∀ a, (![2, 13440] : Fin 2 → Nat) a + S1x128.size a ≤ S10x16384.size a
  inb_S10x16384_S1x128_3_13440 : ∀ a, (![3, 13440] : Fin 2 → Nat) a + S1x128.size a ≤ S10x16384.size a
  inb_S10x16384_S1x128_4_13440 : ∀ a, (![4, 13440] : Fin 2 → Nat) a + S1x128.size a ≤ S10x16384.size a
  inb_S10x16384_S1x128_5_13440 : ∀ a, (![5, 13440] : Fin 2 → Nat) a + S1x128.size a ≤ S10x16384.size a
  inb_S10x16384_S1x128_6_13440 : ∀ a, (![6, 13440] : Fin 2 → Nat) a + S1x128.size a ≤ S10x16384.size a
  inb_S10x16384_S1x128_7_13440 : ∀ a, (![7, 13440] : Fin 2 → Nat) a + S1x128.size a ≤ S10x16384.size a
  inb_S10x16384_S1x128_8_13440 : ∀ a, (![8, 13440] : Fin 2 → Nat) a + S1x128.size a ≤ S10x16384.size a
  inb_S10x16384_S1x128_9_13440 : ∀ a, (![9, 13440] : Fin 2 → Nat) a + S1x128.size a ≤ S10x16384.size a
  inb_S16384x128_S128x128_13440_0 : ∀ a, (![13440, 0] : Fin 2 → Nat) a + S128x128.size a ≤ S16384x128.size a
  inb_S10x16384_S1x128_0_13568 : ∀ a, (![0, 13568] : Fin 2 → Nat) a + S1x128.size a ≤ S10x16384.size a
  inb_S10x16384_S1x128_1_13568 : ∀ a, (![1, 13568] : Fin 2 → Nat) a + S1x128.size a ≤ S10x16384.size a
  inb_S10x16384_S1x128_2_13568 : ∀ a, (![2, 13568] : Fin 2 → Nat) a + S1x128.size a ≤ S10x16384.size a
  inb_S10x16384_S1x128_3_13568 : ∀ a, (![3, 13568] : Fin 2 → Nat) a + S1x128.size a ≤ S10x16384.size a
  inb_S10x16384_S1x128_4_13568 : ∀ a, (![4, 13568] : Fin 2 → Nat) a + S1x128.size a ≤ S10x16384.size a
  inb_S10x16384_S1x128_5_13568 : ∀ a, (![5, 13568] : Fin 2 → Nat) a + S1x128.size a ≤ S10x16384.size a
  inb_S10x16384_S1x128_6_13568 : ∀ a, (![6, 13568] : Fin 2 → Nat) a + S1x128.size a ≤ S10x16384.size a
  inb_S10x16384_S1x128_7_13568 : ∀ a, (![7, 13568] : Fin 2 → Nat) a + S1x128.size a ≤ S10x16384.size a
  inb_S10x16384_S1x128_8_13568 : ∀ a, (![8, 13568] : Fin 2 → Nat) a + S1x128.size a ≤ S10x16384.size a
  inb_S10x16384_S1x128_9_13568 : ∀ a, (![9, 13568] : Fin 2 → Nat) a + S1x128.size a ≤ S10x16384.size a
  inb_S16384x128_S128x128_13568_0 : ∀ a, (![13568, 0] : Fin 2 → Nat) a + S128x128.size a ≤ S16384x128.size a
  inb_S10x16384_S1x128_0_13696 : ∀ a, (![0, 13696] : Fin 2 → Nat) a + S1x128.size a ≤ S10x16384.size a
  inb_S10x16384_S1x128_1_13696 : ∀ a, (![1, 13696] : Fin 2 → Nat) a + S1x128.size a ≤ S10x16384.size a
  inb_S10x16384_S1x128_2_13696 : ∀ a, (![2, 13696] : Fin 2 → Nat) a + S1x128.size a ≤ S10x16384.size a
  inb_S10x16384_S1x128_3_13696 : ∀ a, (![3, 13696] : Fin 2 → Nat) a + S1x128.size a ≤ S10x16384.size a
  inb_S10x16384_S1x128_4_13696 : ∀ a, (![4, 13696] : Fin 2 → Nat) a + S1x128.size a ≤ S10x16384.size a
  inb_S10x16384_S1x128_5_13696 : ∀ a, (![5, 13696] : Fin 2 → Nat) a + S1x128.size a ≤ S10x16384.size a
  inb_S10x16384_S1x128_6_13696 : ∀ a, (![6, 13696] : Fin 2 → Nat) a + S1x128.size a ≤ S10x16384.size a
  inb_S10x16384_S1x128_7_13696 : ∀ a, (![7, 13696] : Fin 2 → Nat) a + S1x128.size a ≤ S10x16384.size a
  inb_S10x16384_S1x128_8_13696 : ∀ a, (![8, 13696] : Fin 2 → Nat) a + S1x128.size a ≤ S10x16384.size a
  inb_S10x16384_S1x128_9_13696 : ∀ a, (![9, 13696] : Fin 2 → Nat) a + S1x128.size a ≤ S10x16384.size a
  inb_S16384x128_S128x128_13696_0 : ∀ a, (![13696, 0] : Fin 2 → Nat) a + S128x128.size a ≤ S16384x128.size a
  inb_S10x16384_S1x128_0_13824 : ∀ a, (![0, 13824] : Fin 2 → Nat) a + S1x128.size a ≤ S10x16384.size a
  inb_S10x16384_S1x128_1_13824 : ∀ a, (![1, 13824] : Fin 2 → Nat) a + S1x128.size a ≤ S10x16384.size a
  inb_S10x16384_S1x128_2_13824 : ∀ a, (![2, 13824] : Fin 2 → Nat) a + S1x128.size a ≤ S10x16384.size a
  inb_S10x16384_S1x128_3_13824 : ∀ a, (![3, 13824] : Fin 2 → Nat) a + S1x128.size a ≤ S10x16384.size a
  inb_S10x16384_S1x128_4_13824 : ∀ a, (![4, 13824] : Fin 2 → Nat) a + S1x128.size a ≤ S10x16384.size a
  inb_S10x16384_S1x128_5_13824 : ∀ a, (![5, 13824] : Fin 2 → Nat) a + S1x128.size a ≤ S10x16384.size a
  inb_S10x16384_S1x128_6_13824 : ∀ a, (![6, 13824] : Fin 2 → Nat) a + S1x128.size a ≤ S10x16384.size a
  inb_S10x16384_S1x128_7_13824 : ∀ a, (![7, 13824] : Fin 2 → Nat) a + S1x128.size a ≤ S10x16384.size a
  inb_S10x16384_S1x128_8_13824 : ∀ a, (![8, 13824] : Fin 2 → Nat) a + S1x128.size a ≤ S10x16384.size a
  inb_S10x16384_S1x128_9_13824 : ∀ a, (![9, 13824] : Fin 2 → Nat) a + S1x128.size a ≤ S10x16384.size a
  inb_S16384x128_S128x128_13824_0 : ∀ a, (![13824, 0] : Fin 2 → Nat) a + S128x128.size a ≤ S16384x128.size a
  inb_S10x16384_S1x128_0_13952 : ∀ a, (![0, 13952] : Fin 2 → Nat) a + S1x128.size a ≤ S10x16384.size a
  inb_S10x16384_S1x128_1_13952 : ∀ a, (![1, 13952] : Fin 2 → Nat) a + S1x128.size a ≤ S10x16384.size a
  inb_S10x16384_S1x128_2_13952 : ∀ a, (![2, 13952] : Fin 2 → Nat) a + S1x128.size a ≤ S10x16384.size a
  inb_S10x16384_S1x128_3_13952 : ∀ a, (![3, 13952] : Fin 2 → Nat) a + S1x128.size a ≤ S10x16384.size a
  inb_S10x16384_S1x128_4_13952 : ∀ a, (![4, 13952] : Fin 2 → Nat) a + S1x128.size a ≤ S10x16384.size a
  inb_S10x16384_S1x128_5_13952 : ∀ a, (![5, 13952] : Fin 2 → Nat) a + S1x128.size a ≤ S10x16384.size a
  inb_S10x16384_S1x128_6_13952 : ∀ a, (![6, 13952] : Fin 2 → Nat) a + S1x128.size a ≤ S10x16384.size a
  inb_S10x16384_S1x128_7_13952 : ∀ a, (![7, 13952] : Fin 2 → Nat) a + S1x128.size a ≤ S10x16384.size a
  inb_S10x16384_S1x128_8_13952 : ∀ a, (![8, 13952] : Fin 2 → Nat) a + S1x128.size a ≤ S10x16384.size a
  inb_S10x16384_S1x128_9_13952 : ∀ a, (![9, 13952] : Fin 2 → Nat) a + S1x128.size a ≤ S10x16384.size a
  inb_S16384x128_S128x128_13952_0 : ∀ a, (![13952, 0] : Fin 2 → Nat) a + S128x128.size a ≤ S16384x128.size a
  inb_S10x16384_S1x128_0_14080 : ∀ a, (![0, 14080] : Fin 2 → Nat) a + S1x128.size a ≤ S10x16384.size a
  inb_S10x16384_S1x128_1_14080 : ∀ a, (![1, 14080] : Fin 2 → Nat) a + S1x128.size a ≤ S10x16384.size a
  inb_S10x16384_S1x128_2_14080 : ∀ a, (![2, 14080] : Fin 2 → Nat) a + S1x128.size a ≤ S10x16384.size a
  inb_S10x16384_S1x128_3_14080 : ∀ a, (![3, 14080] : Fin 2 → Nat) a + S1x128.size a ≤ S10x16384.size a
  inb_S10x16384_S1x128_4_14080 : ∀ a, (![4, 14080] : Fin 2 → Nat) a + S1x128.size a ≤ S10x16384.size a
  inb_S10x16384_S1x128_5_14080 : ∀ a, (![5, 14080] : Fin 2 → Nat) a + S1x128.size a ≤ S10x16384.size a
  inb_S10x16384_S1x128_6_14080 : ∀ a, (![6, 14080] : Fin 2 → Nat) a + S1x128.size a ≤ S10x16384.size a
  inb_S10x16384_S1x128_7_14080 : ∀ a, (![7, 14080] : Fin 2 → Nat) a + S1x128.size a ≤ S10x16384.size a
  inb_S10x16384_S1x128_8_14080 : ∀ a, (![8, 14080] : Fin 2 → Nat) a + S1x128.size a ≤ S10x16384.size a
  inb_S10x16384_S1x128_9_14080 : ∀ a, (![9, 14080] : Fin 2 → Nat) a + S1x128.size a ≤ S10x16384.size a
  inb_S16384x128_S128x128_14080_0 : ∀ a, (![14080, 0] : Fin 2 → Nat) a + S128x128.size a ≤ S16384x128.size a
  inb_S10x16384_S1x128_0_14208 : ∀ a, (![0, 14208] : Fin 2 → Nat) a + S1x128.size a ≤ S10x16384.size a
  inb_S10x16384_S1x128_1_14208 : ∀ a, (![1, 14208] : Fin 2 → Nat) a + S1x128.size a ≤ S10x16384.size a
  inb_S10x16384_S1x128_2_14208 : ∀ a, (![2, 14208] : Fin 2 → Nat) a + S1x128.size a ≤ S10x16384.size a
  inb_S10x16384_S1x128_3_14208 : ∀ a, (![3, 14208] : Fin 2 → Nat) a + S1x128.size a ≤ S10x16384.size a
  inb_S10x16384_S1x128_4_14208 : ∀ a, (![4, 14208] : Fin 2 → Nat) a + S1x128.size a ≤ S10x16384.size a
  inb_S10x16384_S1x128_5_14208 : ∀ a, (![5, 14208] : Fin 2 → Nat) a + S1x128.size a ≤ S10x16384.size a
  inb_S10x16384_S1x128_6_14208 : ∀ a, (![6, 14208] : Fin 2 → Nat) a + S1x128.size a ≤ S10x16384.size a
  inb_S10x16384_S1x128_7_14208 : ∀ a, (![7, 14208] : Fin 2 → Nat) a + S1x128.size a ≤ S10x16384.size a
  inb_S10x16384_S1x128_8_14208 : ∀ a, (![8, 14208] : Fin 2 → Nat) a + S1x128.size a ≤ S10x16384.size a
  inb_S10x16384_S1x128_9_14208 : ∀ a, (![9, 14208] : Fin 2 → Nat) a + S1x128.size a ≤ S10x16384.size a
  inb_S16384x128_S128x128_14208_0 : ∀ a, (![14208, 0] : Fin 2 → Nat) a + S128x128.size a ≤ S16384x128.size a
  inb_S10x16384_S1x128_0_14336 : ∀ a, (![0, 14336] : Fin 2 → Nat) a + S1x128.size a ≤ S10x16384.size a
  inb_S10x16384_S1x128_1_14336 : ∀ a, (![1, 14336] : Fin 2 → Nat) a + S1x128.size a ≤ S10x16384.size a
  inb_S10x16384_S1x128_2_14336 : ∀ a, (![2, 14336] : Fin 2 → Nat) a + S1x128.size a ≤ S10x16384.size a
  inb_S10x16384_S1x128_3_14336 : ∀ a, (![3, 14336] : Fin 2 → Nat) a + S1x128.size a ≤ S10x16384.size a
  inb_S10x16384_S1x128_4_14336 : ∀ a, (![4, 14336] : Fin 2 → Nat) a + S1x128.size a ≤ S10x16384.size a
  inb_S10x16384_S1x128_5_14336 : ∀ a, (![5, 14336] : Fin 2 → Nat) a + S1x128.size a ≤ S10x16384.size a
  inb_S10x16384_S1x128_6_14336 : ∀ a, (![6, 14336] : Fin 2 → Nat) a + S1x128.size a ≤ S10x16384.size a
  inb_S10x16384_S1x128_7_14336 : ∀ a, (![7, 14336] : Fin 2 → Nat) a + S1x128.size a ≤ S10x16384.size a
  inb_S10x16384_S1x128_8_14336 : ∀ a, (![8, 14336] : Fin 2 → Nat) a + S1x128.size a ≤ S10x16384.size a
  inb_S10x16384_S1x128_9_14336 : ∀ a, (![9, 14336] : Fin 2 → Nat) a + S1x128.size a ≤ S10x16384.size a
  inb_S16384x128_S128x128_14336_0 : ∀ a, (![14336, 0] : Fin 2 → Nat) a + S128x128.size a ≤ S16384x128.size a
  inb_S10x16384_S1x128_0_14464 : ∀ a, (![0, 14464] : Fin 2 → Nat) a + S1x128.size a ≤ S10x16384.size a
  inb_S10x16384_S1x128_1_14464 : ∀ a, (![1, 14464] : Fin 2 → Nat) a + S1x128.size a ≤ S10x16384.size a
  inb_S10x16384_S1x128_2_14464 : ∀ a, (![2, 14464] : Fin 2 → Nat) a + S1x128.size a ≤ S10x16384.size a
  inb_S10x16384_S1x128_3_14464 : ∀ a, (![3, 14464] : Fin 2 → Nat) a + S1x128.size a ≤ S10x16384.size a
  inb_S10x16384_S1x128_4_14464 : ∀ a, (![4, 14464] : Fin 2 → Nat) a + S1x128.size a ≤ S10x16384.size a
  inb_S10x16384_S1x128_5_14464 : ∀ a, (![5, 14464] : Fin 2 → Nat) a + S1x128.size a ≤ S10x16384.size a
  inb_S10x16384_S1x128_6_14464 : ∀ a, (![6, 14464] : Fin 2 → Nat) a + S1x128.size a ≤ S10x16384.size a
  inb_S10x16384_S1x128_7_14464 : ∀ a, (![7, 14464] : Fin 2 → Nat) a + S1x128.size a ≤ S10x16384.size a
  inb_S10x16384_S1x128_8_14464 : ∀ a, (![8, 14464] : Fin 2 → Nat) a + S1x128.size a ≤ S10x16384.size a
  inb_S10x16384_S1x128_9_14464 : ∀ a, (![9, 14464] : Fin 2 → Nat) a + S1x128.size a ≤ S10x16384.size a
  inb_S16384x128_S128x128_14464_0 : ∀ a, (![14464, 0] : Fin 2 → Nat) a + S128x128.size a ≤ S16384x128.size a
  inb_S10x16384_S1x128_0_14592 : ∀ a, (![0, 14592] : Fin 2 → Nat) a + S1x128.size a ≤ S10x16384.size a
  inb_S10x16384_S1x128_1_14592 : ∀ a, (![1, 14592] : Fin 2 → Nat) a + S1x128.size a ≤ S10x16384.size a
  inb_S10x16384_S1x128_2_14592 : ∀ a, (![2, 14592] : Fin 2 → Nat) a + S1x128.size a ≤ S10x16384.size a
  inb_S10x16384_S1x128_3_14592 : ∀ a, (![3, 14592] : Fin 2 → Nat) a + S1x128.size a ≤ S10x16384.size a
  inb_S10x16384_S1x128_4_14592 : ∀ a, (![4, 14592] : Fin 2 → Nat) a + S1x128.size a ≤ S10x16384.size a
  inb_S10x16384_S1x128_5_14592 : ∀ a, (![5, 14592] : Fin 2 → Nat) a + S1x128.size a ≤ S10x16384.size a
  inb_S10x16384_S1x128_6_14592 : ∀ a, (![6, 14592] : Fin 2 → Nat) a + S1x128.size a ≤ S10x16384.size a
  inb_S10x16384_S1x128_7_14592 : ∀ a, (![7, 14592] : Fin 2 → Nat) a + S1x128.size a ≤ S10x16384.size a
  inb_S10x16384_S1x128_8_14592 : ∀ a, (![8, 14592] : Fin 2 → Nat) a + S1x128.size a ≤ S10x16384.size a
  inb_S10x16384_S1x128_9_14592 : ∀ a, (![9, 14592] : Fin 2 → Nat) a + S1x128.size a ≤ S10x16384.size a
  inb_S16384x128_S128x128_14592_0 : ∀ a, (![14592, 0] : Fin 2 → Nat) a + S128x128.size a ≤ S16384x128.size a
  inb_S10x16384_S1x128_0_14720 : ∀ a, (![0, 14720] : Fin 2 → Nat) a + S1x128.size a ≤ S10x16384.size a
  inb_S10x16384_S1x128_1_14720 : ∀ a, (![1, 14720] : Fin 2 → Nat) a + S1x128.size a ≤ S10x16384.size a
  inb_S10x16384_S1x128_2_14720 : ∀ a, (![2, 14720] : Fin 2 → Nat) a + S1x128.size a ≤ S10x16384.size a
  inb_S10x16384_S1x128_3_14720 : ∀ a, (![3, 14720] : Fin 2 → Nat) a + S1x128.size a ≤ S10x16384.size a
  inb_S10x16384_S1x128_4_14720 : ∀ a, (![4, 14720] : Fin 2 → Nat) a + S1x128.size a ≤ S10x16384.size a
  inb_S10x16384_S1x128_5_14720 : ∀ a, (![5, 14720] : Fin 2 → Nat) a + S1x128.size a ≤ S10x16384.size a
  inb_S10x16384_S1x128_6_14720 : ∀ a, (![6, 14720] : Fin 2 → Nat) a + S1x128.size a ≤ S10x16384.size a
  inb_S10x16384_S1x128_7_14720 : ∀ a, (![7, 14720] : Fin 2 → Nat) a + S1x128.size a ≤ S10x16384.size a
  inb_S10x16384_S1x128_8_14720 : ∀ a, (![8, 14720] : Fin 2 → Nat) a + S1x128.size a ≤ S10x16384.size a
  inb_S10x16384_S1x128_9_14720 : ∀ a, (![9, 14720] : Fin 2 → Nat) a + S1x128.size a ≤ S10x16384.size a
  inb_S16384x128_S128x128_14720_0 : ∀ a, (![14720, 0] : Fin 2 → Nat) a + S128x128.size a ≤ S16384x128.size a
  inb_S10x16384_S1x128_0_14848 : ∀ a, (![0, 14848] : Fin 2 → Nat) a + S1x128.size a ≤ S10x16384.size a
  inb_S10x16384_S1x128_1_14848 : ∀ a, (![1, 14848] : Fin 2 → Nat) a + S1x128.size a ≤ S10x16384.size a
  inb_S10x16384_S1x128_2_14848 : ∀ a, (![2, 14848] : Fin 2 → Nat) a + S1x128.size a ≤ S10x16384.size a
  inb_S10x16384_S1x128_3_14848 : ∀ a, (![3, 14848] : Fin 2 → Nat) a + S1x128.size a ≤ S10x16384.size a
  inb_S10x16384_S1x128_4_14848 : ∀ a, (![4, 14848] : Fin 2 → Nat) a + S1x128.size a ≤ S10x16384.size a
  inb_S10x16384_S1x128_5_14848 : ∀ a, (![5, 14848] : Fin 2 → Nat) a + S1x128.size a ≤ S10x16384.size a
  inb_S10x16384_S1x128_6_14848 : ∀ a, (![6, 14848] : Fin 2 → Nat) a + S1x128.size a ≤ S10x16384.size a
  inb_S10x16384_S1x128_7_14848 : ∀ a, (![7, 14848] : Fin 2 → Nat) a + S1x128.size a ≤ S10x16384.size a
  inb_S10x16384_S1x128_8_14848 : ∀ a, (![8, 14848] : Fin 2 → Nat) a + S1x128.size a ≤ S10x16384.size a
  inb_S10x16384_S1x128_9_14848 : ∀ a, (![9, 14848] : Fin 2 → Nat) a + S1x128.size a ≤ S10x16384.size a
  inb_S16384x128_S128x128_14848_0 : ∀ a, (![14848, 0] : Fin 2 → Nat) a + S128x128.size a ≤ S16384x128.size a
  inb_S10x16384_S1x128_0_14976 : ∀ a, (![0, 14976] : Fin 2 → Nat) a + S1x128.size a ≤ S10x16384.size a
  inb_S10x16384_S1x128_1_14976 : ∀ a, (![1, 14976] : Fin 2 → Nat) a + S1x128.size a ≤ S10x16384.size a
  inb_S10x16384_S1x128_2_14976 : ∀ a, (![2, 14976] : Fin 2 → Nat) a + S1x128.size a ≤ S10x16384.size a
  inb_S10x16384_S1x128_3_14976 : ∀ a, (![3, 14976] : Fin 2 → Nat) a + S1x128.size a ≤ S10x16384.size a
  inb_S10x16384_S1x128_4_14976 : ∀ a, (![4, 14976] : Fin 2 → Nat) a + S1x128.size a ≤ S10x16384.size a
  inb_S10x16384_S1x128_5_14976 : ∀ a, (![5, 14976] : Fin 2 → Nat) a + S1x128.size a ≤ S10x16384.size a
  inb_S10x16384_S1x128_6_14976 : ∀ a, (![6, 14976] : Fin 2 → Nat) a + S1x128.size a ≤ S10x16384.size a
  inb_S10x16384_S1x128_7_14976 : ∀ a, (![7, 14976] : Fin 2 → Nat) a + S1x128.size a ≤ S10x16384.size a
  inb_S10x16384_S1x128_8_14976 : ∀ a, (![8, 14976] : Fin 2 → Nat) a + S1x128.size a ≤ S10x16384.size a
  inb_S10x16384_S1x128_9_14976 : ∀ a, (![9, 14976] : Fin 2 → Nat) a + S1x128.size a ≤ S10x16384.size a
  inb_S16384x128_S128x128_14976_0 : ∀ a, (![14976, 0] : Fin 2 → Nat) a + S128x128.size a ≤ S16384x128.size a
  inb_S10x16384_S1x128_0_15104 : ∀ a, (![0, 15104] : Fin 2 → Nat) a + S1x128.size a ≤ S10x16384.size a
  inb_S10x16384_S1x128_1_15104 : ∀ a, (![1, 15104] : Fin 2 → Nat) a + S1x128.size a ≤ S10x16384.size a
  inb_S10x16384_S1x128_2_15104 : ∀ a, (![2, 15104] : Fin 2 → Nat) a + S1x128.size a ≤ S10x16384.size a
  inb_S10x16384_S1x128_3_15104 : ∀ a, (![3, 15104] : Fin 2 → Nat) a + S1x128.size a ≤ S10x16384.size a
  inb_S10x16384_S1x128_4_15104 : ∀ a, (![4, 15104] : Fin 2 → Nat) a + S1x128.size a ≤ S10x16384.size a
  inb_S10x16384_S1x128_5_15104 : ∀ a, (![5, 15104] : Fin 2 → Nat) a + S1x128.size a ≤ S10x16384.size a
  inb_S10x16384_S1x128_6_15104 : ∀ a, (![6, 15104] : Fin 2 → Nat) a + S1x128.size a ≤ S10x16384.size a
  inb_S10x16384_S1x128_7_15104 : ∀ a, (![7, 15104] : Fin 2 → Nat) a + S1x128.size a ≤ S10x16384.size a
  inb_S10x16384_S1x128_8_15104 : ∀ a, (![8, 15104] : Fin 2 → Nat) a + S1x128.size a ≤ S10x16384.size a
  inb_S10x16384_S1x128_9_15104 : ∀ a, (![9, 15104] : Fin 2 → Nat) a + S1x128.size a ≤ S10x16384.size a
  inb_S16384x128_S128x128_15104_0 : ∀ a, (![15104, 0] : Fin 2 → Nat) a + S128x128.size a ≤ S16384x128.size a
  inb_S10x16384_S1x128_0_15232 : ∀ a, (![0, 15232] : Fin 2 → Nat) a + S1x128.size a ≤ S10x16384.size a
  inb_S10x16384_S1x128_1_15232 : ∀ a, (![1, 15232] : Fin 2 → Nat) a + S1x128.size a ≤ S10x16384.size a
  inb_S10x16384_S1x128_2_15232 : ∀ a, (![2, 15232] : Fin 2 → Nat) a + S1x128.size a ≤ S10x16384.size a
  inb_S10x16384_S1x128_3_15232 : ∀ a, (![3, 15232] : Fin 2 → Nat) a + S1x128.size a ≤ S10x16384.size a
  inb_S10x16384_S1x128_4_15232 : ∀ a, (![4, 15232] : Fin 2 → Nat) a + S1x128.size a ≤ S10x16384.size a
  inb_S10x16384_S1x128_5_15232 : ∀ a, (![5, 15232] : Fin 2 → Nat) a + S1x128.size a ≤ S10x16384.size a
  inb_S10x16384_S1x128_6_15232 : ∀ a, (![6, 15232] : Fin 2 → Nat) a + S1x128.size a ≤ S10x16384.size a
  inb_S10x16384_S1x128_7_15232 : ∀ a, (![7, 15232] : Fin 2 → Nat) a + S1x128.size a ≤ S10x16384.size a
  inb_S10x16384_S1x128_8_15232 : ∀ a, (![8, 15232] : Fin 2 → Nat) a + S1x128.size a ≤ S10x16384.size a
  inb_S10x16384_S1x128_9_15232 : ∀ a, (![9, 15232] : Fin 2 → Nat) a + S1x128.size a ≤ S10x16384.size a
  inb_S16384x128_S128x128_15232_0 : ∀ a, (![15232, 0] : Fin 2 → Nat) a + S128x128.size a ≤ S16384x128.size a
  inb_S10x16384_S1x128_0_15360 : ∀ a, (![0, 15360] : Fin 2 → Nat) a + S1x128.size a ≤ S10x16384.size a
  inb_S10x16384_S1x128_1_15360 : ∀ a, (![1, 15360] : Fin 2 → Nat) a + S1x128.size a ≤ S10x16384.size a
  inb_S10x16384_S1x128_2_15360 : ∀ a, (![2, 15360] : Fin 2 → Nat) a + S1x128.size a ≤ S10x16384.size a
  inb_S10x16384_S1x128_3_15360 : ∀ a, (![3, 15360] : Fin 2 → Nat) a + S1x128.size a ≤ S10x16384.size a
  inb_S10x16384_S1x128_4_15360 : ∀ a, (![4, 15360] : Fin 2 → Nat) a + S1x128.size a ≤ S10x16384.size a
  inb_S10x16384_S1x128_5_15360 : ∀ a, (![5, 15360] : Fin 2 → Nat) a + S1x128.size a ≤ S10x16384.size a
  inb_S10x16384_S1x128_6_15360 : ∀ a, (![6, 15360] : Fin 2 → Nat) a + S1x128.size a ≤ S10x16384.size a
  inb_S10x16384_S1x128_7_15360 : ∀ a, (![7, 15360] : Fin 2 → Nat) a + S1x128.size a ≤ S10x16384.size a
  inb_S10x16384_S1x128_8_15360 : ∀ a, (![8, 15360] : Fin 2 → Nat) a + S1x128.size a ≤ S10x16384.size a
  inb_S10x16384_S1x128_9_15360 : ∀ a, (![9, 15360] : Fin 2 → Nat) a + S1x128.size a ≤ S10x16384.size a
  inb_S16384x128_S128x128_15360_0 : ∀ a, (![15360, 0] : Fin 2 → Nat) a + S128x128.size a ≤ S16384x128.size a
  inb_S10x16384_S1x128_0_15488 : ∀ a, (![0, 15488] : Fin 2 → Nat) a + S1x128.size a ≤ S10x16384.size a
  inb_S10x16384_S1x128_1_15488 : ∀ a, (![1, 15488] : Fin 2 → Nat) a + S1x128.size a ≤ S10x16384.size a
  inb_S10x16384_S1x128_2_15488 : ∀ a, (![2, 15488] : Fin 2 → Nat) a + S1x128.size a ≤ S10x16384.size a
  inb_S10x16384_S1x128_3_15488 : ∀ a, (![3, 15488] : Fin 2 → Nat) a + S1x128.size a ≤ S10x16384.size a
  inb_S10x16384_S1x128_4_15488 : ∀ a, (![4, 15488] : Fin 2 → Nat) a + S1x128.size a ≤ S10x16384.size a
  inb_S10x16384_S1x128_5_15488 : ∀ a, (![5, 15488] : Fin 2 → Nat) a + S1x128.size a ≤ S10x16384.size a
  inb_S10x16384_S1x128_6_15488 : ∀ a, (![6, 15488] : Fin 2 → Nat) a + S1x128.size a ≤ S10x16384.size a
  inb_S10x16384_S1x128_7_15488 : ∀ a, (![7, 15488] : Fin 2 → Nat) a + S1x128.size a ≤ S10x16384.size a
  inb_S10x16384_S1x128_8_15488 : ∀ a, (![8, 15488] : Fin 2 → Nat) a + S1x128.size a ≤ S10x16384.size a
  inb_S10x16384_S1x128_9_15488 : ∀ a, (![9, 15488] : Fin 2 → Nat) a + S1x128.size a ≤ S10x16384.size a
  inb_S16384x128_S128x128_15488_0 : ∀ a, (![15488, 0] : Fin 2 → Nat) a + S128x128.size a ≤ S16384x128.size a
  inb_S10x16384_S1x128_0_15616 : ∀ a, (![0, 15616] : Fin 2 → Nat) a + S1x128.size a ≤ S10x16384.size a
  inb_S10x16384_S1x128_1_15616 : ∀ a, (![1, 15616] : Fin 2 → Nat) a + S1x128.size a ≤ S10x16384.size a
  inb_S10x16384_S1x128_2_15616 : ∀ a, (![2, 15616] : Fin 2 → Nat) a + S1x128.size a ≤ S10x16384.size a
  inb_S10x16384_S1x128_3_15616 : ∀ a, (![3, 15616] : Fin 2 → Nat) a + S1x128.size a ≤ S10x16384.size a
  inb_S10x16384_S1x128_4_15616 : ∀ a, (![4, 15616] : Fin 2 → Nat) a + S1x128.size a ≤ S10x16384.size a
  inb_S10x16384_S1x128_5_15616 : ∀ a, (![5, 15616] : Fin 2 → Nat) a + S1x128.size a ≤ S10x16384.size a
  inb_S10x16384_S1x128_6_15616 : ∀ a, (![6, 15616] : Fin 2 → Nat) a + S1x128.size a ≤ S10x16384.size a
  inb_S10x16384_S1x128_7_15616 : ∀ a, (![7, 15616] : Fin 2 → Nat) a + S1x128.size a ≤ S10x16384.size a
  inb_S10x16384_S1x128_8_15616 : ∀ a, (![8, 15616] : Fin 2 → Nat) a + S1x128.size a ≤ S10x16384.size a
  inb_S10x16384_S1x128_9_15616 : ∀ a, (![9, 15616] : Fin 2 → Nat) a + S1x128.size a ≤ S10x16384.size a
  inb_S16384x128_S128x128_15616_0 : ∀ a, (![15616, 0] : Fin 2 → Nat) a + S128x128.size a ≤ S16384x128.size a
  inb_S10x16384_S1x128_0_15744 : ∀ a, (![0, 15744] : Fin 2 → Nat) a + S1x128.size a ≤ S10x16384.size a
  inb_S10x16384_S1x128_1_15744 : ∀ a, (![1, 15744] : Fin 2 → Nat) a + S1x128.size a ≤ S10x16384.size a
  inb_S10x16384_S1x128_2_15744 : ∀ a, (![2, 15744] : Fin 2 → Nat) a + S1x128.size a ≤ S10x16384.size a
  inb_S10x16384_S1x128_3_15744 : ∀ a, (![3, 15744] : Fin 2 → Nat) a + S1x128.size a ≤ S10x16384.size a
  inb_S10x16384_S1x128_4_15744 : ∀ a, (![4, 15744] : Fin 2 → Nat) a + S1x128.size a ≤ S10x16384.size a
  inb_S10x16384_S1x128_5_15744 : ∀ a, (![5, 15744] : Fin 2 → Nat) a + S1x128.size a ≤ S10x16384.size a
  inb_S10x16384_S1x128_6_15744 : ∀ a, (![6, 15744] : Fin 2 → Nat) a + S1x128.size a ≤ S10x16384.size a
  inb_S10x16384_S1x128_7_15744 : ∀ a, (![7, 15744] : Fin 2 → Nat) a + S1x128.size a ≤ S10x16384.size a
  inb_S10x16384_S1x128_8_15744 : ∀ a, (![8, 15744] : Fin 2 → Nat) a + S1x128.size a ≤ S10x16384.size a
  inb_S10x16384_S1x128_9_15744 : ∀ a, (![9, 15744] : Fin 2 → Nat) a + S1x128.size a ≤ S10x16384.size a
  inb_S16384x128_S128x128_15744_0 : ∀ a, (![15744, 0] : Fin 2 → Nat) a + S128x128.size a ≤ S16384x128.size a
  inb_S10x16384_S1x128_0_15872 : ∀ a, (![0, 15872] : Fin 2 → Nat) a + S1x128.size a ≤ S10x16384.size a
  inb_S10x16384_S1x128_1_15872 : ∀ a, (![1, 15872] : Fin 2 → Nat) a + S1x128.size a ≤ S10x16384.size a
  inb_S10x16384_S1x128_2_15872 : ∀ a, (![2, 15872] : Fin 2 → Nat) a + S1x128.size a ≤ S10x16384.size a
  inb_S10x16384_S1x128_3_15872 : ∀ a, (![3, 15872] : Fin 2 → Nat) a + S1x128.size a ≤ S10x16384.size a
  inb_S10x16384_S1x128_4_15872 : ∀ a, (![4, 15872] : Fin 2 → Nat) a + S1x128.size a ≤ S10x16384.size a
  inb_S10x16384_S1x128_5_15872 : ∀ a, (![5, 15872] : Fin 2 → Nat) a + S1x128.size a ≤ S10x16384.size a
  inb_S10x16384_S1x128_6_15872 : ∀ a, (![6, 15872] : Fin 2 → Nat) a + S1x128.size a ≤ S10x16384.size a
  inb_S10x16384_S1x128_7_15872 : ∀ a, (![7, 15872] : Fin 2 → Nat) a + S1x128.size a ≤ S10x16384.size a
  inb_S10x16384_S1x128_8_15872 : ∀ a, (![8, 15872] : Fin 2 → Nat) a + S1x128.size a ≤ S10x16384.size a
  inb_S10x16384_S1x128_9_15872 : ∀ a, (![9, 15872] : Fin 2 → Nat) a + S1x128.size a ≤ S10x16384.size a
  inb_S16384x128_S128x128_15872_0 : ∀ a, (![15872, 0] : Fin 2 → Nat) a + S128x128.size a ≤ S16384x128.size a
  inb_S10x16384_S1x128_0_16000 : ∀ a, (![0, 16000] : Fin 2 → Nat) a + S1x128.size a ≤ S10x16384.size a
  inb_S10x16384_S1x128_1_16000 : ∀ a, (![1, 16000] : Fin 2 → Nat) a + S1x128.size a ≤ S10x16384.size a
  inb_S10x16384_S1x128_2_16000 : ∀ a, (![2, 16000] : Fin 2 → Nat) a + S1x128.size a ≤ S10x16384.size a
  inb_S10x16384_S1x128_3_16000 : ∀ a, (![3, 16000] : Fin 2 → Nat) a + S1x128.size a ≤ S10x16384.size a
  inb_S10x16384_S1x128_4_16000 : ∀ a, (![4, 16000] : Fin 2 → Nat) a + S1x128.size a ≤ S10x16384.size a
  inb_S10x16384_S1x128_5_16000 : ∀ a, (![5, 16000] : Fin 2 → Nat) a + S1x128.size a ≤ S10x16384.size a
  inb_S10x16384_S1x128_6_16000 : ∀ a, (![6, 16000] : Fin 2 → Nat) a + S1x128.size a ≤ S10x16384.size a
  inb_S10x16384_S1x128_7_16000 : ∀ a, (![7, 16000] : Fin 2 → Nat) a + S1x128.size a ≤ S10x16384.size a
  inb_S10x16384_S1x128_8_16000 : ∀ a, (![8, 16000] : Fin 2 → Nat) a + S1x128.size a ≤ S10x16384.size a
  inb_S10x16384_S1x128_9_16000 : ∀ a, (![9, 16000] : Fin 2 → Nat) a + S1x128.size a ≤ S10x16384.size a
  inb_S16384x128_S128x128_16000_0 : ∀ a, (![16000, 0] : Fin 2 → Nat) a + S128x128.size a ≤ S16384x128.size a
  inb_S10x16384_S1x128_0_16128 : ∀ a, (![0, 16128] : Fin 2 → Nat) a + S1x128.size a ≤ S10x16384.size a
  inb_S10x16384_S1x128_1_16128 : ∀ a, (![1, 16128] : Fin 2 → Nat) a + S1x128.size a ≤ S10x16384.size a
  inb_S10x16384_S1x128_2_16128 : ∀ a, (![2, 16128] : Fin 2 → Nat) a + S1x128.size a ≤ S10x16384.size a
  inb_S10x16384_S1x128_3_16128 : ∀ a, (![3, 16128] : Fin 2 → Nat) a + S1x128.size a ≤ S10x16384.size a
  inb_S10x16384_S1x128_4_16128 : ∀ a, (![4, 16128] : Fin 2 → Nat) a + S1x128.size a ≤ S10x16384.size a
  inb_S10x16384_S1x128_5_16128 : ∀ a, (![5, 16128] : Fin 2 → Nat) a + S1x128.size a ≤ S10x16384.size a
  inb_S10x16384_S1x128_6_16128 : ∀ a, (![6, 16128] : Fin 2 → Nat) a + S1x128.size a ≤ S10x16384.size a
  inb_S10x16384_S1x128_7_16128 : ∀ a, (![7, 16128] : Fin 2 → Nat) a + S1x128.size a ≤ S10x16384.size a
  inb_S10x16384_S1x128_8_16128 : ∀ a, (![8, 16128] : Fin 2 → Nat) a + S1x128.size a ≤ S10x16384.size a
  inb_S10x16384_S1x128_9_16128 : ∀ a, (![9, 16128] : Fin 2 → Nat) a + S1x128.size a ≤ S10x16384.size a
  inb_S16384x128_S128x128_16128_0 : ∀ a, (![16128, 0] : Fin 2 → Nat) a + S128x128.size a ≤ S16384x128.size a
  inb_S10x16384_S1x128_0_16256 : ∀ a, (![0, 16256] : Fin 2 → Nat) a + S1x128.size a ≤ S10x16384.size a
  inb_S10x16384_S1x128_1_16256 : ∀ a, (![1, 16256] : Fin 2 → Nat) a + S1x128.size a ≤ S10x16384.size a
  inb_S10x16384_S1x128_2_16256 : ∀ a, (![2, 16256] : Fin 2 → Nat) a + S1x128.size a ≤ S10x16384.size a
  inb_S10x16384_S1x128_3_16256 : ∀ a, (![3, 16256] : Fin 2 → Nat) a + S1x128.size a ≤ S10x16384.size a
  inb_S10x16384_S1x128_4_16256 : ∀ a, (![4, 16256] : Fin 2 → Nat) a + S1x128.size a ≤ S10x16384.size a
  inb_S10x16384_S1x128_5_16256 : ∀ a, (![5, 16256] : Fin 2 → Nat) a + S1x128.size a ≤ S10x16384.size a
  inb_S10x16384_S1x128_6_16256 : ∀ a, (![6, 16256] : Fin 2 → Nat) a + S1x128.size a ≤ S10x16384.size a
  inb_S10x16384_S1x128_7_16256 : ∀ a, (![7, 16256] : Fin 2 → Nat) a + S1x128.size a ≤ S10x16384.size a
  inb_S10x16384_S1x128_8_16256 : ∀ a, (![8, 16256] : Fin 2 → Nat) a + S1x128.size a ≤ S10x16384.size a
  inb_S10x16384_S1x128_9_16256 : ∀ a, (![9, 16256] : Fin 2 → Nat) a + S1x128.size a ≤ S10x16384.size a
  inb_S16384x128_S128x128_16256_0 : ∀ a, (![16256, 0] : Fin 2 → Nat) a + S128x128.size a ≤ S16384x128.size a
  dot_S128x128_S128x128_S128x128_0_0_1_1_n_n_wf : DotDims.WF S128x128 S128x128 S128x128 [0] [0] [1] [1] [] []

class Facts₀ : Prop where
  k0 : K0.Facts₀
  shapes1 : Shapes1.Facts₀
  shapes2 : Shapes2.Facts₀
attribute [instance] Facts₀.k0 Facts₀.shapes1 Facts₀.shapes2

variable [Facts₀]

def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf

abbrev win0_0 : Pipeline.Window sig grid0 :=
  Pipeline.Window.ofSpec (Memref.whole main_v0) S10x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1280x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x10 : Shape := ⟨2, ![131072, 10]⟩
abbrev S128x10 : Shape := ⟨2, ![128, 10]⟩
abbrev S128x128 : Shape := ⟨2, ![128, 128]⟩
abbrev S131072x1x10 : Shape := ⟨3, ![131072, 1, 10]⟩
abbrev S1x128x10 : Shape := ⟨3, ![1, 128, 10]⟩
abbrev S131072x128x10 : Shape := ⟨3, ![131072, 128, 10]⟩
abbrev S_ : Shape := ⟨0, ![]⟩
abbrev S131072x128 : Shape := ⟨2, ![131072, 128]⟩

abbrev nBuf : Space → Nat
  | .hbm => 17
  | .vmem => 0
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S131072x1x10, .f32⟩
  | .hbm, ⟨4, _⟩ => ⟨S1x128x10, .f32⟩
  | .hbm, ⟨5, _⟩ => ⟨S131072x128x10, .f32⟩
  | .hbm, ⟨6, _⟩ => ⟨S131072x128x10, .f32⟩
  | .hbm, ⟨7, _⟩ => ⟨S131072x128x10, .f32⟩
  | .hbm, ⟨8, _⟩ => ⟨S131072x128x10, .f32⟩
  | .hbm, ⟨9, _⟩ => ⟨S_, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S131072x128, .f32⟩
  | .hbm, ⟨16, _⟩ => ⟨S131072x128, .f32⟩
  | _, _ => ⟨S131072x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S131072x10_S131072x1x10_0_2 : S131072x10.BroadcastsInDim S131072x1x10 (![0, 2] : Fin 2 → Fin S131072x1x10.rank)
  bcast_S128x10_S1x128x10_1_2 : S128x10.BroadcastsInDim S1x128x10 (![1, 2] : Fin 2 → Fin S1x128x10.rank)
  bcast_S131072x1x10_S131072x128x10_0_1_2 : S131072x1x10.BroadcastsInDim S131072x128x10 (![0, 1, 2] : Fin 3 → Fin S131072x128x10.rank)
  bcast_S1x128x10_S131072x128x10_0_1_2 : S1x128x10.BroadcastsInDim S131072x128x10 (![0, 1, 2] : Fin 3 → Fin S131072x128x10.rank)
  reducesTo_S131072x128x10_S131072x128_d2 : S131072x128x10.ReducesTo [2] S131072x128
  h_S_ : 0 < S_.numel
  bcast_S_S131072x128 : S_.BroadcastsInDim S131072x128 (![] : Fin 0 → Fin S131072x128.rank)
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.Chunk.lean ====
/-
  One chunk of 128 points. For ten coordinates d the body takes a 128×128 slab pb_d of the lane-replicated design table
  (row k of the slab is design point k, every lane the same number) and a 1×128 row xr_d of the transposed points (lane l
  is point l of the chunk), forms |pb_d − xr_d| with the row repeated down the 128 sublanes, adds the ten slabs left to
  right, takes exp(0 − that), and contracts the result's FIRST axis against the first axis of the 128×128 matrix c:
      out[l, q] = Σ_k exp(0 − Σ_d |pb_d[k, l] − xr_d[0, l]|) · c[k, q].
  `chunkVal` is that sequence of operations at any float instance; `chunkVal_apply` reads it at an index over the
  extended reals.
-/
import proofs.«143545_g10067403342211_week1_w1_198_17_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Chunk

open Idealize.ShloMosaic Idealize.ShloMosaic.ValueIdx Cert.KernelIdeal Cert.KernelIdeal.Gen

section AnyInstance
variable {F : FTy → Type} [FloatOps F]

/-- One coordinate's distances: |pb − xr| with the row xr repeated down the sublanes. -/
def slab (pb : Vec F S128x128 .f32) (xr : Vec F S1x128 .f32) : FVec F S128x128 .f32 :=
  absf (subf (shapeCast S128x128 pb shapeCasts_S128x128_S128x128)
    (broadcastTo S128x128 (shapeCast S1x128 xr shapeCasts_S1x128_S1x128) broadcasts_S1x128_S128x128))

/-- The chunk's 128×128 result from the matrix c, the ten rows and the ten slabs. -/
def chunkVal (c : Vec F S128x128 .f32) (xr : Fin 10 → Vec F S1x128 .f32) (pb : Fin 10 → Vec F S128x128 .f32) :
    FVec F S128x128 .f32 :=
  matmul dot_S128x128_S128x128_S128x128_0_0_1_1_n_n none
    (exp (subf (broadcast S128x128 (Scalar.ofBits .f32 0x00000000#32))
      (addf (addf (addf (addf (addf (addf (addf (addf (addf (slab (pb 0) (xr 0)) (slab (pb 1) (xr 1))) (slab (pb 2) (xr 2)))
        (slab (pb 3) (xr 3))) (slab (pb 4) (xr 4))) (slab (pb 5) (xr 5))) (slab (pb 6) (xr 6))) (slab (pb 7) (xr 7)))
        (slab (pb 8) (xr 8))) (slab (pb 9) (xr 9)))))
    c (constant S128x128 .f32 0x00000000#32)

end AnyInstance

/-- A slab at sublane k, lane l. -/
theorem slab_apply (pb : Vec Ideal S128x128 .f32) (xr : Vec Ideal S1x128 .f32) (k l : Fin 128) :
    slab pb xr (ix2 k l) = max (pb (ix2 k l) - xr (ix2 (0 : Fin 1) l)) (-(pb (ix2 k l) - xr (ix2 (0 : Fin 1) l))) := by
  unfold slab
  rw [shapeCast_self, shapeCast_self]
  show max (pb (ix2 k l) - broadcastTo S128x128 xr broadcasts_S1x128_S128x128 (ix2 k l))
      (-(pb (ix2 k l) - broadcastTo S128x128 xr broadcasts_S1x128_S128x128 (ix2 k l))) = _
  rw [broadcastTo_1b_ab_apply xr broadcasts_S1x128_S128x128 k l]

/-! ## The contraction: first axis against first axis -/

theorem lhs_dot_0 (j : S128x128.Idx) (k : dot_S128x128_S128x128_S128x128_0_0_1_1_n_n.contr.Idx) :
    (dot_S128x128_S128x128_S128x128_0_0_1_1_n_n.lhsIdx j k 0).val = (k ⟨0, by decide⟩).val := rfl
theorem lhs_dot_1 (j : S128x128.Idx) (k : dot_S128x128_S128x128_S128x128_0_0_1_1_n_n.contr.Idx) :
    (dot_S128x128_S128x128_S128x128_0_0_1_1_n_n.lhsIdx j k 1).val = (j 0).val := rfl
theorem rhs_dot_0 (j : S128x128.Idx) (k : dot_S128x128_S128x128_S128x128_0_0_1_1_n_n.contr.Idx) :
    (dot_S128x128_S128x128_S128x128_0_0_1_1_n_n.rhsIdx j k 0).val = (k ⟨0, by decide⟩).val := rfl
theorem rhs_dot_1 (j : S128x128.Idx) (k : dot_S128x128_S128x128_S128x128_0_0_1_1_n_n.contr.Idx) :
    (dot_S128x128_S128x128_S128x128_0_0_1_1_n_n.rhsIdx j k 1).val = (j 1).val := rfl

/-- The product into a zero accumulator, at (l, q): the sum over the shared FIRST axis, Σ_k lhs[k, l] · rhs[k, q]. -/
theorem contract_apply (lhs rhs : FVec Ideal S128x128 .f32) (l q : Fin 128) :
    matmul dot_S128x128_S128x128_S128x128_0_0_1_1_n_n none lhs rhs (constant S128x128 .f32 0x00000000#32) (ix2 l q)
      = ∑ k : Fin 128, lhs (ix2 k l) * rhs (ix2 k q) := by
  simp only [matmul]
  rw [Ideal.matmul_constant_zero_apply,
    ← Equiv.sum_comp (contrEquiv1 dot_S128x128_S128x128_S128x128_0_0_1_1_n_n 128 rfl rfl).symm]
  refine Finset.sum_congr rfl fun k _ => ?_
  have hk := contrEquiv1_symm_val dot_S128x128_S128x128_S128x128_0_0_1_1_n_n 128 rfl rfl k
  have hl : dot_S128x128_S128x128_S128x128_0_0_1_1_n_n.lhsIdx (ix2 l q)
      ((contrEquiv1 dot_S128x128_S128x128_S128x128_0_0_1_1_n_n 128 rfl rfl).symm k) = ix2 k l :=
    funext fun a => Fin.ext (by
      match a with
      | ⟨0, _⟩ => exact (lhs_dot_0 _ _).trans hk
      | ⟨1, _⟩ => exact lhs_dot_1 _ _)
  have hr : dot_S128x128_S128x128_S128x128_0_0_1_1_n_n.rhsIdx (ix2 l q)
      ((contrEquiv1 dot_S128x128_S128x128_S128x128_0_0_1_1_n_n 128 rfl rfl).symm k) = ix2 k q :=
    funext fun a => Fin.ext (by
      match a with
      | ⟨0, _⟩ => exact (rhs_dot_0 _ _).trans hk
      | ⟨1, _⟩ => exact rhs_dot_1 _ _)
  rw [hl, hr]

end Cert.KernelIdeal.Chunk

end
-- ==== Proof.Block.lean ====
/-
  The output block of one grid point, as ONE function of the three input blocks.

  A grid point handles 16384 points in 128 chunks of 128. Chunk j reads, for each coordinate d, lanes 128·j … 128·j+127
  of row d of the transposed-points block (a 1×128 rectangle) and rows 128·d … 128·d+127 of the lane-replicated design
  table (a 128×128 rectangle, the same for every chunk), and the whole 128×128 matrix; it stores its 128×128 result at
  rows 128·j … 128·j+127 of the output block. The body's 128 stores are therefore the list, last chunk first, of
  `pieceAt j` = (that output rectangle, the chunk's value of those loads) — by unfolding alone (`out0_3_eq`).
  Every piece is the block of one function `Gblk` under its rectangle (`pieceAt_apply`): at row r = 128·j + l and
  column q,  Σ_k exp(0 − Σ_d |x1[128·d + k, r mod 128] − x0[d, r]|) · x2[k, q],  the ten distances added left to right.
  The 128 rectangles tile the block (row r lies in chunk r / 128), so the block holds `Gblk` everywhere (`out0_3_apply`).
-/
import proofs.«143545_g10067403342211_week1_w1_198_17_alg».proof.Proof.FrameKI
import proofs.«143545_g10067403342211_week1_w1_198_17_alg».proof.Proof.Chunk
import Idealize.ShloMosaic.Lib.Pipeline.FrameBody
import Idealize.ShloMosaic.Lib.Pipeline.Value
import Idealize.ShloMosaic.Lib.ValueIdx
import Idealize.ShloMosaic.PureOps.Ideal.Laws

set_option maxRecDepth 16384

noncomputable section

namespace Cert.KernelIdeal.Block

open Idealize.ShloMosaic Idealize.ShloMosaic.TcCoe Idealize.ShloMosaic.ValueIdx
open Cert.KernelIdeal Cert.KernelIdeal.Gen Cert.KernelIdeal.GenP Cert.KernelIdeal.Chunk

variable {F : FTy → Type} [FloatOps F]

/-! ## The rectangles of chunk j and its piece -/

/-- Lanes 128·j … 128·j+127 of row d of the transposed-points block. -/
abbrev xrect (d : Fin 10) (j : Fin 128) : Rect S10x16384 :=
  Rect.unit (s := S10x16384) ![d.val, 128 * j.val] S1x128.size (fun a => match a with
    | ⟨0, _⟩ => by have := d.isLt; show d.val + 1 ≤ 10; omega
    | ⟨1, _⟩ => by have := j.isLt; show 128 * j.val + 128 ≤ 16384; omega)

/-- Rows 128·d … 128·d+127 of the lane-replicated design table. -/
abbrev prect (d : Fin 10) : Rect S1280x128 :=
  Rect.unit (s := S1280x128) ![128 * d.val, 0] S128x128.size (fun a => match a with
    | ⟨0, _⟩ => by have := d.isLt; show 128 * d.val + 128 ≤ 1280; omega
    | ⟨1, _⟩ => by show 0 + 128 ≤ 128; omega)

/-- Rows 128·j … 128·j+127 of the output block. -/
abbrev orect (j : Fin 128) : Rect S16384x128 :=
  Rect.unit (s := S16384x128) ![128 * j.val, 0] S128x128.size (fun a => match a with
    | ⟨0, _⟩ => by have := j.isLt; show 128 * j.val + 128 ≤ 16384; omega
    | ⟨1, _⟩ => by show 0 + 128 ≤ 128; omega)

/-- Chunk j's store: its output rectangle and the chunk's value of its loads. -/
def pieceAt (x0 : Vec F S10x16384 .f32) (x1 : Vec F S1280x128 .f32) (x2 : Vec F S128x128 .f32) (j : Fin 128) :
    View.Piece (Elt F) S16384x128 .f32 :=
  ⟨orect j, chunkVal (View.ld x2 r0_0) (fun d => View.ld x0 (xrect d j)) (fun d => View.ld x1 (prect d))⟩

/-- The stores of chunks n−1, …, 0, the last first. -/
def piecesBelow (x0 : Vec F S10x16384 .f32) (x1 : Vec F S1280x128 .f32) (x2 : Vec F S128x128 .f32) :
    (n : Nat) → n ≤ 128 → List (View.Piece (Elt F) S16384x128 .f32)
  | 0, _ => []
  | n + 1, h => pieceAt x0 x1 x2 ⟨n, h⟩ :: piecesBelow x0 x1 x2 n (Nat.le_of_succ_le h)

set_option maxHeartbeats 2000000 in
/-- The body's 128 stores are the pieces of chunks 127, …, 0: each printed store's rectangle and value unfold to
    `pieceAt` of its chunk (the rectangles' offsets are the literals 128·j). -/
theorem out0_3_eq (x0 : Vec F S10x16384 .f32) (x1 : Vec F S1280x128 .f32) (x2 : Vec F S128x128 .f32) :
    out0_3 x0 x1 x2 = View.canon (piecesBelow x0 x1 x2 128 (Nat.le_refl 128)) := rfl

/-! ## A chunk read at an index -/

/-- The chunk's result at (l, q): Σ_k exp(zero − the ten slabs at (k, l) added left to right) · c[k, q]. -/
theorem chunkVal_apply (c : Vec Ideal S128x128 .f32) (xr : Fin 10 → Vec Ideal S1x128 .f32)
    (pb : Fin 10 → Vec Ideal S128x128 .f32) (l q : Fin 128) :
    chunkVal c xr pb (ix2 l q) = ∑ k : Fin 128,
      Ideal.exp (Ideal.ofBits .f32 0x00000000#32 - (slab (pb 0) (xr 0) (ix2 k l) + slab (pb 1) (xr 1) (ix2 k l)
        + slab (pb 2) (xr 2) (ix2 k l) + slab (pb 3) (xr 3) (ix2 k l) + slab (pb 4) (xr 4) (ix2 k l)
        + slab (pb 5) (xr 5) (ix2 k l) + slab (pb 6) (xr 6) (ix2 k l) + slab (pb 7) (xr 7) (ix2 k l)
        + slab (pb 8) (xr 8) (ix2 k l) + slab (pb 9) (xr 9) (ix2 k l))) * c (ix2 k q) := by
  unfold chunkVal
  rw [contract_apply]
  rfl

/-! ## The block's function -/

/-- Row 128·j + l of the block: lane l of chunk j. -/
def row (j l : Fin 128) : Fin 16384 := ⟨128 * j.val + l.val, by have := j.isLt; have := l.isLt; omega⟩

/-- One coordinate's distance at block level: |x1[128·d + k, r mod 128] − x0[d, r]|. -/
def dterm (x0 : Vec Ideal S10x16384 .f32) (x1 : Vec Ideal S1280x128 .f32) (d : Fin 10) (k : Fin 128) (r : Fin 16384) : EReal :=
  max (x1 (ix2 (⟨128 * d.val + k.val, by have := d.isLt; have := k.isLt; omega⟩ : Fin 1280)
        (⟨r.val % 128, Nat.mod_lt _ (by decide)⟩ : Fin 128)) - x0 (ix2 d r))
    (-(x1 (ix2 (⟨128 * d.val + k.val, by have := d.isLt; have := k.isLt; omega⟩ : Fin 1280)
        (⟨r.val % 128, Nat.mod_lt _ (by decide)⟩ : Fin 128)) - x0 (ix2 d r)))

/-- The block at row r, column q. -/
def GblkAt (x0 : Vec Ideal S10x16384 .f32) (x1 : Vec Ideal S1280x128 .f32) (x2 : Vec Ideal S128x128 .f32)
    (r : Fin 16384) (q : Fin 128) : EReal :=
  ∑ k : Fin 128, Ideal.exp (0 - (dterm x0 x1 0 k r + dterm x0 x1 1 k r + dterm x0 x1 2 k r + dterm x0 x1 3 k r
    + dterm x0 x1 4 k r + dterm x0 x1 5 k r + dterm x0 x1 6 k r + dterm x0 x1 7 k r + dterm x0 x1 8 k r
    + dterm x0 x1 9 k r)) * x2 (ix2 k q)

/-- What the body leaves in the output block, as one function of the three input blocks. -/
def Gblk (x0 : Vec Ideal S10x16384 .f32) (x1 : Vec Ideal S1280x128 .f32) (x2 : Vec Ideal S128x128 .f32) :
    S16384x128.Idx → EReal := fun y => GblkAt x0 x1 x2 (y 0) (y 1)

/-! ## The loads -/

theorem hz : (![0, 0] : Fin 2 → Nat) = fun _ => 0 := funext fun a => by fin_cases a <;> rfl

theorem ld_x2 (x2 : Vec Ideal S128x128 .f32) (y : S128x128.Idx) : View.ld x2 r0_0 y = x2 y :=
  congrFun (View.ld_unit_zero (S := S128x128) hz _ x2) y

theorem ld_x1 (x1 : Vec Ideal S1280x128 .f32) (d : Fin 10) (k l j : Fin 128) :
    View.ld x1 (prect d) (ix2 k l) = x1 (ix2 (⟨128 * d.val + k.val, by have := d.isLt; have := k.isLt; omega⟩ : Fin 1280)
      (⟨(row j l).val % 128, Nat.mod_lt _ (by decide)⟩ : Fin 128)) := by
  show x1 ((prect d).emb (ix2 k l)) = _
  refine congrArg x1 (funext fun a => Fin.ext ?_)
  match a with
  | ⟨0, _⟩ => show 128 * d.val + 1 * k.val = 128 * d.val + k.val; omega
  | ⟨1, _⟩ => show 0 + 1 * l.val = (128 * j.val + l.val) % 128; have := l.isLt; omega

theorem ld_x0 (x0 : Vec Ideal S10x16384 .f32) (d : Fin 10) (j l : Fin 128) :
    View.ld x0 (xrect d j) (ix2 (0 : Fin 1) l) = x0 (ix2 d (row j l)) := by
  show x0 ((xrect d j).emb (ix2 (0 : Fin 1) l)) = _
  refine congrArg x0 (funext fun a => Fin.ext ?_)
  match a with
  | ⟨0, _⟩ => show d.val + 1 * 0 = d.val; omega
  | ⟨1, _⟩ => show 128 * j.val + 1 * l.val = 128 * j.val + l.val; omega

theorem emb_orect (j l q : Fin 128) : (orect j).emb (ix2 l q) = ix2 (row j l) q := by
  funext a; apply Fin.ext
  match a with
  | ⟨0, _⟩ => show 128 * j.val + 1 * l.val = 128 * j.val + l.val; omega
  | ⟨1, _⟩ => show 0 + 1 * q.val = q.val; omega

/-! ## The pieces are blocks of the one function -/

theorem pieceAt_apply (x0 : Vec Ideal S10x16384 .f32) (x1 : Vec Ideal S1280x128 .f32) (x2 : Vec Ideal S128x128 .f32)
    (j : Fin 128) (x : S128x128.Idx) :
    (pieceAt x0 x1 x2 j).2 x = Gblk x0 x1 x2 ((pieceAt x0 x1 x2 j).1.emb x) := by
  obtain ⟨l, q, rfl⟩ : ∃ (l q : Fin 128), x = ix2 l q := ⟨x 0, x 1, eq_ix2 x⟩
  show chunkVal (View.ld x2 r0_0) (fun d => View.ld x0 (xrect d j)) (fun d => View.ld x1 (prect d)) (ix2 l q)
    = Gblk x0 x1 x2 ((orect j).emb (ix2 l q))
  rw [chunkVal_apply, emb_orect]
  show _ = GblkAt x0 x1 x2 (row j l) q
  unfold GblkAt
  refine Finset.sum_congr rfl fun k _ => ?_
  simp only [slab_apply, Ideal.ofBits_zero_f32, ld_x2 x2 (ix2 k q), ld_x1 x1 _ k l j, ld_x0 x0 _ j l]
  rfl

theorem mem_piecesBelow (x0 : Vec F S10x16384 .f32) (x1 : Vec F S1280x128 .f32) (x2 : Vec F S128x128 .f32) :
    ∀ (n : Nat) (h : n ≤ 128) (p : View.Piece (Elt F) S16384x128 .f32), p ∈ piecesBelow x0 x1 x2 n h →
      ∃ j : Fin 128, p = pieceAt x0 x1 x2 j
  | 0, _, p, hp => by simp [piecesBelow] at hp
  | n + 1, h, p, hp => by
    rcases List.mem_cons.mp hp with rfl | hp
    · exact ⟨⟨n, h⟩, rfl⟩
    · exact mem_piecesBelow x0 x1 x2 n _ p hp

theorem pieceAt_mem (x0 : Vec F S10x16384 .f32) (x1 : Vec F S1280x128 .f32) (x2 : Vec F S128x128 .f32) (j : Fin 128) :
    ∀ (n : Nat) (h : n ≤ 128), j.val < n → pieceAt x0 x1 x2 j ∈ piecesBelow x0 x1 x2 n h
  | 0, _, hj => absurd hj (Nat.not_lt_zero _)
  | n + 1, h, hj => by
    by_cases e : j.val = n
    · have : j = ⟨n, h⟩ := Fin.ext e
      subst this
      exact List.mem_cons_self
    · exact List.mem_cons_of_mem _ (pieceAt_mem x0 x1 x2 j n _ (by omega))

/-- The output block after the body is `Gblk` of the input blocks, at every index: row r lies in chunk r / 128. -/
theorem out0_3_apply (x0 : Vec Ideal S10x16384 .f32) (x1 : Vec Ideal S1280x128 .f32) (x2 : Vec Ideal S128x128 .f32)
    (y : S16384x128.Idx) : out0_3 x0 x1 x2 y = Gblk x0 x1 x2 y := by
  rw [out0_3_eq]
  have hy0 : (y 0).val < 16384 := (y 0).isLt
  have hy1 : (y 1).val < 128 := (y 1).isLt
  refine View.canon_apply_of_pieces (Val := Elt Ideal) (e := .f32) (Gblk x0 x1 x2) _ ?_ y ?_
  · intro p hp x
    obtain ⟨j, rfl⟩ := mem_piecesBelow x0 x1 x2 128 (Nat.le_refl 128) p hp
    exact pieceAt_apply x0 x1 x2 j x
  · refine ⟨pieceAt x0 x1 x2 ⟨(y 0).val / 128, by omega⟩, pieceAt_mem x0 x1 x2 _ 128 (Nat.le_refl 128) (by show (y 0).val / 128 < 128; omega), ?_⟩
    show y ∈ (orect ⟨(y 0).val / 128, by omega⟩).set
    rw [Rect.mem_set_unit]
    intro a
    match a with
    | ⟨0, _⟩ => show 128 * ((y 0).val / 128) ≤ (y 0).val ∧ (y 0).val < 128 * ((y 0).val / 128) + 128; omega
    | ⟨1, _⟩ => show 0 ≤ (y 1).val ∧ (y 1).val < 0 + 128; omega

end Cert.KernelIdeal.Block

end
-- ==== Proof.Spec.lean ====
/-
  The Laplace product-kernel features, as ONE function of the three argument arrays.

  For points x[n, ·] (131072 of them, in dimension 10), design points p[m, ·] (128 of them) and a 128×128 matrix c,
  the result at (n, q) is  Σ_m exp(−Σ_d |x[n,d] − p[m,d]|) · c[m, q]  on the extended reals, |a| read as max a (−a).
  Both programs compute it: one takes p − x where the other takes x − p (|a − b| = |b − a| holds on ALL extended
  reals, the infinities included, by cases), one adds the ten distances left to right from the first where the other
  adds them to a zero (a sum in a commutative monoid), one negates by subtracting from zero where the other negates
  and then divides by the literal 1.
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx

/-- The absolute value on the extended reals, as the float operation reads: the larger of a and −a. -/
def eabs (a : EReal) : EReal := max a (-a)

/-- |a − b| = |b − a| on every pair of extended reals: on the reals it is the usual law; when an infinity is
    involved both differences are infinite and both absolute values are +∞. -/
theorem eabs_sub_comm (a b : EReal) : eabs (a - b) = eabs (b - a) := by
  unfold eabs
  induction a using EReal.rec <;> induction b using EReal.rec <;>
    first
    | rfl
    | (simp only [← EReal.coe_sub, ← EReal.coe_neg, neg_sub]; exact max_comm _ _)
    | simp

/-- The distance Σ_d |x[n,d] − p[m,d]| between point n and design point m. -/
def dist (x : (⟨2, ![131072, 10]⟩ : Shape).Idx → EReal) (p : (⟨2, ![128, 10]⟩ : Shape).Idx → EReal)
    (n : Fin 131072) (m : Fin 128) : EReal :=
  ∑ d : Fin 10, eabs (x (ix2 n d) - p (ix2 m d))

/-- The features: Σ_m exp(−dist n m) · c[m, q]. -/
def G (x : (⟨2, ![131072, 10]⟩ : Shape).Idx → EReal) (p : (⟨2, ![128, 10]⟩ : Shape).Idx → EReal)
    (c : (⟨2, ![128, 128]⟩ : Shape).Idx → EReal) : (⟨2, ![131072, 128]⟩ : Shape).Idx → EReal :=
  fun i => ∑ m : Fin 128, Ideal.exp (-(dist x p (i 0) m)) * c (ix2 m (i 1))

/-- Ten terms added left to right, starting from the first, are their sum. -/
theorem fold10 (t : Fin 10 → EReal) :
    t 0 + t 1 + t 2 + t 3 + t 4 + t 5 + t 6 + t 7 + t 8 + t 9 = ∑ d : Fin 10, t d := by
  simp only [Fin.sum_univ_castSucc, Fin.sum_univ_zero, zero_add]
  rfl

/-- The exponent as one program forms it: zero minus the ten distances |p − x| added left to right. -/
theorem exponent_left (x : (⟨2, ![131072, 10]⟩ : Shape).Idx → EReal) (p : (⟨2, ![128, 10]⟩ : Shape).Idx → EReal)
    (n : Fin 131072) (m : Fin 128) :
    (0 : EReal) - (eabs (p (ix2 m 0) - x (ix2 n 0)) + eabs (p (ix2 m 1) - x (ix2 n 1)) + eabs (p (ix2 m 2) - x (ix2 n 2))
      + eabs (p (ix2 m 3) - x (ix2 n 3)) + eabs (p (ix2 m 4) - x (ix2 n 4)) + eabs (p (ix2 m 5) - x (ix2 n 5))
      + eabs (p (ix2 m 6) - x (ix2 n 6)) + eabs (p (ix2 m 7) - x (ix2 n 7)) + eabs (p (ix2 m 8) - x (ix2 n 8))
      + eabs (p (ix2 m 9) - x (ix2 n 9))) = -(dist x p n m) := by
  rw [fold10 (fun d => eabs (p (ix2 m d) - x (ix2 n d))), zero_sub]
  unfold dist
  congr 1
  exact Finset.sum_congr rfl (fun d _ => eabs_sub_comm _ _)

/-- The literal 1.0 denotes 1. -/
theorem ofBits_one : Ideal.ofBits .f32 0x3F800000#32 = 1 := by
  simp [Ideal.ofBits, Ideal.ieee, -EReal.coe_mul]; norm_num

/-- The exponent as the other program forms it: the ten distances |x − p| added to a zero, negated, divided by 1. -/
theorem exponent_right (x : (⟨2, ![131072, 10]⟩ : Shape).Idx → EReal) (p : (⟨2, ![128, 10]⟩ : Shape).Idx → EReal)
    (n : Fin 131072) (m : Fin 128) :
    Ideal.div (-(Ideal.ofBits .f32 0x00000000#32 + ∑ d : Fin 10, eabs (x (ix2 n d) - p (ix2 m d))))
      (Ideal.ofBits .f32 0x3F800000#32) = -(dist x p n m) := by
  rw [Ideal.ofBits_zero_f32, zero_add, ofBits_one]
  have h := Ideal.div_coe (y := 1) one_ne_zero (-(∑ d : Fin 10, eabs (x (ix2 n d) - p (ix2 m d))))
  rw [EReal.coe_one] at h
  rw [h]
  simp [dist]

end Cert.Spec

end
-- ==== Proof.KernelValue.lean ====
/-
  The kernel's result array is the features `Cert.Spec.G` of the three arguments.

  The region's operands are xt = the transposed points ([10, 131072]: xt[d, n] = x[n, d]), tb = the lane-replicated design
  table ([1280, 128]: tb[128·d + k, lane] = p[k, d] at every lane) and c; grid point t (of 8) takes columns
  16384·t … 16384·t+16383 of xt, the whole of tb and c, and writes rows 16384·t … of the result. Block-level the body leaves
  `Gblk` of its input blocks; read through the windows that is block t of ONE function `Garr` of the operand arrays
  (the lane (16384·t + r) mod 128 is r mod 128), the eight blocks cover the array, and with the host prefix read at an
  index `Garr` is `Cert.Spec.G` (`Cert.Spec.exponent_left`).
-/
import proofs.«143545_g10067403342211_week1_w1_198_17_alg».proof.Proof.ValueKI
import proofs.«143545_g10067403342211_week1_w1_198_17_alg».proof.Proof.Block
import proofs.«143545_g10067403342211_week1_w1_198_17_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.GenP Cert.KernelIdeal.Chunk Cert.KernelIdeal.Block
open Idealize.ShloMosaic.Pipeline (Dat)

/-! ## The result as one function of the region's operand arrays -/

/-- One coordinate's distance: |tb[128·d + k, n mod 128] − xt[d, n]|. -/
def aterm (xt : S10x131072.Idx → EReal) (tb : S1280x128.Idx → EReal) (d : Fin 10) (k : Fin 128) (n : Fin 131072) : EReal :=
  max (tb (ix2 (⟨128 * d.val + k.val, by have := d.isLt; have := k.isLt; omega⟩ : Fin 1280)
        (⟨n.val % 128, Nat.mod_lt _ (by decide)⟩ : Fin 128)) - xt (ix2 d n))
    (-(tb (ix2 (⟨128 * d.val + k.val, by have := d.isLt; have := k.isLt; omega⟩ : Fin 1280)
        (⟨n.val % 128, Nat.mod_lt _ (by decide)⟩ : Fin 128)) - xt (ix2 d n)))

/-- The result at row n, column q. -/
def GarrAt (xt : S10x131072.Idx → EReal) (tb : S1280x128.Idx → EReal) (c : S128x128.Idx → EReal)
    (n : Fin 131072) (q : Fin 128) : EReal :=
  ∑ k : Fin 128, Ideal.exp (0 - (aterm xt tb 0 k n + aterm xt tb 1 k n + aterm xt tb 2 k n + aterm xt tb 3 k n
    + aterm xt tb 4 k n + aterm xt tb 5 k n + aterm xt tb 6 k n + aterm xt tb 7 k n + aterm xt tb 8 k n
    + aterm xt tb 9 k n)) * c (ix2 k q)

def Garr (xt : S10x131072.Idx → EReal) (tb : S1280x128.Idx → EReal) (c : S128x128.Idx → EReal) :
    S131072x128.Idx → EReal := fun i => GarrAt xt tb c (i 0) (i 1)

variable (m : (ℓ : Loc nD τ sig) → Buf (Elt Ideal) ℓ) (ρ : Dev nD → PrngReg)

/-! ## The input blocks at a point -/

/-- The printed index maps over the 8 grid points: the points window moves along its second axis with the point, the
    table and the matrix stay, the result window moves along its first axis. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 8 :=
  (by decide +kernel : ∀ t : Fin grid0.N, _)

theorem t_lt (t : Fin cfg0.N) : t.val < 8 := (idx_facts t).2.2.2.2.2.2.2.2

/-- Row 16384·t + r of the arrays: row r of point t's block. -/
def grow (t : Fin cfg0.N) (r : Fin 16384) : Fin 131072 :=
  ⟨16384 * t.val + r.val, by have := t_lt t; have := r.isLt; omega⟩

abbrev blk0 (c : Dev nD) (t : Fin cfg0.N) : Vec Ideal S10x16384 .f32 := iblk m c 0 t
abbrev blk1 (c : Dev nD) (t : Fin cfg0.N) : Vec Ideal S1280x128 .f32 := iblk m c 1 t
abbrev blk2 (c : Dev nD) (t : Fin cfg0.N) : Vec Ideal S128x128 .f32 := iblk m c 2 t

theorem blk0_apply (c : Dev nD) (t : Fin cfg0.N) (d : Fin 10) (r : Fin 16384) :
    blk0 m c t (ix2 d r) = V m c main_v0 (ix2 d (grow t r)) := by
  obtain ⟨e00, e01, -⟩ := idx_facts t
  show V m c main_v0 (((cfg0.win 0).blk t).view.emb (ix2 d r)) = _
  refine congrArg (V m c main_v0) (funext fun a => Fin.ext ?_)
  match a with
  | ⟨0, _⟩ => show win0_0.index t (0 : Fin 2) * 10 + 1 * d.val = d.val; omega
  | ⟨1, _⟩ => show win0_0.index t (1 : Fin 2) * 16384 + 1 * r.val = 16384 * t.val + r.val; omega

theorem blk1_apply (c : Dev nD) (t : Fin cfg0.N) (a : Fin 1280) (l : Fin 128) :
    blk1 m c t (ix2 a l) = V m c main_v4 (ix2 a l) := by
  obtain ⟨-, -, e10, e11, -⟩ := idx_facts t
  show V m c main_v4 (((cfg0.win 1).blk t).view.emb (ix2 a l)) = _
  refine congrArg (V m c main_v4) (funext fun b => Fin.ext ?_)
  match b with
  | ⟨0, _⟩ => show win0_1.index t (0 : Fin 2) * 1280 + 1 * a.val = a.val; omega
  | ⟨1, _⟩ => show win0_1.index t (1 : Fin 2) * 128 + 1 * l.val = l.val; omega

theorem blk2_apply (c : Dev nD) (t : Fin cfg0.N) (k q : Fin 128) :
    blk2 m c t (ix2 k q) = V m c main_arg2 (ix2 k q) := by
  obtain ⟨-, -, -, -, e20, e21, -⟩ := idx_facts t
  show V m c main_arg2 (((cfg0.win 2).blk t).view.emb (ix2 k q)) = _
  refine congrArg (V m c main_arg2) (funext fun b => Fin.ext ?_)
  match b with
  | ⟨0, _⟩ => show win0_2.index t (0 : Fin 2) * 128 + 1 * k.val = k.val; omega
  | ⟨1, _⟩ => show win0_2.index t (1 : Fin 2) * 128 + 1 * q.val = q.val; omega

/-- The block's function of point t's input blocks is `Garr` of the arrays at the block's rows. -/
theorem GblkAt_eq (c : Dev nD) (t : Fin cfg0.N) (r : Fin 16384) (q : Fin 128) :
    GblkAt (blk0 m c t) (blk1 m c t) (blk2 m c t) r q
      = GarrAt (V m c main_v0) (V m c main_v4) (V m c main_arg2) (grow t r) q := by
  have hmod : (⟨r.val % 128, Nat.mod_lt _ (by decide)⟩ : Fin 128) = ⟨(grow t r).val % 128, Nat.mod_lt _ (by decide)⟩ :=
    Fin.ext (by show r.val % 128 = (16384 * t.val + r.val) % 128; omega)
  unfold GblkAt GarrAt dterm aterm
  refine Finset.sum_congr rfl fun k _ => ?_
  simp only [blk0_apply, blk1_apply, blk2_apply, hmod]

/-! ## What a point writes back, the cover, the array after the run -/

theorem flushed_eq (c : Dev nD) (t : Fin cfg0.N) :
    (dats m 0 c).flushed 3 t
      = ((cfg0.win 3).blk t).view.read (Elt Ideal) (Garr (V m c main_v0) (V m c main_v4) (V m c main_arg2)) := by
  rw [ValueP.flushed3]
  obtain ⟨-, -, -, -, -, -, e30, e31, ht⟩ := idx_facts t
  funext y
  have hy0 : (y 0).val < 16384 := (y 0).isLt
  have hy1 : (y 1).val < 128 := (y 1).isLt
  show out0_3 (blk0 m c t) (blk1 m c t) (blk2 m c t) y
    = Garr (V m c main_v0) (V m c main_v4) (V m c main_arg2) (((cfg0.win 3).blk t).view.emb y)
  rw [out0_3_apply]
  have he : ((cfg0.win 3).blk t).view.emb y = ix2 (grow t ⟨(y 0).val, hy0⟩) (⟨(y 1).val, hy1⟩ : Fin 128) := by
    funext a; apply Fin.ext
    match a with
    | ⟨0, _⟩ => show win0_3.index t (0 : Fin 2) * 16384 + 1 * (y 0).val = 16384 * t.val + (y 0).val; omega
    | ⟨1, _⟩ => show win0_3.index t (1 : Fin 2) * 128 + 1 * (y 1).val = (y 1).val; omega
  rw [he]
  exact GblkAt_eq m c t ⟨(y 0).val, hy0⟩ ⟨(y 1).val, hy1⟩

/-- An index of the array is in point t's block iff each coordinate is in the block's range on its axis. -/
theorem mem_blk (t : Fin cfg0.N) (i : S131072x128.Idx) :
    i ∈ ((cfg0.win 3).blk t).view.set ↔ ∀ a : Fin 2, win0_3.index t a * S16384x128.size a ≤ (i a).val
      ∧ (i a).val < win0_3.index t a * S16384x128.size a + S16384x128.size a := by
  show i ∈ ((View.whole main_v5).slice (win0_3.rect t)).set ↔ _
  rw [View.set_slice_whole, Rect.mem_set_unit]
  exact Iff.rfl

/-- Every block row 0 … 7 is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- The eight blocks cover the result array: row n is in block n / 16384. -/
theorem cover (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ := idx_onto ⟨(i 0).val / 16384, by omega⟩
  have q0 : win0_3.index t (0 : Fin 2) = (i 0).val / 16384 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 16384 ≤ (i 0).val ∧ (i 0).val < win0_3.index t (0 : Fin 2) * 16384 + 16384; omega
  | ⟨1, _⟩ => show win0_3.index t (1 : Fin 2) * 128 ≤ (i 1).val ∧ (i 1).val < win0_3.index t (1 : Fin 2) * 128 + 128; omega

/-- The result array after the run, as `Garr` of the operand arrays as the region finds them. -/
theorem final (c : Dev nD) :
    (dats m 0 c).arrAt 3 cfg0.N = Garr (V m c main_v0) (V m c main_v4) (V m c main_arg2) :=
  (dats m 0 c).arrAt_eq_of_cover 3 _ (fun t _ => flushed_eq m c t) cover

/-! ## The operand arrays from the arguments -/

/-- The points operand is the transpose of the first argument. -/
theorem V_v0 (c : Dev nD) : (V m c main_v0 : S10x131072.Idx → EReal)
    = transpose S10x131072 [1, 0] (m ((c : Thread nD τ).loc main_arg0)) transposes_S131072x10_S10x131072_1_0 := by
  dsimp only [V, hostOps0]; after_results

/-- The table operand: the second argument transposed, given a unit third axis, repeated 128 times along it, and
    flattened to [1280, 128]. -/
theorem V_v4 (c : Dev nD) : (V m c main_v4 : S1280x128.Idx → EReal)
    = shapeCast S1280x128
        (broadcastInDim S10x128x128 ![0, 1, 2] bcast_S10x128x1_S10x128x128_0_1_2
          (broadcastInDim S10x128x1 ![0, 1] bcast_S10x128_S10x128x1_0_1
            (transpose S10x128 [1, 0] (m ((c : Thread nD τ).loc main_arg1)) transposes_S128x10_S10x128_1_0)))
        shapeCasts_S10x128x128_S1280x128 := by
  dsimp only [V, hostOps0]; after_results; rfl

/-- xt[d, n] = x[n, d]. -/
theorem V_v0_apply (c : Dev nD) (d : Fin 10) (n : Fin 131072) :
    V m c main_v0 (ix2 d n) = m ((c : Thread nD τ).loc main_arg0) (ix2 n d) :=
  (congrFun (V_v0 m c) (ix2 d n)).trans (transpose_ix2_apply _ _ d n)

/-- tb[128·d + k, lane] = p[k, d], whatever the lane. -/
theorem V_v4_apply (c : Dev nD) (d : Fin 10) (k l : Fin 128) :
    V m c main_v4 (ix2 (⟨128 * d.val + k.val, by have := d.isLt; have := k.isLt; omega⟩ : Fin 1280) l)
      = m ((c : Thread nD τ).loc main_arg1) (ix2 k d) := by
  refine (congrFun (V_v4 m c) _).trans ?_
  refine (shapeCast_apply _ shapeCasts_S10x128x128_S1280x128 _ (ix3 d k l) (by
    rw [Shape.rowMajor_val_three, Shape.rowMajor_val_two]
    show (d.val * 128 + k.val) * 128 + l.val = (128 * d.val + k.val) * 128 + l.val
    omega)).trans ?_
  refine (broadcastInDim_apply _ bcast_S10x128x1_S10x128x128_0_1_2 _ (ix3 d k l) (ix3 d k (0 : Fin 1)) (fun a => match a with
    | ⟨0, _⟩ => by show d.val = if (10 : Nat) = 1 then 0 else d.val; rw [if_neg (by decide)]
    | ⟨1, _⟩ => by show k.val = if (128 : Nat) = 1 then 0 else k.val; rw [if_neg (by decide)]
    | ⟨2, _⟩ => by show 0 = if (1 : Nat) = 1 then 0 else l.val; rw [if_pos rfl])).trans ?_
  refine (broadcastInDim_apply _ bcast_S10x128_S10x128x1_0_1 _ (ix3 d k (0 : Fin 1)) (ix2 d k) (fun a => match a with
    | ⟨0, _⟩ => by show d.val = if (10 : Nat) = 1 then 0 else d.val; rw [if_neg (by decide)]
    | ⟨1, _⟩ => by show k.val = if (128 : Nat) = 1 then 0 else k.val; rw [if_neg (by decide)])).trans ?_
  exact transpose_ix2_apply _ _ d k

/-- With the operands read from the arguments, `Garr` is the features: the ten distances |p[k,d] − x[n,d]| added left
    to right and subtracted from zero are −dist n k. -/
theorem Garr_eq_G (c : Dev nD) :
    Garr (V m c main_v0) (V m c main_v4) (V m c main_arg2)
      = Cert.Spec.G (m ((c : Thread nD τ).loc main_arg0)) (m ((c : Thread nD τ).loc main_arg1))
          (m ((c : Thread nD τ).loc main_arg2)) := by
  funext i
  obtain ⟨n, q, rfl⟩ : ∃ (n : Fin 131072) (q : Fin 128), i = ix2 n q := ⟨i 0, i 1, eq_ix2 i⟩
  show GarrAt (V m c main_v0) (V m c main_v4) (V m c main_arg2) n q
    = ∑ k : Fin 128, Ideal.exp (-(Cert.Spec.dist (m ((c : Thread nD τ).loc main_arg0)) (m ((c : Thread nD τ).loc main_arg1)) n k))
        * m ((c : Thread nD τ).loc main_arg2) (ix2 k q)
  unfold GarrAt
  refine Finset.sum_congr rfl fun k _ => ?_
  rw [← Cert.Spec.exponent_left (m ((c : Thread nD τ).loc main_arg0)) (m ((c : Thread nD τ).loc main_arg1)) n k,
    V_main_arg2]
  unfold aterm
  rw [V_v0_apply m c 0 n,
    V_v0_apply m c 1 n,
    V_v0_apply m c 2 n,
    V_v0_apply m c 3 n,
    V_v0_apply m c 4 n,
    V_v0_apply m c 5 n,
    V_v0_apply m c 6 n,
    V_v0_apply m c 7 n,
    V_v0_apply m c 8 n,
    V_v0_apply m c 9 n,
    V_v4_apply m c 0 k,
    V_v4_apply m c 1 k,
    V_v4_apply m c 2 k,
    V_v4_apply m c 3 k,
    V_v4_apply m c 4 k,
    V_v4_apply m c 5 k,
    V_v4_apply m c 6 k,
    V_v4_apply m c 7 k,
    V_v4_apply m c 8 k,
    V_v4_apply m c 9 k]
  rfl

/-! ## The run, read -/

/-- Every weakly fair execution ends with the result array at the features of the arguments, the arguments unchanged. -/
theorem run : θ_run defs (onTc (τ := τ) (main (F := Ideal))) ⟨m, fun _ => 0, ρ⟩ fun r => ∀ c : Dev nD,
      r.2.mem ((c : Thread nD τ).loc main_v5)
        = Cert.Spec.G (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (Garr_eq_G m c)), (h c).2⟩)
    (ValueP.run_blocks m ρ)

end Cert.KernelIdeal.KValue

end
-- ==== Proof.RefValue.lean ====
/-
  The reference's result is the features `Cert.Spec.G` of the three arguments.

  Read one operation at a time, the reference's element at (n, q) is the sum over the 128 design points m of
  exp((−(0 + Σ_d |x[n,d] − p[m,d]|)) / 1) · c[m, q]: the two broadcasts bring x[n,d] and p[m,d] to index (n, m, d), the sum
  runs over d, and the contraction over m. The exponent is −dist n m (`Cert.Spec.exponent_right`).
-/
import proofs.«143545_g10067403342211_week1_w1_198_17_alg».proof.Proof.Gen.ReferenceIdeal.Read
import proofs.«143545_g10067403342211_week1_w1_198_17_alg».proof.Proof.Spec
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read

/-- The reference's last stage, as a function of the argument arrays, is the features. -/
theorem val_eq_G (x0 : (⟨S131072x10, .f32⟩ : BufTy).Contents (Elt Ideal)) (x1 : (⟨S128x10, .f32⟩ : BufTy).Contents (Elt Ideal))
    (x2 : (⟨S128x128, .f32⟩ : BufTy).Contents (Elt Ideal)) :
    val_main_v11 (F := Ideal) x0 x1 x2 = Cert.Spec.G x0 x1 x2 := by
  funext i
  rw [val_main_v11_apply]
  unfold Cert.Spec.G
  refine Finset.sum_congr rfl fun k _ => ?_
  have e0 : ∀ d : Fin 10, idx_main_v0 (idx_main_v2 (idx_main_v6 (lidx_main_v11 i k) d)) = ix2 (i 0) d := fun d =>
    funext fun a => Fin.ext (by match a with | ⟨0, _⟩ => rfl | ⟨1, _⟩ => rfl)
  have e1 : ∀ d : Fin 10, idx_main_v1 (idx_main_v3 (idx_main_v6 (lidx_main_v11 i k) d)) = ix2 k d := fun d =>
    funext fun a => Fin.ext (by match a with | ⟨0, _⟩ => rfl | ⟨1, _⟩ => rfl)
  have e2 : ridx_main_v11 i k = ix2 k (i 1) :=
    funext fun a => Fin.ext (by match a with | ⟨0, _⟩ => rfl | ⟨1, _⟩ => rfl)
  rw [val_main_v10_apply, val_main_v9_apply, val_main_v7_apply, val_main_v8_apply, val_main_cst_0_apply,
    val_main_v6_apply, val_main_cst_apply]
  simp only [val_main_v5_apply, val_main_v4_apply, val_main_v2_apply, val_main_v3_apply, val_main_v0_apply,
    val_main_v1_apply, e0, e1, e2]
  exact congrArg (fun z => Ideal.exp z * x2 (ix2 k (i 1))) (Cert.Spec.exponent_right x0 x1 (i 0) k)

end Cert.ReferenceIdeal.RefValue

end
-- ==== Proof.lean ====
/-
  The kernel computes the Laplace product-kernel features  out[n, q] = Σ_m exp(−Σ_d |x[n,d] − p[m,d]|) · c[m, q]  in one
  pipelined region over 8 blocks of 16384 points, 128 points at a time, with the distances built transposed
  (design points down the sublanes, points along the lanes) and contracted against c on their first axis; the
  reference broadcasts x and p to [131072, 128, 10], sums |x − p| over the last axis, negates, divides by 1,
  exponentiates and multiplies by c. On the extended reals both are `Cert.Spec.G` of the three arguments
  (Proof/KernelValue.lean over Proof/Block.lean and Proof/Chunk.lean; Proof/RefValue.lean); no law used needs a finite
  input, so the precondition is never opened. The three frames are the generated frame runs (the reference's is its
  run with the result dropped); the idealization rewrote nothing, so `preserves` is trivial.
-/
import proofs.«143545_g10067403342211_week1_w1_198_17_alg».proof.Defs
import proofs.«143545_g10067403342211_week1_w1_198_17_alg».proof.Proof.Gen.Kernel
import proofs.«143545_g10067403342211_week1_w1_198_17_alg».proof.Proof.Gen.Kernel.Skeleton
import proofs.«143545_g10067403342211_week1_w1_198_17_alg».proof.Proof.Gen.Kernel.Launch
import proofs.«143545_g10067403342211_week1_w1_198_17_alg».proof.Proof.Gen.Kernel.Points
import proofs.«143545_g10067403342211_week1_w1_198_17_alg».proof.Proof.FrameK
import proofs.«143545_g10067403342211_week1_w1_198_17_alg».proof.Proof.Gen.KernelIdeal
import proofs.«143545_g10067403342211_week1_w1_198_17_alg».proof.Proof.Gen.KernelIdeal.Skeleton
import proofs.«143545_g10067403342211_week1_w1_198_17_alg».proof.Proof.Gen.KernelIdeal.Launch
import proofs.«143545_g10067403342211_week1_w1_198_17_alg».proof.Proof.Gen.KernelIdeal.Points
import proofs.«143545_g10067403342211_week1_w1_198_17_alg».proof.Proof.FrameKI
import proofs.«143545_g10067403342211_week1_w1_198_17_alg».proof.Proof.Gen.ReferenceIdeal
import proofs.«143545_g10067403342211_week1_w1_198_17_alg».proof.Proof.Gen.Pre_finite_inputs
import proofs.«143545_g10067403342211_week1_w1_198_17_alg».proof.Proof.Gen.ReferenceIdeal.Run
import proofs.«143545_g10067403342211_week1_w1_198_17_alg».proof.Proof.Gen.ReferenceIdeal.Read
import proofs.«143545_g10067403342211_week1_w1_198_17_alg».proof.Proof.KernelValue
import proofs.«143545_g10067403342211_week1_w1_198_17_alg».proof.Proof.RefValue
import Idealize.ShloMosaic.Adequacy
import Idealize.ShloMosaic.Init

noncomputable section

namespace Cert.Proof

open Idealize.ShloMosaic Idealize.SL.Sem

/-- Both idealized programs, from memories agreeing on the arguments, end with the features of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.RefValue.val_eq_G,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.Value.run (F := Ideal) m ρ),
  trivial,
  algebraic⟩

end Cert.Proof

end
